-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v43_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S134x128 : S_.BroadcastsInDim S134x128 (![] : Fin 0 → Fin S134x128.rank)
  reducesTo_S134x128_S_d0_1 : S134x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S128x32 .f32) (main_arg5 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x3 .f32) (main_arg1 : FVec F S200000x128 .f32) (main_arg2 : FVec F S134x128 .f32) (main_arg3 : FVec F S128 .f32) (main_arg4 : FVec F S128x32 .f32) (main_arg5 : FVec F S32 .f32) (main_arg6 : IVec S200000x3 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S134x128 .f32 := Host.absf main_arg2
  let main_cst_2 : FVec F S_ .f32 := constant S_ .f32 0x7F800000#32
  let main_v10 : FVec F S134x128 .f32 := broadcastInDim S134x128 ![] bcast_S_S134x128 main_cst_2
  let main_v11 : IVec S134x128 1 := cmpf .olt main_v9 main_v10
  let main_c_3 : IVec S_ 1 := constantI S_ 1 1#1
  let main_v12 : IVec S_ 1 := (fun x v => Host.reduce IntOp.andi x v reducesTo_S134x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S200000x18 : Shape := ⟨2, ![200000, 18]⟩
abbrev S6x128 : Shape := ⟨2, ![6, 128]⟩
abbrev S128x128 : Shape := ⟨2, ![128, 128]⟩
abbrev S1x128 : Shape := ⟨2, ![1, 128]⟩
abbrev S1x32 : Shape := ⟨2, ![1, 32]⟩
abbrev S200000x9 : Shape := ⟨2, ![200000, 9]⟩
abbrev S200000x29 : Shape := ⟨2, ![200000, 29]⟩
abbrev S8000x18 : Shape := ⟨2, ![8000, 18]⟩
abbrev S8000x128 : Shape := ⟨2, ![8000, 128]⟩
abbrev S8000x9 : Shape := ⟨2, ![8000, 9]⟩
abbrev S8000x29 : Shape := ⟨2, ![8000, 29]⟩
abbrev S8000x6 : Shape := ⟨2, ![8000, 6]⟩
abbrev S8000x32 : Shape := ⟨2, ![8000, 32]⟩
abbrev S8000x3 : Shape := ⟨2, ![8000, 3]⟩
abbrev S600000x3 : Shape := ⟨2, ![600000, 3]⟩
abbrev S600000 : Shape := ⟨1, ![600000]⟩
abbrev S600000x1 : Shape := ⟨2, ![600000, 1]⟩
abbrev S100000 : Shape := ⟨1, ![100000]⟩
abbrev S100000x1 : Shape := ⟨2, ![100000, 1]⟩

abbrev nBuf : Space → Nat
  | .hbm => 87
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S200000x128, .f32⟩
  | .hbm, ⟨2, _⟩ => ⟨S134x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S200000x3, .i32⟩
  | .hbm, ⟨7, _⟩ => ⟨S200000x1, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x3, .f32⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x3, .f32⟩
  | .hbm, ⟨29, _⟩ => ⟨S200000x1, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S200000x1, .i32⟩
  | .hbm, ⟨39, _⟩ => ⟨S200000x3, .f32⟩
  | .hbm, ⟨40, _⟩ => ⟨S200000x3, .f32⟩
  | .hbm, ⟨41, _⟩ => ⟨S200000x3, .f32⟩
  | .hbm, ⟨42, _⟩ => ⟨S200000x3, .f32⟩
  | .hbm, ⟨43, _⟩ => ⟨S200000x3, .f32⟩
  | .hbm, ⟨44, _⟩ => ⟨S200000x3, .f32⟩
  | .hbm, ⟨45, _⟩ => ⟨S200000x3, .f32⟩
  | .hbm, ⟨46, _⟩ => ⟨S200000x18, .f32⟩
  | .hbm, ⟨47, _⟩ => ⟨S200000x18, .bf16⟩
  | .hbm, ⟨48, _⟩ => ⟨S200000x128, .bf16⟩
  | .hbm, ⟨49, _⟩ => ⟨S6x128, .f32⟩
  | .hbm, ⟨50, _⟩ => ⟨S6x128, .bf16⟩
  | .hbm, ⟨51, _⟩ => ⟨S128x128, .f32⟩
  | .hbm, ⟨52, _⟩ => ⟨S128x128, .bf16⟩
  | .hbm, ⟨53, _⟩ => ⟨S128x32, .bf16⟩
  | .hbm, ⟨54, _⟩ => ⟨S1x128, .f32⟩
  | .hbm, ⟨55, _⟩ => ⟨S1x32, .f32⟩
  | .hbm, ⟨56, _⟩ => ⟨S200000x9, .f32⟩
  | .hbm, ⟨57, _⟩ => ⟨S200000x29, .f32⟩
  | .hbm, ⟨58, _⟩ => ⟨S200000x3, .f32⟩
  | .hbm, ⟨59, _⟩ => ⟨S200000x3, .f32⟩
  | .hbm, ⟨60, _⟩ => ⟨S200000x3, .f32⟩
  | .hbm, ⟨61, _⟩ => ⟨S600000x3, .f32⟩
  | .hbm, ⟨62, _⟩ => ⟨S200000x1, .i32⟩
  | .hbm, ⟨63, _⟩ => ⟨S200000, .i32⟩
  | .hbm, ⟨64, _⟩ => ⟨S200000x1, .i32⟩
  | .hbm, ⟨65, _⟩ => ⟨S200000, .i32⟩
  | .hbm, ⟨66, _⟩ => ⟨S200000x1, .i32⟩
  | .hbm, ⟨67, _⟩ => ⟨S200000, .i32⟩
  | .hbm, ⟨68, _⟩ => ⟨S600000, .i32⟩
  | .hbm, ⟨69, _⟩ => ⟨S_, .f32⟩
  | .hbm, ⟨70, _⟩ => ⟨S100000x3, .f32⟩
  | .hbm, ⟨71, _⟩ => ⟨S600000x1, .i32⟩
  | .hbm, ⟨72, _⟩ => ⟨S100000x3, .f32⟩
  | .hbm, ⟨73, _⟩ => ⟨S_, .f32⟩
  | .hbm, ⟨74, _⟩ => ⟨S600000, .f32⟩
  | .hbm, ⟨75, _⟩ => ⟨S_, .f32⟩
  | .hbm, ⟨76, _⟩ => ⟨S100000, .f32⟩
  | .hbm, ⟨77, _⟩ => ⟨S600000x1, .i32⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x3, .f32⟩
  | .hbm, ⟨85, _⟩ => ⟨S100000x3, .f32⟩
  | .hbm, ⟨86, _⟩ => ⟨S100000x3, .f32⟩
  | .local _ .vmem, ⟨0, _⟩ => ⟨S8000x18, .bf16⟩
  | .local _ .vmem, ⟨1, _⟩ => ⟨S8000x18, .bf16⟩
  | .local _ .vmem, ⟨2, _⟩ => ⟨S8000x128, .bf16⟩
  | .local _ .vmem, ⟨3, _⟩ => ⟨S8000x128, .bf16⟩
  | .local _ .vmem, ⟨4, _⟩ => ⟨S6x128, .bf16⟩
  | .local _ .vmem, ⟨5, _⟩ => ⟨S128x128, .bf16⟩
  | .local _ .vmem, ⟨6, _⟩ => ⟨S1x128, .f32⟩
  | .local _ .vmem, ⟨7, _⟩ => ⟨S128x32, .bf16⟩
  | .local _ .vmem, ⟨8, _⟩ => ⟨S1x32, .f32⟩
  | .local _ .vmem, ⟨9, _⟩ => ⟨S8000x9, .f32⟩
  | .local _ .vmem, ⟨10, _⟩ => ⟨S8000x9, .f32⟩
  | .local _ .vmem, ⟨11, _⟩ => ⟨S8000x29, .f32⟩
  | .local _ .vmem, ⟨12, _⟩ => ⟨S8000x29, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_call0_v0 : Ref sig .tc := ⟨.hbm, 80, rfl⟩
abbrev main_call0_v1 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x18 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x29 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x3_S200000x1_0_1 : S200000x3.Slices ![0, 1] S200000x1
  slices_S200000x3_S200000x1_0_2 : S200000x3.Slices ![0, 2] S200000x1
  concatenates_S200000x3_S200000x3_S200000x3_S200000x3_S200000x3_S200000x3_S200000x18_d1 : Shape.Concatenates [S200000x3, S200000x3, S200000x3, S200000x3, S200000x3, S200000x3] S200000x18 1
  bitsLt_bf16_f32 : FTy.bits .bf16 < FTy.bits .f32
  slices_S134x128_S6x128_0_0 : S134x128.Slices ![0, 0] S6x128
  slices_S134x128_S128x128_6_0 : S134x128.Slices ![6, 0] S128x128
  shapeCasts_S128_S1x128 : S128.ShapeCasts S1x128
  shapeCasts_S32_S1x32 : S32.ShapeCasts S1x32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S8000x18_S8000x18_0_0 : ∀ a, (![0, 0] : Fin 2 → Nat) a + S8000x18.size a ≤ S8000x18.size a
  h_S8000x18 : 0 < S8000x18.numel
  shapeCasts_S8000x18_S8000x18 : S8000x18.ShapeCasts S8000x18
  slices_S8000x18_o0_0_S8000x6 : S8000x18.Slices ![0, 0] S8000x6
  broadcasts_S1x128_S8000x128 : S1x128.Broadcasts S8000x128
  broadcasts_S1x32_S8000x32 : S1x32.Broadcasts S8000x32
  slices_S8000x32_o0_0_S8000x3 : S8000x32.Slices ![0, 0] S8000x3
  inb_S8000x9_S8000x3_0_0 : ∀ a, (![0, 0] : Fin 2 → Nat) a + S8000x3.size a ≤ S8000x9.size a
  h_S8000x3 : 0 < S8000x3.numel
  slices_S8000x32_o0_3_S8000x29 : S8000x32.Slices ![0, 3] S8000x29
  slices_S8000x18_o0_6_S8000x6 : S8000x18.Slices ![0, 6] S8000x6
  inb_S8000x9_S8000x3_0_3 : ∀ a, (![0, 3] : Fin 2 → Nat) a + S8000x3.size a ≤ S8000x9.size a
  slices_S8000x18_o0_12_S8000x6 : S8000x18.Slices ![0, 12] S8000x6
  inb_S8000x9_S8000x3_0_6 : ∀ a, (![0, 6] : Fin 2 → Nat) a + S8000x3.size a ≤ S8000x9.size a
  inb_S8000x29_S8000x29_0_0 : ∀ a, (![0, 0] : Fin 2 → Nat) a + S8000x29.size a ≤ S8000x29.size a
  h_S8000x29 : 0 < S8000x29.numel
  slices_S200000x9_S200000x3_0_0 : S200000x9.Slices ![0, 0] S200000x3
  slices_S200000x9_S200000x3_0_3 : S200000x9.Slices ![0, 3] S200000x3
  slices_S200000x9_S200000x3_0_6 : S200000x9.Slices ![0, 6] S200000x3
  concatenates_S200000x3_S200000x3_S200000x3_S600000x3_d0 : Shape.Concatenates [S200000x3, S200000x3, S200000x3] S600000x3 0
  concatenates_S200000_S200000_S200000_S600000_d0 : Shape.Concatenates [S200000, S200000, S200000] S600000 0
  bcast_S_S100000x3 : S_.BroadcastsInDim S100000x3 (![] : Fin 0 → Fin S100000x3.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S200000x1_S200000x3_1_0_n_n_0_1_13_wf : GatherDims.WF S100000x3 S200000x1 S200000x3 [1] [0] [] [0] [] 1 ![1, 3]
  dot_S8000x128_S128x128_S8000x128_1_0_0_1_n_n_wf : DotDims.WF S8000x128 S128x128 S8000x128 [1] [0] [0] [1] [] []
  dot_S8000x6_S6x128_S8000x128_1_0_0_1_n_n_wf : DotDims.WF S8000x6 S6x128 S8000x128 [1] [0] [0] [1] [] []
  dot_S8000x128_S128x32_S8000x32_1_0_0_1_n_n_wf : DotDims.WF S8000x128 S128x32 S8000x32 [1] [0] [0] [1] [] []
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x18.size a ≤ S200000x18.size a
  hwx0_0 : ∀ i : grid0.Coords, EltTy.bits .bf16 = 32 ∨ (Rect.block (s := S200000x18) S8000x18.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .bf16 = 32 ∨ (Rect.block (s := S200000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .bf16 = 32 ∨ (Rect.block (s := S6x128) S6x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x9.size a ≤ S200000x9.size a
  hwx0_7 : ∀ i : grid0.Coords, EltTy.bits .f32 = 32 ∨ (Rect.block (s := S200000x9) S8000x9.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x29.size a ≤ S200000x29.size a
  hwx0_8 : ∀ i : grid0.Coords, EltTy.bits .f32 = 32 ∨ (Rect.block (s := S200000x29) S8000x29.size (cc0_transform_8 i) (hinb0_8 i)).WholeWords (EltTy.packing .f32)

variable [Facts₀]

def gather_S100000x3_S200000x1_S200000x3_1_0_n_n_0_1_13 : GatherDims S100000x3 S200000x1 S200000x3 where
  offsetDims := [1]
  collapsedSliceDims := [0]
  operandBatchingDims := []
  startIndicesBatchingDims := []
  startIndexMap := [0]
  indexVectorDim := 1
  sliceSizes := ![1, 3]
  wf := gather_S100000x3_S200000x1_S200000x3_1_0_n_n_0_1_13_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x6_S6x128_S8000x128_1_0_0_1_n_n : DotDims S8000x6 S6x128 S8000x128 where
  lhsContracting := [1]
  rhsContracting := [0]
  lhsNonContracting := [0]
  rhsNonContracting := [1]
  lhsBatch := []
  rhsBatch := []
  wf := dot_S8000x6_S6x128_S8000x128_1_0_0_1_n_n_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

abbrev win0_0 : Pipeline.Window sig grid0 :=
  Pipeline.Window.ofSpec (Memref.whole main_v34) S8000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43_0) S8000x9.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v43_1) S8000x29.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S200000x134 : Shape := ⟨2, ![200000, 134]⟩
abbrev S1x128 : Shape := ⟨2, ![1, 128]⟩
abbrev S200000x32 : Shape := ⟨2, ![200000, 32]⟩
abbrev S1x32 : Shape := ⟨2, ![1, 32]⟩
abbrev S200000x29 : Shape := ⟨2, ![200000, 29]⟩
abbrev S600000x3 : Shape := ⟨2, ![600000, 3]⟩
abbrev S600000 : Shape := ⟨1, ![600000]⟩
abbrev S600000x1 : Shape := ⟨2, ![600000, 1]⟩
abbrev S100000 : Shape := ⟨1, ![100000]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S200000x128, .f32⟩
  | .hbm, ⟨2, _⟩ => ⟨S134x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S200000x3, .i32⟩
  | .hbm, ⟨7, _⟩ => ⟨S200000x1, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x3, .f32⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x3, .f32⟩
  | .hbm, ⟨29, _⟩ => ⟨S200000x1, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S200000x1, .i32⟩
  | .hbm, ⟨39, _⟩ => ⟨S200000x3, .f32⟩
  | .hbm, ⟨40, _⟩ => ⟨S200000x3, .f32⟩
  | .hbm, ⟨41, _⟩ => ⟨S200000x3, .f32⟩
  | .hbm, ⟨42, _⟩ => ⟨S200000x134, .f32⟩
  | .hbm, ⟨43, _⟩ => ⟨S200000x128, .f32⟩
  | .hbm, ⟨44, _⟩ => ⟨S1x128, .f32⟩
  | .hbm, ⟨45, _⟩ => ⟨S200000x128, .f32⟩
  | .hbm, ⟨46, _⟩ => ⟨S200000x128, .f32⟩
  | .hbm, ⟨47, _⟩ => ⟨S_, .f32⟩
  | .hbm, ⟨48, _⟩ => ⟨S200000x128, .f32⟩
  | .hbm, ⟨49, _⟩ => ⟨S200000x128, .f32⟩
  | .hbm, ⟨50, _⟩ => ⟨S200000x32, .f32⟩
  | .hbm, ⟨51, _⟩ => ⟨S1x32, .f32⟩
  | .hbm, ⟨52, _⟩ => ⟨S200000x32, .f32⟩
  | .hbm, ⟨53, _⟩ => ⟨S200000x32, .f32⟩
  | .hbm, ⟨54, _⟩ => ⟨S200000x3, .f32⟩
  | .hbm, ⟨55, _⟩ => ⟨S200000x3, .f32⟩
  | .hbm, ⟨56, _⟩ => ⟨S200000x134, .f32⟩
  | .hbm, ⟨57, _⟩ => ⟨S200000x128, .f32⟩
  | .hbm, ⟨58, _⟩ => ⟨S1x128, .f32⟩
  | .hbm, ⟨59, _⟩ => ⟨S200000x128, .f32⟩
  | .hbm, ⟨60, _⟩ => ⟨S200000x128, .f32⟩
  | .hbm, ⟨61, _⟩ => ⟨S_, .f32⟩
  | .hbm, ⟨62, _⟩ => ⟨S200000x128, .f32⟩
  | .hbm, ⟨63, _⟩ => ⟨S200000x128, .f32⟩
  | .hbm, ⟨64, _⟩ => ⟨S200000x32, .f32⟩
  | .hbm, ⟨65, _⟩ => ⟨S1x32, .f32⟩
  | .hbm, ⟨66, _⟩ => ⟨S200000x32, .f32⟩
  | .hbm, ⟨67, _⟩ => ⟨S200000x32, .f32⟩
  | .hbm, ⟨68, _⟩ => ⟨S200000x3, .f32⟩
  | .hbm, ⟨69, _⟩ => ⟨S200000x3, .f32⟩
  | .hbm, ⟨70, _⟩ => ⟨S200000x134, .f32⟩
  | .hbm, ⟨71, _⟩ => ⟨S200000x128, .f32⟩
  | .hbm, ⟨72, _⟩ => ⟨S1x128, .f32⟩
  | .hbm, ⟨73, _⟩ => ⟨S200000x128, .f32⟩
  | .hbm, ⟨74, _⟩ => ⟨S200000x128, .f32⟩
  | .hbm, ⟨75, _⟩ => ⟨S_, .f32⟩
  | .hbm, ⟨76, _⟩ => ⟨S200000x128, .f32⟩
  | .hbm, ⟨77, _⟩ => ⟨S200000x128, .f32⟩
  | .hbm, ⟨78, _⟩ => ⟨S200000x32, .f32⟩
  | .hbm, ⟨79, _⟩ => ⟨S1x32, .f32⟩
  | .hbm, ⟨80, _⟩ => ⟨S200000x32, .f32⟩
  | .hbm, ⟨81, _⟩ => ⟨S200000x32, .f32⟩
  | .hbm, ⟨82, _⟩ => ⟨S200000x29, .f32⟩
  | .hbm, ⟨83, _⟩ => ⟨S200000x29, .f32⟩
  | .hbm, ⟨84, _⟩ => ⟨S200000x29, .f32⟩
  | .hbm, ⟨85, _⟩ => ⟨S200000x29, .f32⟩
  | .hbm, ⟨86, _⟩ => ⟨S200000x29, .f32⟩
  | .hbm, ⟨87, _⟩ => ⟨S_, .f32⟩
  | .hbm, ⟨88, _⟩ => ⟨S200000x29, .f32⟩
  | .hbm, ⟨89, _⟩ => ⟨S200000x29, .f32⟩
  | .hbm, ⟨90, _⟩ => ⟨S200000x3, .f32⟩
  | .hbm, ⟨91, _⟩ => ⟨S200000x3, .f32⟩
  | .hbm, ⟨92, _⟩ => ⟨S200000x3, .f32⟩
  | .hbm, ⟨93, _⟩ => ⟨S600000x3, .f32⟩
  | .hbm, ⟨94, _⟩ => ⟨S200000x1, .i32⟩
  | .hbm, ⟨95, _⟩ => ⟨S200000, .i32⟩
  | .hbm, ⟨96, _⟩ => ⟨S200000x1, .i32⟩
  | .hbm, ⟨97, _⟩ => ⟨S200000, .i32⟩
  | .hbm, ⟨98, _⟩ => ⟨S200000x1, .i32⟩
  | .hbm, ⟨99, _⟩ => ⟨S200000, .i32⟩
  | .hbm, ⟨100, _⟩ => ⟨S600000, .i32⟩
  | .hbm, ⟨101, _⟩ => ⟨S_, .f32⟩
  | .hbm, ⟨102, _⟩ => ⟨S100000x3, .f32⟩
  | .hbm, ⟨103, _⟩ => ⟨S600000x1, .i32⟩
  | .hbm, ⟨104, _⟩ => ⟨S100000x3, .f32⟩
  | .hbm, ⟨105, _⟩ => ⟨S_, .f32⟩
  | .hbm, ⟨106, _⟩ => ⟨S600000, .f32⟩
  | .hbm, ⟨107, _⟩ => ⟨S_, .f32⟩
  | .hbm, ⟨108, _⟩ => ⟨S100000, .f32⟩
  | .hbm, ⟨109, _⟩ => ⟨S600000x1, .i32⟩
  | .hbm, ⟨110, _⟩ => ⟨S100000, .f32⟩
  | .hbm, ⟨111, _⟩ => ⟨S_, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x3, .f32⟩
  | .hbm, ⟨117, _⟩ => ⟨S100000x3, .f32⟩
  | .hbm, ⟨118, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call2_cst : Ref sig .tc := ⟨.hbm, 75, rfl⟩
abbrev main_call2_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_5 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_6 : Ref sig .tc := ⟨.hbm, 105, rfl⟩
abbrev main_v84 : Ref sig .tc := ⟨.hbm, 106, rfl⟩
abbrev main_cst_7 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_8 : Ref sig .tc := ⟨.hbm, 111, rfl⟩
abbrev main_call3_v0 : Ref sig .tc := ⟨.hbm, 112, rfl⟩
abbrev main_call3_v1 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x3_S200000x1_0_1 : S200000x3.Slices ![0, 1] S200000x1
  slices_S200000x3_S200000x1_0_2 : S200000x3.Slices ![0, 2] S200000x1
  concatenates_S200000x3_S200000x3_S200000x128_S200000x134_d1 : Shape.Concatenates [S200000x3, S200000x3, S200000x128] S200000x134 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  slices_S200000x32_S200000x29_0_3 : S200000x32.Slices ![0, 3] S200000x29
  bcast_S_S200000x29 : S_.BroadcastsInDim S200000x29 (![] : Fin 0 → Fin S200000x29.rank)
  slices_S200000x32_S200000x3_0_0 : S200000x32.Slices ![0, 0] S200000x3
  concatenates_S200000x3_S200000x3_S200000x3_S600000x3_d0 : Shape.Concatenates [S200000x3, S200000x3, S200000x3] S600000x3 0
  concatenates_S200000_S200000_S200000_S600000_d0 : Shape.Concatenates [S200000, S200000, S200000] S600000 0
  bcast_S_S100000x3 : S_.BroadcastsInDim S100000x3 (![] : Fin 0 → Fin S100000x3.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S200000x1_S200000x3_1_0_n_n_0_1_13_wf : GatherDims.WF S100000x3 S200000x1 S200000x3 [1] [0] [] [0] [] 1 ![1, 3]
  dot_S200000x134_S134x128_S200000x128_1_0_0_1_n_n_wf : DotDims.WF S200000x134 S134x128 S200000x128 [1] [0] [0] [1] [] []
  dot_S200000x128_S128x32_S200000x32_1_0_0_1_n_n_wf : DotDims.WF S200000x128 S128x32 S200000x32 [1] [0] [0] [1] [] []
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1

variable [Facts₀]

def gather_S100000x3_S200000x1_S200000x3_1_0_n_n_0_1_13 : GatherDims S100000x3 S200000x1 S200000x3 where
  offsetDims := [1]
  collapsedSliceDims := [0]
  operandBatchingDims := []
  startIndicesBatchingDims := []
  startIndexMap := [0]
  indexVectorDim := 1
  sliceSizes := ![1, 3]
  wf := gather_S100000x3_S200000x1_S200000x3_1_0_n_n_0_1_13_wf
def dot_S200000x134_S134x128_S200000x128_1_0_0_1_n_n : DotDims S200000x134 S134x128 S200000x128 where
  lhsContracting := [1]
  rhsContracting := [0]
  lhsNonContracting := [0]
  rhsNonContracting := [1]
  lhsBatch := []
  rhsBatch := []
  wf := dot_S200000x134_S134x128_S200000x128_1_0_0_1_n_n_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.KB.Data.lean ====
/-
  What the one kernel region of the kernel program as printed is run against, stated for any float family:
  the device's buffer contents when the region is entered (the host lines before it applied to the launch memory),
  each window's block at a grid point, what the body leaves in the two result windows' buffers, and the pipeline's
  proof data. The body computes, for each of the three triangle corners, a two-layer perceptron of the corner's six
  edge differences and the face's features; the first three output columns of corner c go to columns 3c..3c+2 of the
  first result block, the other 29 are averaged over the corners into the second.
-/
import proofs.«137711_j6528350290204_1_alg».proof.Proof.Gen.Kernel.Launch
import proofs.«137711_j6528350290204_1_alg».proof.Proof.Gen.Kernel.Skeleton
import proofs.«137711_j6528350290204_1_alg».proof.Proof.Gen.Kernel.Points
import Idealize.ShloMosaic.Lib.Pipeline.FrameBody
import Idealize.ShloMosaic.Lib.Pipeline.FrameSuffix

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-! ## The buffers as the region finds them -/

/-- Core `c`'s TensorCore buffer contents when the region is entered: the 49 host lines before it, applied in
    order to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch: the slices and the scatter-sums, the clip of the counts,
    the quotient and the new positions. -/
abbrev tailOps : List (List (HloOp τ sig (Elt F))) := [hostOps1, hostOps1_1, hostOps1_2]

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The seven input blocks are loaded whole. -/
abbrev rD : Rect S8000x18 := Rect.unit (s := S8000x18) ![0, 0] S8000x18.size inb_S8000x18_S8000x18_0_0
abbrev rX : Rect S8000x128 := Rect.unit (s := S8000x128) ![0, 0] S8000x128.size inb_S8000x128_S8000x128_0_0
abbrev rWd : Rect S6x128 := Rect.unit (s := S6x128) ![0, 0] S6x128.size inb_S6x128_S6x128_0_0
abbrev rWf : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x32 := Rect.unit (s := S128x32) ![0, 0] S128x32.size inb_S128x32_S128x32_0_0
abbrev rB2 : Rect S1x32 := Rect.unit (s := S1x32) ![0, 0] S1x32.size inb_S1x32_S1x32_0_0
/-- Corner `c`'s three position columns are stored at columns `3c .. 3c+2` of the first result block. -/
abbrev rP0 : Rect S8000x9 := Rect.unit (s := S8000x9) ![0, 0] S8000x3.size inb_S8000x9_S8000x3_0_0
abbrev rP3 : Rect S8000x9 := Rect.unit (s := S8000x9) ![0, 3] S8000x3.size inb_S8000x9_S8000x3_0_3
abbrev rP6 : Rect S8000x9 := Rect.unit (s := S8000x9) ![0, 6] S8000x3.size inb_S8000x9_S8000x3_0_6
/-- The second result block is stored whole. -/
abbrev rQ : Rect S8000x29 := Rect.unit (s := S8000x29) ![0, 0] S8000x29.size inb_S8000x29_S8000x29_0_0

/-! ## What the body leaves in each result window's buffer -/

section Out
variable (x0 : Vec F S8000x18 .bf16) (x1 : Vec F S8000x128 .bf16) (x2 : Vec F S6x128 .bf16) (x3 : Vec F S128x128 .bf16)
  (x4 : Vec F S1x128 .f32) (x5 : Vec F S128x32 .bf16) (x6 : Vec F S1x32 .f32)

/-- Corner 0's position columns, from the seven input blocks. -/
def pos0 : FVec F S8000x3 .f32 :=
  k0_pay13 (View.ld x1 rX) (View.ld x3 rWf) (View.ld x4 rB1) (View.ld x2 rWd) (View.ld x5 rW2) (View.ld x6 rB2) (View.ld x0 rD)
/-- Corner 1's. -/
def pos1 : FVec F S8000x3 .f32 :=
  k0_pay2 (k0_pay9 (View.ld x5 rW2)) (k0_pay10 (View.ld x6 rB2))
    (k0_pay15 (View.ld x1 rX) (View.ld x3 rWf) (View.ld x4 rB1) (View.ld x2 rWd) (View.ld x0 rD))
/-- Corner 2's. -/
def pos2 : FVec F S8000x3 .f32 :=
  k0_pay4 (k0_pay6 (View.ld x1 rX) (View.ld x3 rWf)) (k0_pay7 (View.ld x4 rB1)) (k0_pay8 (View.ld x2 rWd)) (k0_pay9 (View.ld x5 rW2))
    (k0_pay10 (View.ld x6 rB2)) (k0_pay11 (View.ld x0 rD))
/-- The corners' mean of the other 29 output columns. -/
def feat : FVec F S8000x29 .f32 :=
  k0_pay5 (k0_pay6 (View.ld x1 rX) (View.ld x3 rWf)) (k0_pay7 (View.ld x4 rB1)) (k0_pay8 (View.ld x2 rWd)) (k0_pay9 (View.ld x5 rW2))
    (k0_pay10 (View.ld x6 rB2)) (k0_pay11 (View.ld x0 rD))
    (k0_pay14 (View.ld x1 rX) (View.ld x3 rWf) (View.ld x4 rB1) (View.ld x2 rWd) (View.ld x5 rW2) (View.ld x6 rB2) (View.ld x0 rD))
    (k0_pay15 (View.ld x1 rX) (View.ld x3 rWf) (View.ld x4 rB1) (View.ld x2 rWd) (View.ld x0 rD))

/-- Window 7's buffer after the body: its three column stores as pieces, the last store first. -/
def out7 : Vec F S8000x9 .f32 :=
  View.canon [⟨rP6, pos2 x0 x1 x2 x3 x4 x5 x6⟩, ⟨rP3, pos1 x0 x1 x2 x3 x4 x5 x6⟩, ⟨rP0, pos0 x0 x1 x2 x3 x4 x5 x6⟩]
/-- Window 8's buffer after the body: its one whole store. -/
def out8 : Vec F S8000x29 .f32 :=
  View.canon [⟨rQ, feat x0 x1 x2 x3 x4 x5 x6⟩]
end Out

/-! ## The pipeline's proof data -/

/-- The proof data of the one pipeline on core `c`: the arrays as the region finds them; after the body at point `t`
    each input's buffer at its block and each result's at what the body leaves of the input blocks; the scoped rest and
    the random-number register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
    | ⟨8, _⟩ => out8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t
    = out8 (iblk m c 0 t) (iblk m c 1 t) (iblk m c 2 t) (iblk m c 3 t) (iblk m c 4 t) (iblk m c 5 t) (iblk m c 6 t) := by dsimp only [dats]

end Cert.Kernel.Frm

end
-- ==== Proof.KB.Around.lean ====
/-
  The host lines around the one kernel region of the kernel program as printed: @main is the 49 lines before the
  region, the region, and three stretches of lines after it; none of those lines writes an argument array, so each
  argument is found by the region as launched and ends as launched.
-/
import proofs.«137711_j6528350290204_1_alg».proof.Proof.KB.Data
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 1000000 in
/-- No line of the first stretch after the region writes an array of the pipeline: each writes its own result buffer only. -/
theorem hostOps1_keeps : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- Nor does a line of the second, -/
theorem hostOps1_1_keeps : ∀ op ∈ (hostOps1_1 : List (HloOp τ sig (Elt F))),
    ∀ w, Proc.devRef .tc (Pipeline.arrRef spec0 w) ∉ op.writes := by
  intro op hop
  simp only [hostOps1_1, StableHlo.TRef.unary, StableHlo.TRef.binary, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- nor of the third. -/
theorem hostOps1_2_keeps : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact hostOps1_keeps op hop
  · exact hostOps1_1_keeps op hop
  · exact hostOps1_2_keeps op hop

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: every argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

end Cert.Kernel.Frm

end
-- ==== Proof.KB.Body.lean ====
/-
  The kernel body of the kernel program as printed at a grid point, and the run of @main: on whole staging buffers,
  the seven inputs' at their blocks and the two results' at anything, the body runs to the end leaving the inputs'
  as they were and each result's at what its stores cover it with; with that, every weakly fair execution of @main
  terminates with each array of the pipeline at what the proof data says and every other buffer as the host lines
  after the region leave it.
-/
import proofs.«137711_j6528350290204_1_alg».proof.Proof.KB.Around

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three column stores tile the first result block. -/
theorem cover7 (p0 p1 p2 : Vec F S8000x3 .f32) (y : S8000x9.Idx) :
    ∃ pc ∈ ([⟨rP6, p2⟩, ⟨rP3, p1⟩, ⟨rP0, p0⟩] : List (View.Piece (Elt F) S8000x9 .f32)), y ∈ pc.1.set :=
  View.cover_of_tiled [⟨rP6, p2⟩, ⟨rP3, p1⟩, ⟨rP0, p0⟩] S8000x3.size (by rfl) y
/-- The one store covers the second. -/
theorem cover8 (p0 : Vec F S8000x29 .f32) (y : S8000x29.Idx) :
    ∃ pc ∈ ([⟨rQ, p0⟩] : List (View.Piece (Elt F) S8000x29 .f32)), y ∈ pc.1.set :=
  View.cover_of_tiled [⟨rQ, p0⟩] S8000x29.size (by rfl) y

set_option maxHeartbeats 1000000 in
/-- The kernel body on whole staging buffers, the seven inputs' at read contents `x0 … x6` and the two results' at anything,
    runs to the continuation holding the inputs' as they were and each result's at what its stores cover it with: the
    seven loads read the inputs whole, the loads of the result rectangles are never used, and the three column stores
    into the first result and the one whole store into the second read back as the canonical contents of their pieces. -/
theorem sound_kernel (c : Dev nD) (E : Set ℕ) (i : grid0.Coords)
    (arg1 : Memref sig .tc .vmem S8000x18 .bf16) (harg1 : arg1.IsWhole)
    (arg2 : Memref sig .tc .vmem S8000x128 .bf16) (harg2 : arg2.IsWhole)
    (arg3 : Memref sig .tc .vmem S6x128 .bf16) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S128x32 .bf16) (harg6 : arg6.IsWhole)
    (arg7 : Memref sig .tc .vmem S1x32 .f32) (harg7 : arg7.IsWhole)
    (arg8 : Memref sig .tc .vmem S8000x9 .f32) (harg8 : arg8.IsWhole)
    (arg9 : Memref sig .tc .vmem S8000x29 .f32) (harg9 : arg9.IsWhole)
    (x0 : Vec F S8000x18 .bf16) (x1 : Vec F S8000x128 .bf16) (x2 : Vec F S6x128 .bf16) (x3 : Vec F S128x128 .bf16) (x4 : Vec F S1x128 .f32) (x5 : Vec F S128x32 .bf16) (x6 : Vec F S1x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out7 x0 x1 x2 x3 x4 x5 x6)
            ∗ owns (c : Thread nD τ) arg9 fullShare (out8 x0 x1 x2 x3 x4 x5 x6)) -∗ K ⟨⟩))
      ⊢ wp frame (wpE (defs₀ (F := F)) Variants.none c none) E (cc0__face2node_kernel i arg1 harg1 arg2 harg2 arg3 harg3 arg4 harg4 arg5 harg5 arg6 harg6 arg7 harg7 arg8 harg8 arg9 harg9) K := by
  simp only [cc0__face2node_kernel_eq_skeleton]; unfold cc0__face2node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold out7 pos0 pos1 pos2
    try dsimp only
    exact View.read_writes_eq_canon _ _ _ (cover7 _ _ _)
  iexists _; isplitr
  swap; · iexact H8
  ipureintro
  unfold out8 feat
  try dsimp only
  exact View.read_writes_eq_canon _ _ _ (cover8 _)
/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-- What the body is called with at point `t`: the invariant, what the core owes, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the kernel's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, with every array of the pipeline at what the library computes from
    the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KI.Data.lean ====
/-
  What the one kernel region of the idealized kernel program is run against, stated for any float family:
  the device's buffer contents when the region is entered (the host lines before it applied to the launch memory),
  each window's block at a grid point, what the body leaves in the two result windows' buffers, and the pipeline's
  proof data. The body computes, for each of the three triangle corners, a two-layer perceptron of the corner's six
  edge differences and the face's features; the first three output columns of corner c go to columns 3c..3c+2 of the
  first result block, the other 29 are averaged over the corners into the second.
-/
import proofs.«137711_j6528350290204_1_alg».proof.Proof.Gen.KernelIdeal.Launch
import proofs.«137711_j6528350290204_1_alg».proof.Proof.Gen.KernelIdeal.Skeleton
import proofs.«137711_j6528350290204_1_alg».proof.Proof.Gen.KernelIdeal.Points
import Idealize.ShloMosaic.Lib.Pipeline.FrameBody
import Idealize.ShloMosaic.Lib.Pipeline.FrameSuffix

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-! ## The buffers as the region finds them -/

/-- Core `c`'s TensorCore buffer contents when the region is entered: the 49 host lines before it, applied in
    order to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch: the slices and the scatter-sums, the clip of the counts,
    the quotient and the new positions. -/
abbrev tailOps : List (List (HloOp τ sig (Elt F))) := [hostOps1, hostOps1_1, hostOps1_2]

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The seven input blocks are loaded whole. -/
abbrev rD : Rect S8000x18 := Rect.unit (s := S8000x18) ![0, 0] S8000x18.size inb_S8000x18_S8000x18_0_0
abbrev rX : Rect S8000x128 := Rect.unit (s := S8000x128) ![0, 0] S8000x128.size inb_S8000x128_S8000x128_0_0
abbrev rWd : Rect S6x128 := Rect.unit (s := S6x128) ![0, 0] S6x128.size inb_S6x128_S6x128_0_0
abbrev rWf : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x32 := Rect.unit (s := S128x32) ![0, 0] S128x32.size inb_S128x32_S128x32_0_0
abbrev rB2 : Rect S1x32 := Rect.unit (s := S1x32) ![0, 0] S1x32.size inb_S1x32_S1x32_0_0
/-- Corner `c`'s three position columns are stored at columns `3c .. 3c+2` of the first result block. -/
abbrev rP0 : Rect S8000x9 := Rect.unit (s := S8000x9) ![0, 0] S8000x3.size inb_S8000x9_S8000x3_0_0
abbrev rP3 : Rect S8000x9 := Rect.unit (s := S8000x9) ![0, 3] S8000x3.size inb_S8000x9_S8000x3_0_3
abbrev rP6 : Rect S8000x9 := Rect.unit (s := S8000x9) ![0, 6] S8000x3.size inb_S8000x9_S8000x3_0_6
/-- The second result block is stored whole. -/
abbrev rQ : Rect S8000x29 := Rect.unit (s := S8000x29) ![0, 0] S8000x29.size inb_S8000x29_S8000x29_0_0

/-! ## What the body leaves in each result window's buffer -/

section Out
variable (x0 : Vec F S8000x18 .bf16) (x1 : Vec F S8000x128 .bf16) (x2 : Vec F S6x128 .bf16) (x3 : Vec F S128x128 .bf16)
  (x4 : Vec F S1x128 .f32) (x5 : Vec F S128x32 .bf16) (x6 : Vec F S1x32 .f32)

/-- Corner 0's position columns, from the seven input blocks. -/
def pos0 : FVec F S8000x3 .f32 :=
  k0_pay13 (View.ld x1 rX) (View.ld x3 rWf) (View.ld x4 rB1) (View.ld x2 rWd) (View.ld x5 rW2) (View.ld x6 rB2) (View.ld x0 rD)
/-- Corner 1's. -/
def pos1 : FVec F S8000x3 .f32 :=
  k0_pay2 (k0_pay9 (View.ld x5 rW2)) (k0_pay10 (View.ld x6 rB2))
    (k0_pay15 (View.ld x1 rX) (View.ld x3 rWf) (View.ld x4 rB1) (View.ld x2 rWd) (View.ld x0 rD))
/-- Corner 2's. -/
def pos2 : FVec F S8000x3 .f32 :=
  k0_pay4 (k0_pay6 (View.ld x1 rX) (View.ld x3 rWf)) (k0_pay7 (View.ld x4 rB1)) (k0_pay8 (View.ld x2 rWd)) (k0_pay9 (View.ld x5 rW2))
    (k0_pay10 (View.ld x6 rB2)) (k0_pay11 (View.ld x0 rD))
/-- The corners' mean of the other 29 output columns. -/
def feat : FVec F S8000x29 .f32 :=
  k0_pay5 (k0_pay6 (View.ld x1 rX) (View.ld x3 rWf)) (k0_pay7 (View.ld x4 rB1)) (k0_pay8 (View.ld x2 rWd)) (k0_pay9 (View.ld x5 rW2))
    (k0_pay10 (View.ld x6 rB2)) (k0_pay11 (View.ld x0 rD))
    (k0_pay14 (View.ld x1 rX) (View.ld x3 rWf) (View.ld x4 rB1) (View.ld x2 rWd) (View.ld x5 rW2) (View.ld x6 rB2) (View.ld x0 rD))
    (k0_pay15 (View.ld x1 rX) (View.ld x3 rWf) (View.ld x4 rB1) (View.ld x2 rWd) (View.ld x0 rD))

/-- Window 7's buffer after the body: its three column stores as pieces, the last store first. -/
def out7 : Vec F S8000x9 .f32 :=
  View.canon [⟨rP6, pos2 x0 x1 x2 x3 x4 x5 x6⟩, ⟨rP3, pos1 x0 x1 x2 x3 x4 x5 x6⟩, ⟨rP0, pos0 x0 x1 x2 x3 x4 x5 x6⟩]
/-- Window 8's buffer after the body: its one whole store. -/
def out8 : Vec F S8000x29 .f32 :=
  View.canon [⟨rQ, feat x0 x1 x2 x3 x4 x5 x6⟩]
end Out

/-! ## The pipeline's proof data -/

/-- The proof data of the one pipeline on core `c`: the arrays as the region finds them; after the body at point `t`
    each input's buffer at its block and each result's at what the body leaves of the input blocks; the scoped rest and
    the random-number register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
    | ⟨8, _⟩ => out8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t
    = out8 (iblk m c 0 t) (iblk m c 1 t) (iblk m c 2 t) (iblk m c 3 t) (iblk m c 4 t) (iblk m c 5 t) (iblk m c 6 t) := by dsimp only [dats]

end Cert.KernelIdeal.Frm

end
-- ==== Proof.KI.Mlp.lean ====
/-
  The kernel's per-corner perceptron as one function of its operands, and its value at an entry over the extended
  reals: for row r and output column j,
    (sum over k < 128 of max(((sum over q < 6 of d6[r,q] * Wd[q,k]) + ffW[r,k]) + b1[k], 0) * W2[k,j]) + b2[j],
  where ffW is the features' product with the lower 128 rows of the first weight matrix, shared by the three corners.
  The three corners' spellings in the body are this one function at the three six-column slices of the differences.
-/
import proofs.«137711_j6528350290204_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Idealize.SL.Sem
open Cert.KernelIdeal Cert.KernelIdeal.Gen

variable {F : FTy → Type} [FloatOps F]

/-- One corner's two layers: the six differences against the upper weight rows, plus the shared feature product, plus
    the first bias, clamped at zero, against the second weight matrix, plus the second bias. -/
def kMlp (d6 : FVec F S8000x6 .bf16) (v4 : FVec F S8000x128 .f32) (v6 : FVec F S1x128 .f32) (v8 : FVec F S6x128 .bf16)
    (v10 : FVec F S128x32 .bf16) (v12 : FVec F S1x32 .f32) : FVec F S8000x32 .f32 :=
  addf (matmul dot_S8000x128_S128x32_S8000x32_1_0_0_1_n_n none
      (truncf .bf16 (maximumf (addf (addf (matmul dot_S8000x6_S6x128_S8000x128_1_0_0_1_n_n none d6 v8 (constant S8000x128 .f32 0x00000000#32)) v4)
        (broadcastTo S8000x128 v6 broadcasts_S1x128_S8000x128)) (broadcast S8000x128 (Scalar.ofBits .f32 0x00000000#32))) bitsLt_bf16_f32)
      v10 (constant S8000x32 .f32 0x00000000#32))
    (broadcastTo S8000x32 v12 broadcasts_S1x32_S8000x32)

/-- Corner 0, as the body's first part spells it over the raw loads. -/
theorem pay12_eq (v0 : Vec F S8000x128 .bf16) (v2 : Vec F S128x128 .bf16) (v5 : Vec F S1x128 .f32) (v7 : Vec F S6x128 .bf16)
    (v9 : Vec F S128x32 .bf16) (v11 : Vec F S1x32 .f32) (v13 : Vec F S8000x18 .bf16) :
    k0_pay12 v0 v2 v5 v7 v9 v11 v13
      = kMlp (extractStridedSlice S8000x6 ![0, 0] (k0_pay11 v13) slices_S8000x18_o0_0_S8000x6) (k0_pay6 v0 v2) (k0_pay7 v5) (k0_pay8 v7)
          (k0_pay9 v9) (k0_pay10 v11) := rfl
/-- Corner 1: its hidden layer is formed in the first part, its output layer in the second. -/
theorem pay1_eq (v0 : Vec F S8000x128 .bf16) (v2 : Vec F S128x128 .bf16) (v5 : Vec F S1x128 .f32) (v7 : Vec F S6x128 .bf16)
    (v10 : FVec F S128x32 .bf16) (v12 : FVec F S1x32 .f32) (v13 : Vec F S8000x18 .bf16) :
    k0_pay1 v10 v12 (k0_pay15 v0 v2 v5 v7 v13)
      = kMlp (extractStridedSlice S8000x6 ![0, 6] (k0_pay11 v13) slices_S8000x18_o0_6_S8000x6) (k0_pay6 v0 v2) (k0_pay7 v5) (k0_pay8 v7)
          v10 v12 := rfl
/-- Corner 2. -/
theorem pay3_eq (v4 : FVec F S8000x128 .f32) (v6 : FVec F S1x128 .f32) (v8 : FVec F S6x128 .bf16) (v10 : FVec F S128x32 .bf16)
    (v12 : FVec F S1x32 .f32) (v14 : FVec F S8000x18 .bf16) :
    k0_pay3 v4 v6 v8 v10 v12 v14
      = kMlp (extractStridedSlice S8000x6 ![0, 12] v14 slices_S8000x18_o0_12_S8000x6) v4 v6 v8 v10 v12 := rfl

/-! ## The three matrix products at an entry (each dot's operand indices, axis by axis) -/

theorem dFF_l0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem dFF_l1 (i : S8000x128.Idx) (q : dot_S8000x128_S128x128_S8000x128_1_0_0_1_n_n.contr.Idx) : (dot_S8000x128_S128x128_S8000x128_1_0_0_1_n_n.lhsIdx i q 1).val = (q ⟨0, by decide⟩).val :=
  dot_S8000x128_S128x128_S8000x128_1_0_0_1_n_n.lhsIdx_val_of_single rfl i q
theorem dFF_r0 (i : S8000x128.Idx) (q : dot_S8000x128_S128x128_S8000x128_1_0_0_1_n_n.contr.Idx) : (dot_S8000x128_S128x128_S8000x128_1_0_0_1_n_n.rhsIdx i q 0).val = (q ⟨0, by decide⟩).val :=
  dot_S8000x128_S128x128_S8000x128_1_0_0_1_n_n.rhsIdx_val_of_single rfl i q
theorem dFF_r1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

theorem dD6_l0 (i : S8000x128.Idx) (q : dot_S8000x6_S6x128_S8000x128_1_0_0_1_n_n.contr.Idx) : (dot_S8000x6_S6x128_S8000x128_1_0_0_1_n_n.lhsIdx i q 0).val = (i 0).val := by
  unfold DotDims.lhsIdx
  rw [dif_neg (show ¬(0 : Fin S8000x6.rank) ∈ dot_S8000x6_S6x128_S8000x128_1_0_0_1_n_n.lhsBatch by decide), dif_pos (show (0 : Fin S8000x6.rank) ∈ dot_S8000x6_S6x128_S8000x128_1_0_0_1_n_n.lhsNonContracting by decide)]
  rfl
theorem dD6_l1 (i : S8000x128.Idx) (q : dot_S8000x6_S6x128_S8000x128_1_0_0_1_n_n.contr.Idx) : (dot_S8000x6_S6x128_S8000x128_1_0_0_1_n_n.lhsIdx i q 1).val = (q ⟨0, by decide⟩).val :=
  dot_S8000x6_S6x128_S8000x128_1_0_0_1_n_n.lhsIdx_val_of_single rfl i q
theorem dD6_r0 (i : S8000x128.Idx) (q : dot_S8000x6_S6x128_S8000x128_1_0_0_1_n_n.contr.Idx) : (dot_S8000x6_S6x128_S8000x128_1_0_0_1_n_n.rhsIdx i q 0).val = (q ⟨0, by decide⟩).val :=
  dot_S8000x6_S6x128_S8000x128_1_0_0_1_n_n.rhsIdx_val_of_single rfl i q
theorem dD6_r1 (i : S8000x128.Idx) (q : dot_S8000x6_S6x128_S8000x128_1_0_0_1_n_n.contr.Idx) : (dot_S8000x6_S6x128_S8000x128_1_0_0_1_n_n.rhsIdx i q 1).val = (i 1).val := by
  unfold DotDims.rhsIdx
  rw [dif_neg (show ¬(1 : Fin S6x128.rank) ∈ dot_S8000x6_S6x128_S8000x128_1_0_0_1_n_n.rhsBatch by decide), dif_pos (show (1 : Fin S6x128.rank) ∈ dot_S8000x6_S6x128_S8000x128_1_0_0_1_n_n.rhsNonContracting by decide)]
  rfl

theorem dW2_l0 (i : S8000x32.Idx) (q : dot_S8000x128_S128x32_S8000x32_1_0_0_1_n_n.contr.Idx) : (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem dW2_l1 (i : S8000x32.Idx) (q : dot_S8000x128_S128x32_S8000x32_1_0_0_1_n_n.contr.Idx) : (dot_S8000x128_S128x32_S8000x32_1_0_0_1_n_n.lhsIdx i q 1).val = (q ⟨0, by decide⟩).val :=
  dot_S8000x128_S128x32_S8000x32_1_0_0_1_n_n.lhsIdx_val_of_single rfl i q
theorem dW2_r0 (i : S8000x32.Idx) (q : dot_S8000x128_S128x32_S8000x32_1_0_0_1_n_n.contr.Idx) : (dot_S8000x128_S128x32_S8000x32_1_0_0_1_n_n.rhsIdx i q 0).val = (q ⟨0, by decide⟩).val :=
  dot_S8000x128_S128x32_S8000x32_1_0_0_1_n_n.rhsIdx_val_of_single rfl i q
theorem dW2_r1 (i : S8000x32.Idx) (q : dot_S8000x128_S128x32_S8000x32_1_0_0_1_n_n.contr.Idx) : (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl

/-- A matrix product into a zero accumulator, read at an entry: the row of the left factor against the column of the right. -/
theorem dFF_apply (lhs : FVec Ideal S8000x128 .bf16) (rhs : FVec Ideal S128x128 .bf16) (r : Fin 8000) (j : Fin 128) :
    matmul dot_S8000x128_S128x128_S8000x128_1_0_0_1_n_n none lhs rhs (constant S8000x128 .f32 0x00000000#32) (ix2 r j) = ∑ k : Fin 128, lhs (ix2 r k) * rhs (ix2 k j) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 r j) ((ValueIdx.contrEquiv1 dot_S8000x128_S128x128_S8000x128_1_0_0_1_n_n 128 rfl rfl).symm k) = ix2 r k := funext fun a => Fin.ext (by
    match a with
    | ⟨0, _⟩ => exact dFF_l0 _ _
    | ⟨1, _⟩ => exact (dFF_l1 _ _).trans hk)
  have er : dot_S8000x128_S128x128_S8000x128_1_0_0_1_n_n.rhsIdx (ix2 r j) ((ValueIdx.contrEquiv1 dot_S8000x128_S128x128_S8000x128_1_0_0_1_n_n 128 rfl rfl).symm k) = ix2 k j := funext fun a => Fin.ext (by
    match a with
    | ⟨0, _⟩ => exact (dFF_r0 _ _).trans hk
    | ⟨1, _⟩ => exact dFF_r1 _ _)
  rw [el, er]

/-- A matrix product into a zero accumulator, read at an entry: the row of the left factor against the column of the right. -/
theorem dD6_apply (lhs : FVec Ideal S8000x6 .bf16) (rhs : FVec Ideal S6x128 .bf16) (r : Fin 8000) (j : Fin 128) :
    matmul dot_S8000x6_S6x128_S8000x128_1_0_0_1_n_n none lhs rhs (constant S8000x128 .f32 0x00000000#32) (ix2 r j) = ∑ k : Fin 6, lhs (ix2 r k) * rhs (ix2 k j) := by
  simp only [matmul]
  rw [Ideal.matmul_constant_zero_apply, ← Equiv.sum_comp (ValueIdx.contrEquiv1 dot_S8000x6_S6x128_S8000x128_1_0_0_1_n_n 6 rfl rfl).symm]
  refine Finset.sum_congr rfl fun k _ => ?_
  have hk := ValueIdx.contrEquiv1_symm_val dot_S8000x6_S6x128_S8000x128_1_0_0_1_n_n 6 rfl rfl k
  have el : dot_S8000x6_S6x128_S8000x128_1_0_0_1_n_n.lhsIdx (ix2 r j) ((ValueIdx.contrEquiv1 dot_S8000x6_S6x128_S8000x128_1_0_0_1_n_n 6 rfl rfl).symm k) = ix2 r k := funext fun a => Fin.ext (by
    match a with
    | ⟨0, _⟩ => exact dD6_l0 _ _
    | ⟨1, _⟩ => exact (dD6_l1 _ _).trans hk)
  have er : dot_S8000x6_S6x128_S8000x128_1_0_0_1_n_n.rhsIdx (ix2 r j) ((ValueIdx.contrEquiv1 dot_S8000x6_S6x128_S8000x128_1_0_0_1_n_n 6 rfl rfl).symm k) = ix2 k j := funext fun a => Fin.ext (by
    match a with
    | ⟨0, _⟩ => exact (dD6_r0 _ _).trans hk
    | ⟨1, _⟩ => exact dD6_r1 _ _)
  rw [el, er]

/-- A matrix product into a zero accumulator, read at an entry: the row of the left factor against the column of the right. -/
theorem dW2_apply (lhs : FVec Ideal S8000x128 .bf16) (rhs : FVec Ideal S128x32 .bf16) (r : Fin 8000) (j : Fin 32) :
    matmul dot_S8000x128_S128x32_S8000x32_1_0_0_1_n_n none lhs rhs (constant S8000x32 .f32 0x00000000#32) (ix2 r j) = ∑ k : Fin 128, lhs (ix2 r k) * rhs (ix2 k j) := by
  simp only [matmul]
  rw [Ideal.matmul_constant_zero_apply, ← Equiv.sum_comp (ValueIdx.contrEquiv1 dot_S8000x128_S128x32_S8000x32_1_0_0_1_n_n 128 rfl rfl).symm]
  refine Finset.sum_congr rfl fun k _ => ?_
  have hk := ValueIdx.contrEquiv1_symm_val dot_S8000x128_S128x32_S8000x32_1_0_0_1_n_n 128 rfl rfl k
  have el : dot_S8000x128_S128x32_S8000x32_1_0_0_1_n_n.lhsIdx (ix2 r j) ((ValueIdx.contrEquiv1 dot_S8000x128_S128x32_S8000x32_1_0_0_1_n_n 128 rfl rfl).symm k) = ix2 r k := funext fun a => Fin.ext (by
    match a with
    | ⟨0, _⟩ => exact dW2_l0 _ _
    | ⟨1, _⟩ => exact (dW2_l1 _ _).trans hk)
  have er : dot_S8000x128_S128x32_S8000x32_1_0_0_1_n_n.rhsIdx (ix2 r j) ((ValueIdx.contrEquiv1 dot_S8000x128_S128x32_S8000x32_1_0_0_1_n_n 128 rfl rfl).symm k) = ix2 k j := funext fun a => Fin.ext (by
    match a with
    | ⟨0, _⟩ => exact (dW2_r0 _ _).trans hk
    | ⟨1, _⟩ => exact dW2_r1 _ _)
  rw [el, er]

/-- The shared feature product at an entry. -/
theorem pay6_apply (v0 : Vec Ideal S8000x128 .bf16) (v2 : Vec Ideal S128x128 .bf16) (r : Fin 8000) (k : Fin 128) :
    k0_pay6 (F := Ideal) v0 v2 (ix2 r k) = ∑ q : Fin 128, v0 (ix2 r q) * v2 (ix2 q k) := by
  unfold k0_pay6
  rw [shapeCast_self, shapeCast_self]
  exact dFF_apply v0 v2 r k

/-- One corner's perceptron at an entry. -/
theorem kMlp_apply (d6 : FVec Ideal S8000x6 .bf16) (v4 : FVec Ideal S8000x128 .f32) (v6 : FVec Ideal S1x128 .f32) (v8 : FVec Ideal S6x128 .bf16)
    (v10 : FVec Ideal S128x32 .bf16) (v12 : FVec Ideal S1x32 .f32) (r : Fin 8000) (j : Fin 32) :
    kMlp (F := Ideal) d6 v4 v6 v8 v10 v12 (ix2 r j)
      = (∑ k : Fin 128, max (((∑ q : Fin 6, d6 (ix2 r q) * v8 (ix2 q k)) + v4 (ix2 r k)) + v6 (ix2 (0 : Fin 1) k)) 0 * v10 (ix2 k j))
        + v12 (ix2 (0 : Fin 1) j) := by
  unfold kMlp
  rw [addf_apply, dW2_apply, broadcastTo_1b_ab_apply]
  refine congrArg (· + v12 (ix2 (0 : Fin 1) j)) (Finset.sum_congr rfl fun k _ => ?_)
  rw [truncf_apply, maximumf_apply, addf_apply, addf_apply, dD6_apply, broadcastTo_1b_ab_apply, broadcast_apply]
  show max _ (Ideal.ofBits .f32 0x00000000#32) * _ = _
  rw [Ideal.ofBits_zero_f32]

end Cert.KernelIdeal.Val

end
-- ==== Proof.KI.Blocks.lean ====
/-
  From the kernel body's stores to the two result arrays, over the extended reals. A grid point handles 8000 faces:
  its stores into the first result block are, for corner c, the first three output columns of that corner's perceptron
  at columns 3c..3c+2, and its one store into the second block is ((0 + g0 + g1) + g2) / 3 of the corners' other 29
  columns. A block's perceptron at row r is the whole table's at face 8000 t + r (the row-blocked operands are read
  at that face, the small operands whole), the 25 blocks cover the 200000 faces, and so each result array ends as one
  function of the arrays the region was given.
-/
import proofs.«137711_j6528350290204_1_alg».proof.Proof.KI.Data
import proofs.«137711_j6528350290204_1_alg».proof.Proof.KI.Mlp

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm

theorem hz : (![0, 0] : Fin 2 → Nat) = fun _ => 0 := funext fun a => by fin_cases a <;> rfl

section Block
variable (X0 : Vec Ideal S8000x18 .bf16) (X1 : Vec Ideal S8000x128 .bf16) (X2 : Vec Ideal S6x128 .bf16) (X3 : Vec Ideal S128x128 .bf16)
  (X4 : Vec Ideal S1x128 .f32) (X5 : Vec Ideal S128x32 .bf16) (X6 : Vec Ideal S1x32 .f32)

/-- One corner's perceptron on a block of 8000 faces: the corner's six difference columns start at column `o`. -/
def blockMlp (o : Nat) (h : S8000x18.Slices ![0, o] S8000x6) : FVec Ideal S8000x32 .f32 :=
  kMlp (extractStridedSlice S8000x6 ![0, o] (k0_pay11 X0) h) (k0_pay6 X1 X3) (k0_pay7 X4) (k0_pay8 X2) (k0_pay9 X5) (k0_pay10 X6)

theorem pos0_eq : pos0 X0 X1 X2 X3 X4 X5 X6
    = extractStridedSlice S8000x3 ![0, 0] (blockMlp X0 X1 X2 X3 X4 X5 X6 0 slices_S8000x18_o0_0_S8000x6) slices_S8000x32_o0_0_S8000x3 := by
  unfold pos0 blockMlp
  simp only [View.ld_unit_zero (S := S8000x18) hz, View.ld_unit_zero (S := S8000x128) hz, View.ld_unit_zero (S := S6x128) hz,
    View.ld_unit_zero (S := S128x128) hz, View.ld_unit_zero (S := S1x128) hz, View.ld_unit_zero (S := S128x32) hz, View.ld_unit_zero (S := S1x32) hz]
  rw [← pay12_eq]
  rfl

theorem pos1_eq : pos1 X0 X1 X2 X3 X4 X5 X6
    = extractStridedSlice S8000x3 ![0, 0] (blockMlp X0 X1 X2 X3 X4 X5 X6 6 slices_S8000x18_o0_6_S8000x6) slices_S8000x32_o0_0_S8000x3 := by
  unfold pos1 blockMlp
  simp only [View.ld_unit_zero (S := S8000x18) hz, View.ld_unit_zero (S := S8000x128) hz, View.ld_unit_zero (S := S6x128) hz,
    View.ld_unit_zero (S := S128x128) hz, View.ld_unit_zero (S := S1x128) hz, View.ld_unit_zero (S := S128x32) hz, View.ld_unit_zero (S := S1x32) hz]
  rw [← pay1_eq]
  rfl

theorem pos2_eq : pos2 X0 X1 X2 X3 X4 X5 X6
    = extractStridedSlice S8000x3 ![0, 0] (blockMlp X0 X1 X2 X3 X4 X5 X6 12 slices_S8000x18_o0_12_S8000x6) slices_S8000x32_o0_0_S8000x3 := by
  unfold pos2 blockMlp
  simp only [View.ld_unit_zero (S := S8000x18) hz, View.ld_unit_zero (S := S8000x128) hz, View.ld_unit_zero (S := S6x128) hz,
    View.ld_unit_zero (S := S128x128) hz, View.ld_unit_zero (S := S1x128) hz, View.ld_unit_zero (S := S128x32) hz, View.ld_unit_zero (S := S1x32) hz]
  rw [← pay3_eq]
  rfl

theorem feat_eq : feat X0 X1 X2 X3 X4 X5 X6
    = divf (addf (addf (addf (broadcast S8000x29 (Scalar.ofBits .f32 0x00000000#32))
          (extractStridedSlice S8000x29 ![0, 3] (blockMlp X0 X1 X2 X3 X4 X5 X6 0 slices_S8000x18_o0_0_S8000x6) slices_S8000x32_o0_3_S8000x29))
          (extractStridedSlice S8000x29 ![0, 3] (blockMlp X0 X1 X2 X3 X4 X5 X6 6 slices_S8000x18_o0_6_S8000x6) slices_S8000x32_o0_3_S8000x29))
          (extractStridedSlice S8000x29 ![0, 3] (blockMlp X0 X1 X2 X3 X4 X5 X6 12 slices_S8000x18_o0_12_S8000x6) slices_S8000x32_o0_3_S8000x29))
        (broadcast S8000x29 (Scalar.ofBits .f32 0x40400000#32)) := by
  unfold feat blockMlp
  simp only [View.ld_unit_zero (S := S8000x18) hz, View.ld_unit_zero (S := S8000x128) hz, View.ld_unit_zero (S := S6x128) hz,
    View.ld_unit_zero (S := S128x128) hz, View.ld_unit_zero (S := S1x128) hz, View.ld_unit_zero (S := S128x32) hz, View.ld_unit_zero (S := S1x32) hz]
  rfl

/-- The first result block as one function of the three corners' perceptrons: columns 3c..3c+2 are corner c's first three. -/
def blockPos (M0 M1 M2 : FVec Ideal S8000x32 .f32) : Vec Ideal S8000x9 .f32 := fun y =>
  if h : (y 1).val < 3 then M0 (ix2 (⟨(y 0).val, (y 0).isLt⟩ : Fin 8000) (⟨(y 1).val, by omega⟩ : Fin 32))
  else if h2 : (y 1).val < 6 then M1 (ix2 (⟨(y 0).val, (y 0).isLt⟩ : Fin 8000) (⟨(y 1).val - 3, by omega⟩ : Fin 32))
  else M2 (ix2 (⟨(y 0).val, (y 0).isLt⟩ : Fin 8000) (⟨(y 1).val - 6, by have : (y 1).val < 9 := (y 1).isLt; omega⟩ : Fin 32))

theorem out7_eq : out7 X0 X1 X2 X3 X4 X5 X6
    = blockPos (blockMlp X0 X1 X2 X3 X4 X5 X6 0 slices_S8000x18_o0_0_S8000x6) (blockMlp X0 X1 X2 X3 X4 X5 X6 6 slices_S8000x18_o0_6_S8000x6)
        (blockMlp X0 X1 X2 X3 X4 X5 X6 12 slices_S8000x18_o0_12_S8000x6) := by
  funext y
  unfold out7
  refine View.canon_apply_of_pieces _ _ ?_ y (View.cover_of_tiled (s := S8000x9) _ S8000x3.size (by rfl) y)
  intro p hp x
  simp only [List.mem_cons, List.mem_nil_iff, or_false] at hp
  rcases hp with rfl | rfl | rfl
  · show pos2 X0 X1 X2 X3 X4 X5 X6 x = blockPos _ _ _ (rP6.emb x)
    have e0 : ((rP6.emb x) 0).val = 0 + 1 * (x 0).val := rfl
    have e1 : ((rP6.emb x) 1).val = 6 + 1 * (x 1).val := rfl
    have hx1 : (x 1).val < 3 := (x 1).isLt
    rw [pos2_eq]
    simp only [blockPos]
    rw [dif_neg (by omega), dif_neg (by omega)]
    exact extractStridedSlice_apply _ _ _ x _ (fun a => by
      match a with
      | ⟨0, _⟩ => show ((rP6.emb x) 0).val = 0 + (x 0).val; omega
      | ⟨1, _⟩ => show ((rP6.emb x) 1).val - 6 = 0 + (x 1).val; omega)
  · show pos1 X0 X1 X2 X3 X4 X5 X6 x = blockPos _ _ _ (rP3.emb x)
    have e0 : ((rP3.emb x) 0).val = 0 + 1 * (x 0).val := rfl
    have e1 : ((rP3.emb x) 1).val = 3 + 1 * (x 1).val := rfl
    have hx1 : (x 1).val < 3 := (x 1).isLt
    rw [pos1_eq]
    simp only [blockPos]
    rw [dif_neg (by omega), dif_pos (by omega)]
    exact extractStridedSlice_apply _ _ _ x _ (fun a => by
      match a with
      | ⟨0, _⟩ => show ((rP3.emb x) 0).val = 0 + (x 0).val; omega
      | ⟨1, _⟩ => show ((rP3.emb x) 1).val - 3 = 0 + (x 1).val; omega)
  · show pos0 X0 X1 X2 X3 X4 X5 X6 x = blockPos _ _ _ (rP0.emb x)
    have e0 : ((rP0.emb x) 0).val = 0 + 1 * (x 0).val := rfl
    have e1 : ((rP0.emb x) 1).val = 0 + 1 * (x 1).val := rfl
    have hx1 : (x 1).val < 3 := (x 1).isLt
    rw [pos0_eq]
    simp only [blockPos]
    rw [dif_pos (by omega)]
    exact extractStridedSlice_apply _ _ _ x _ (fun a => by
      match a with
      | ⟨0, _⟩ => show ((rP0.emb x) 0).val = 0 + (x 0).val; omega
      | ⟨1, _⟩ => show ((rP0.emb x) 1).val - 0 = 0 + (x 1).val; omega)

theorem out8_eq : out8 X0 X1 X2 X3 X4 X5 X6 = feat X0 X1 X2 X3 X4 X5 X6 := by
  unfold out8
  exact View.canon_unit_zero hz _ _

end Block

/-! ## The whole arrays -/

section Arrays
variable (E0 : Vec Ideal S200000x18 .bf16) (E1 : Vec Ideal S200000x128 .bf16) (E2 : Vec Ideal S6x128 .bf16) (E3 : Vec Ideal S128x128 .bf16)
  (E4 : Vec Ideal S1x128 .f32) (E5 : Vec Ideal S128x32 .bf16) (E6 : Vec Ideal S1x32 .f32)

/-- One corner's perceptron for face `R`, output column `j`, over the arrays the region is given: the corner's six
    difference columns start at column `o` of the difference table. -/
def faceMlp (o : Nat) (ho : o + 6 ≤ 18) (R : Fin 200000) (j : Fin 32) : EReal :=
  (∑ k : Fin 128, max (((∑ q : Fin 6, E0 (ix2 R (⟨o + q.val, by have := q.isLt; omega⟩ : Fin 18)) * E2 (ix2 q k))
      + (∑ q : Fin 128, E1 (ix2 R q) * E3 (ix2 q k))) + E4 (ix2 (0 : Fin 1) k)) 0 * E5 (ix2 k j)) + E6 (ix2 (0 : Fin 1) j)

/-- The first result array: face `R`'s columns 3c..3c+2 are corner c's first three output columns. -/
def posArr : Vec Ideal S200000x9 .f32 := fun i =>
  if h : (i 1).val < 3 then faceMlp E0 E1 E2 E3 E4 E5 E6 0 (by omega) ⟨(i 0).val, (i 0).isLt⟩ ⟨(i 1).val, by omega⟩
  else if h2 : (i 1).val < 6 then faceMlp E0 E1 E2 E3 E4 E5 E6 6 (by omega) ⟨(i 0).val, (i 0).isLt⟩ ⟨(i 1).val - 3, by omega⟩
  else faceMlp E0 E1 E2 E3 E4 E5 E6 12 (by omega) ⟨(i 0).val, (i 0).isLt⟩ ⟨(i 1).val - 6, by have : (i 1).val < 9 := (i 1).isLt; omega⟩

/-- The second: the corners' mean of the other 29 output columns. -/
def featArr : Vec Ideal S200000x29 .f32 := fun i =>
  Ideal.div (((Ideal.ofBits .f32 0x00000000#32
      + faceMlp E0 E1 E2 E3 E4 E5 E6 0 (by omega) ⟨(i 0).val, (i 0).isLt⟩ ⟨3 + (i 1).val, by have : (i 1).val < 29 := (i 1).isLt; omega⟩)
      + faceMlp E0 E1 E2 E3 E4 E5 E6 6 (by omega) ⟨(i 0).val, (i 0).isLt⟩ ⟨3 + (i 1).val, by have : (i 1).val < 29 := (i 1).isLt; omega⟩)
      + faceMlp E0 E1 E2 E3 E4 E5 E6 12 (by omega) ⟨(i 0).val, (i 0).isLt⟩ ⟨3 + (i 1).val, by have : (i 1).val < 29 := (i 1).isLt; omega⟩)
    (Ideal.ofBits .f32 0x40400000#32)
end Arrays

/-! ## A block's perceptron is the array's, at the block's faces -/

section BlockOfArray
variable (E0 : Vec Ideal S200000x18 .bf16) (E1 : Vec Ideal S200000x128 .bf16) (E2 : Vec Ideal S6x128 .bf16) (E3 : Vec Ideal S128x128 .bf16)
  (E4 : Vec Ideal S1x128 .f32) (E5 : Vec Ideal S128x32 .bf16) (E6 : Vec Ideal S1x32 .f32)
variable (X0 : Vec Ideal S8000x18 .bf16) (X1 : Vec Ideal S8000x128 .bf16) (X2 : Vec Ideal S6x128 .bf16) (X3 : Vec Ideal S128x128 .bf16)
  (X4 : Vec Ideal S1x128 .f32) (X5 : Vec Ideal S128x32 .bf16) (X6 : Vec Ideal S1x32 .f32)

/-- When the row blocks are rows `8000 n ..` of the two row-blocked arrays and the other five blocks are the whole
    arrays, a block's perceptron at row `r` is the array's at face `8000 n + r`. -/
theorem blockMlp_apply (n : Nat) (hn : n < 25)
    (h0 : ∀ (r : Fin 8000) (q : Fin 18), X0 (ix2 r q) = E0 (ix2 (⟨8000 * n + r.val, by have := r.isLt; omega⟩ : Fin 200000) q))
    (h1 : ∀ (r : Fin 8000) (q : Fin 128), X1 (ix2 r q) = E1 (ix2 (⟨8000 * n + r.val, by have := r.isLt; omega⟩ : Fin 200000) q))
    (h2 : X2 = E2) (h3 : X3 = E3) (h4 : X4 = E4) (h5 : X5 = E5) (h6 : X6 = E6)
    (o : Nat) (ho : o + 6 ≤ 18) (h : S8000x18.Slices ![0, o] S8000x6) (r : Fin 8000) (j : Fin 32) :
    blockMlp X0 X1 X2 X3 X4 X5 X6 o h (ix2 r j)
      = faceMlp E0 E1 E2 E3 E4 E5 E6 o ho ⟨8000 * n + r.val, by have := r.isLt; omega⟩ j := by
  subst h2 h3 h4 h5 h6
  unfold blockMlp faceMlp
  rw [kMlp_apply]
  have p7 : k0_pay7 (F := Ideal) X4 = X4 := by unfold k0_pay7; exact shapeCast_self _ _
  have p8 : k0_pay8 (F := Ideal) X2 = X2 := by unfold k0_pay8; exact shapeCast_self _ _
  have p9 : k0_pay9 (F := Ideal) X5 = X5 := by unfold k0_pay9; exact shapeCast_self _ _
  have p10 : k0_pay10 (F := Ideal) X6 = X6 := by unfold k0_pay10; exact shapeCast_self _ _
  have p11 : k0_pay11 (F := Ideal) X0 = X0 := by unfold k0_pay11; exact shapeCast_self _ _
  rw [p7, p8, p9, p10, p11]
  refine congrArg (· + X6 (ix2 (0 : Fin 1) j)) (Finset.sum_congr rfl fun k _ => ?_)
  refine congrArg (fun z => max z 0 * X5 (ix2 k j)) ?_
  refine congrArg (· + X4 (ix2 (0 : Fin 1) k)) ?_
  rw [pay6_apply]
  refine congrArg₂ (· + ·) (Finset.sum_congr rfl fun q _ => ?_) (Finset.sum_congr rfl fun q _ => ?_)
  · rw [slice2_axis1_apply o X0 h r q ⟨o + q.val, by have := q.isLt; omega⟩ rfl, h0]
  · rw [h1]
end BlockOfArray

/-! ## A result block is its array's function, at the block's faces -/

section BlockResults
variable (E0 : Vec Ideal S200000x18 .bf16) (E1 : Vec Ideal S200000x128 .bf16) (E2 : Vec Ideal S6x128 .bf16) (E3 : Vec Ideal S128x128 .bf16)
  (E4 : Vec Ideal S1x128 .f32) (E5 : Vec Ideal S128x32 .bf16) (E6 : Vec Ideal S1x32 .f32)
variable (X0 : Vec Ideal S8000x18 .bf16) (X1 : Vec Ideal S8000x128 .bf16) (X2 : Vec Ideal S6x128 .bf16) (X3 : Vec Ideal S128x128 .bf16)
  (X4 : Vec Ideal S1x128 .f32) (X5 : Vec Ideal S128x32 .bf16) (X6 : Vec Ideal S1x32 .f32)
variable (n : Nat) (hn : n < 25)
  (h0 : ∀ (r : Fin 8000) (q : Fin 18), X0 (ix2 r q) = E0 (ix2 (⟨8000 * n + r.val, by have := r.isLt; omega⟩ : Fin 200000) q))
  (h1 : ∀ (r : Fin 8000) (q : Fin 128), X1 (ix2 r q) = E1 (ix2 (⟨8000 * n + r.val, by have := r.isLt; omega⟩ : Fin 200000) q))
  (h2 : X2 = E2) (h3 : X3 = E3) (h4 : X4 = E4) (h5 : X5 = E5) (h6 : X6 = E6)
include hn h0 h1 h2 h3 h4 h5 h6

theorem blockPos_apply (y : S8000x9.Idx) (i : S200000x9.Idx) (e0 : (i 0).val = 8000 * n + (y 0).val) (e1 : (i 1).val = (y 1).val) :
    blockPos (blockMlp X0 X1 X2 X3 X4 X5 X6 0 slices_S8000x18_o0_0_S8000x6) (blockMlp X0 X1 X2 X3 X4 X5 X6 6 slices_S8000x18_o0_6_S8000x6)
        (blockMlp X0 X1 X2 X3 X4 X5 X6 12 slices_S8000x18_o0_12_S8000x6) y
      = posArr E0 E1 E2 E3 E4 E5 E6 i := by
  have hy1 : (y 1).val < 9 := (y 1).isLt
  have hm := fun o ho h r j => blockMlp_apply E0 E1 E2 E3 E4 E5 E6 X0 X1 X2 X3 X4 X5 X6 n hn h0 h1 h2 h3 h4 h5 h6 o ho h r j
  simp only [blockPos, posArr]
  by_cases c3 : (y 1).val < 3
  · rw [dif_pos c3, dif_pos (by omega), hm 0 (by omega)]
    congr 1 <;> exact Fin.ext (by simp only []; omega)
  · by_cases c6 : (y 1).val < 6
    · rw [dif_neg c3, dif_pos c6, dif_neg (by omega), dif_pos (by omega), hm 6 (by omega)]
      congr 1 <;> exact Fin.ext (by simp only []; omega)
    · rw [dif_neg c3, dif_neg c6, dif_neg (by omega), dif_neg (by omega), hm 12 (by omega)]
      congr 1 <;> exact Fin.ext (by simp only []; omega)

theorem blockFeat_apply (y : S8000x29.Idx) (i : S200000x29.Idx) (e0 : (i 0).val = 8000 * n + (y 0).val) (e1 : (i 1).val = (y 1).val) :
    feat X0 X1 X2 X3 X4 X5 X6 y = featArr E0 E1 E2 E3 E4 E5 E6 i := by
  have hy1 : (y 1).val < 29 := (y 1).isLt
  have hm := fun o ho h r j => blockMlp_apply E0 E1 E2 E3 E4 E5 E6 X0 X1 X2 X3 X4 X5 X6 n hn h0 h1 h2 h3 h4 h5 h6 o ho h r j
  have hs : ∀ (M : FVec Ideal S8000x32 .f32), extractStridedSlice S8000x29 ![0, 3] M slices_S8000x32_o0_3_S8000x29 y
      = M (ix2 (⟨(y 0).val, (y 0).isLt⟩ : Fin 8000) (⟨3 + (y 1).val, by omega⟩ : Fin 32)) := fun M =>
    extractStridedSlice_apply _ _ _ y _ (fun a => by
      match a with
      | ⟨0, _⟩ => show (y 0).val = 0 + (y 0).val; omega
      | ⟨1, _⟩ => show 3 + (y 1).val = 3 + (y 1).val; rfl)
  rw [feat_eq]
  simp only [featArr]
  rw [divf_apply, addf_apply, addf_apply, addf_apply, broadcast_apply, broadcast_apply, hs, hs, hs, hm 0 (by omega), hm 6 (by omega), hm 12 (by omega)]
  show Ideal.div (((Ideal.ofBits .f32 0x00000000#32 + _) + _) + _) (Ideal.ofBits .f32 0x40400000#32) = _
  have hR : (⟨8000 * n + (⟨(y 0).val, (y 0).isLt⟩ : Fin 8000).val, by have := (y 0).isLt; omega⟩ : Fin 200000) = ⟨(i 0).val, (i 0).isLt⟩ :=
    Fin.ext (by show 8000 * n + (y 0).val = (i 0).val; omega)
  have hJ : (⟨3 + (y 1).val, by omega⟩ : Fin 32) = ⟨3 + (i 1).val, by have : (i 1).val < 29 := (i 1).isLt; omega⟩ :=
    Fin.ext (by show 3 + (y 1).val = 3 + (i 1).val; omega)
  rw [hR, hJ]

end BlockResults

/-! ## The grid points -/

section Points
variable (m : (ℓ : Loc nD τ sig) → Buf (Elt Ideal) ℓ)

/-- The printed index maps over the 25 grid points: the two row-blocked operands and the two results move one block of
    8000 faces per point, the five small operands stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 25 := by have := t.isLt; have hN : cfg0.N = 25 := N_0; omega

/-- The arrays the region is given, and the blocks at a point, by their literal types. -/
abbrev A0 (c : Dev nD) : Vec Ideal S200000x18 .bf16 := V m c main_v34
abbrev A1 (c : Dev nD) : Vec Ideal S200000x128 .bf16 := V m c main_v35
abbrev A2 (c : Dev nD) : Vec Ideal S6x128 .bf16 := V m c main_v37
abbrev A3 (c : Dev nD) : Vec Ideal S128x128 .bf16 := V m c main_v39
abbrev A4 (c : Dev nD) : Vec Ideal S1x128 .f32 := V m c main_v41
abbrev A5 (c : Dev nD) : Vec Ideal S128x32 .bf16 := V m c main_v40
abbrev A6 (c : Dev nD) : Vec Ideal S1x32 .f32 := V m c main_v42
abbrev B0 (c : Dev nD) (t : Fin cfg0.N) : Vec Ideal S8000x18 .bf16 := iblk m c 0 t
abbrev B1 (c : Dev nD) (t : Fin cfg0.N) : Vec Ideal S8000x128 .bf16 := iblk m c 1 t
abbrev B2 (c : Dev nD) (t : Fin cfg0.N) : Vec Ideal S6x128 .bf16 := iblk m c 2 t
abbrev B3 (c : Dev nD) (t : Fin cfg0.N) : Vec Ideal S128x128 .bf16 := iblk m c 3 t
abbrev B4 (c : Dev nD) (t : Fin cfg0.N) : Vec Ideal S1x128 .f32 := iblk m c 4 t
abbrev B5 (c : Dev nD) (t : Fin cfg0.N) : Vec Ideal S128x32 .bf16 := iblk m c 5 t
abbrev B6 (c : Dev nD) (t : Fin cfg0.N) : Vec Ideal S1x32 .f32 := iblk m c 6 t

/-- Block `t` of the difference table is its rows `8000 t ..`. -/
theorem B0_apply (c : Dev nD) (t : Fin cfg0.N) (r : Fin 8000) (q : Fin 18) :
    B0 m c t (ix2 r q) = A0 m c (ix2 (⟨8000 * t.val + r.val, by have := r.isLt; have := t_lt t; omega⟩ : Fin 200000) q) := by
  show V m c main_v34 (((cfg0.win 0).blk t).view.emb (ix2 r q)) = _
  refine congrArg _ (funext fun a => Fin.ext ?_)
  obtain ⟨e00, e01, -⟩ := idx_facts t
  match a with
  | ⟨0, _⟩ => show win0_0.index t (0 : Fin 2) * 8000 + 1 * r.val = 8000 * t.val + r.val; omega
  | ⟨1, _⟩ => show win0_0.index t (1 : Fin 2) * 18 + 1 * q.val = q.val; omega
/-- The same for the features. -/
theorem B1_apply (c : Dev nD) (t : Fin cfg0.N) (r : Fin 8000) (q : Fin 128) :
    B1 m c t (ix2 r q) = A1 m c (ix2 (⟨8000 * t.val + r.val, by have := r.isLt; have := t_lt t; omega⟩ : Fin 200000) q) := by
  show V m c main_v35 (((cfg0.win 1).blk t).view.emb (ix2 r q)) = _
  refine congrArg _ (funext fun a => Fin.ext ?_)
  obtain ⟨-, -, e10, e11, -⟩ := idx_facts t
  match a with
  | ⟨0, _⟩ => show win0_1.index t (0 : Fin 2) * 8000 + 1 * r.val = 8000 * t.val + r.val; omega
  | ⟨1, _⟩ => show win0_1.index t (1 : Fin 2) * 128 + 1 * q.val = q.val; omega
/-- Window 2's one block is its whole array. -/
theorem B2_eq (c : Dev nD) (t : Fin cfg0.N) : B2 m c t = A2 m c := by
  funext y
  show V m c main_v37 (((cfg0.win 2).blk t).view.emb y) = V m c main_v37 y
  refine congrArg _ (funext fun a => Fin.ext ?_)
  obtain ⟨-, -, -, -, e0, e1, -⟩ := idx_facts t
  match a with
  | ⟨0, _⟩ => show win0_2.index t (0 : Fin 2) * 6 + 1 * (y 0).val = (y 0).val; omega
  | ⟨1, _⟩ => show win0_2.index t (1 : Fin 2) * 128 + 1 * (y 1).val = (y 1).val; omega
/-- Window 3's one block is its whole array. -/
theorem B3_eq (c : Dev nD) (t : Fin cfg0.N) : B3 m c t = A3 m c := by
  funext y
  show V m c main_v39 (((cfg0.win 3).blk t).view.emb y) = V m c main_v39 y
  refine congrArg _ (funext fun a => Fin.ext ?_)
  obtain ⟨-, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's one block is its whole array. -/
theorem B4_eq (c : Dev nD) (t : Fin cfg0.N) : B4 m c t = A4 m c := by
  funext y
  show V m c main_v41 (((cfg0.win 4).blk t).view.emb y) = V m c main_v41 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega
/-- Window 5's one block is its whole array. -/
theorem B5_eq (c : Dev nD) (t : Fin cfg0.N) : B5 m c t = A5 m c := by
  funext y
  show V m c main_v40 (((cfg0.win 5).blk t).view.emb y) = V m c main_v40 y
  refine congrArg _ (funext fun a => Fin.ext ?_)
  obtain ⟨-, -, -, -, -, -, -, -, -, -, e0, e1, -⟩ := idx_facts t
  match a with
  | ⟨0, _⟩ => show win0_5.index t (0 : Fin 2) * 128 + 1 * (y 0).val = (y 0).val; omega
  | ⟨1, _⟩ => show win0_5.index t (1 : Fin 2) * 32 + 1 * (y 1).val = (y 1).val; omega
/-- Window 6's one block is its whole array. -/
theorem B6_eq (c : Dev nD) (t : Fin cfg0.N) : B6 m c t = A6 m c := by
  funext y
  show V m c main_v42 (((cfg0.win 6).blk t).view.emb y) = V m c main_v42 y
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- A block's perceptron at a point is the array's at the point's faces. -/
theorem pointMlp (c : Dev nD) (t : Fin cfg0.N) (o : Nat) (ho : o + 6 ≤ 18) (h : S8000x18.Slices ![0, o] S8000x6) (r : Fin 8000) (j : Fin 32) :
    blockMlp (B0 m c t) (B1 m c t) (B2 m c t) (B3 m c t) (B4 m c t) (B5 m c t) (B6 m c t) o h (ix2 r j)
      = faceMlp (A0 m c) (A1 m c) (A2 m c) (A3 m c) (A4 m c) (A5 m c) (A6 m c) o ho ⟨8000 * t.val + r.val, by have := r.isLt; have := t_lt t; omega⟩ j :=
  blockMlp_apply (A0 m c) (A1 m c) (A2 m c) (A3 m c) (A4 m c) (A5 m c) (A6 m c) (B0 m c t) (B1 m c t) (B2 m c t) (B3 m c t) (B4 m c t) (B5 m c t) (B6 m c t)
    t.val (t_lt t) (B0_apply m c t) (B1_apply m c t) (B2_eq m c t) (B3_eq m c t) (B4_eq m c t) (B5_eq m c t) (B6_eq m c t) o ho h r j

end Points

/-! ## What each point writes back, and the arrays after the run -/

section Finals
variable (m : (ℓ : Loc nD τ sig) → Buf (Elt Ideal) ℓ)

/-- Point `t` writes back block `t` of the first result array's function. -/
theorem flushed7_eq (c : Dev nD) (t : Fin cfg0.N) :
    (dats m 0 c).flushed 7 t = ((cfg0.win 7).blk t).view.read (Elt Ideal) (posArr (A0 m c) (A1 m c) (A2 m c) (A3 m c) (A4 m c) (A5 m c) (A6 m c)) := by
  show (cfg0.win 7).cut (grid0.coords t) ((dats m 0 c).after 7 t) = _
  rw [after7, out7_eq]
  funext y
  obtain ⟨-, -, -, -, -, -, -, -, -, -, -, -, -, -, e70, e71, -⟩ := idx_facts t
  exact blockPos_apply (A0 m c) (A1 m c) (A2 m c) (A3 m c) (A4 m c) (A5 m c) (A6 m c) (B0 m c t) (B1 m c t) (B2 m c t) (B3 m c t) (B4 m c t) (B5 m c t) (B6 m c t)
    t.val (t_lt t) (B0_apply m c t) (B1_apply m c t) (B2_eq m c t) (B3_eq m c t) (B4_eq m c t) (B5_eq m c t) (B6_eq m c t) y
    (((cfg0.win 7).blk t).view.emb y)
    (by show win0_7.index t (0 : Fin 2) * 8000 + 1 * (y 0).val = _; omega)
    (by show win0_7.index t (1 : Fin 2) * 9 + 1 * (y 1).val = _; omega)

/-- And block `t` of the second's. -/
theorem flushed8_eq (c : Dev nD) (t : Fin cfg0.N) :
    (dats m 0 c).flushed 8 t = ((cfg0.win 8).blk t).view.read (Elt Ideal) (featArr (A0 m c) (A1 m c) (A2 m c) (A3 m c) (A4 m c) (A5 m c) (A6 m c)) := by
  show (cfg0.win 8).cut (grid0.coords t) ((dats m 0 c).after 8 t) = _
  rw [after8, out8_eq]
  funext y
  obtain ⟨-, -, -, -, -, -, -, -, -, -, -, -, -, -, -, -, e80, e81⟩ := idx_facts t
  exact blockFeat_apply (A0 m c) (A1 m c) (A2 m c) (A3 m c) (A4 m c) (A5 m c) (A6 m c) (B0 m c t) (B1 m c t) (B2 m c t) (B3 m c t) (B4 m c t) (B5 m c t) (B6 m c t)
    t.val (t_lt t) (B0_apply m c t) (B1_apply m c t) (B2_eq m c t) (B3_eq m c t) (B4_eq m c t) (B5_eq m c t) (B6_eq m c t) y
    (((cfg0.win 8).blk t).view.emb y)
    (by show win0_8.index t (0 : Fin 2) * 8000 + 1 * (y 0).val = _; omega)
    (by show win0_8.index t (1 : Fin 2) * 29 + 1 * (y 1).val = _; omega)

/-- An index of result array one is in point `t`'s block iff each coordinate is in the block's range. -/
theorem mem_blk7 (t : Fin cfg0.N) (i : S200000x9.Idx) :
    i ∈ ((cfg0.win 7).blk t).view.set ↔ ∀ a : Fin 2, win0_7.index t a * S8000x9.size a ≤ (i a).val ∧ (i a).val < win0_7.index t a * S8000x9.size a + S8000x9.size a := by
  show i ∈ ((View.whole main_v43_0).slice (win0_7.rect t)).set ↔ _
  rw [View.set_slice_whole, Rect.mem_set_unit]
  exact Iff.rfl

/-- Every face's row is in the block of the point its number over 8000 names. -/
theorem cover7 (i : S200000x9.Idx) : ∃ t : Fin cfg0.N, (cfg0.win 7).flush t = true ∧ i ∈ ((cfg0.win 7).blk t).view.set := by
  have hi0 : (i 0).val < 200000 := (i 0).isLt
  have hi1 : (i 1).val < 9 := (i 1).isLt
  have hN : cfg0.N = 25 := N_0
  have ht : (i 0).val / 8000 < cfg0.N := by rw [hN]; omega
  obtain ⟨-, -, -, -, -, -, -, -, -, -, -, -, -, -, e0, e1, -⟩ := idx_facts ⟨(i 0).val / 8000, ht⟩
  refine ⟨⟨(i 0).val / 8000, ht⟩, flush0_7 _, ?_⟩
  rw [mem_blk7]
  intro a
  match a with
  | ⟨0, _⟩ =>
    show win0_7.index ⟨(i 0).val / 8000, ht⟩ (0 : Fin 2) * 8000 ≤ (i 0).val ∧ (i 0).val < win0_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_7.index ⟨(i 0).val / 8000, ht⟩ (1 : Fin 2) * 9 ≤ (i 1).val ∧ (i 1).val < win0_7.index ⟨(i 0).val / 8000, ht⟩ (1 : Fin 2) * 9 + 9
    rw [e1]; omega

/-- An index of result array two is in point `t`'s block iff each coordinate is in the block's range. -/
theorem mem_blk8 (t : Fin cfg0.N) (i : S200000x29.Idx) :
    i ∈ ((cfg0.win 8).blk t).view.set ↔ ∀ a : Fin 2, win0_8.index t a * S8000x29.size a ≤ (i a).val ∧ (i a).val < win0_8.index t a * S8000x29.size a + S8000x29.size a := by
  show i ∈ ((View.whole main_v43_1).slice (win0_8.rect t)).set ↔ _
  rw [View.set_slice_whole, Rect.mem_set_unit]
  exact Iff.rfl

/-- Every face's row is in the block of the point its number over 8000 names. -/
theorem cover8 (i : S200000x29.Idx) : ∃ t : Fin cfg0.N, (cfg0.win 8).flush t = true ∧ i ∈ ((cfg0.win 8).blk t).view.set := by
  have hi0 : (i 0).val < 200000 := (i 0).isLt
  have hi1 : (i 1).val < 29 := (i 1).isLt
  have hN : cfg0.N = 25 := N_0
  have ht : (i 0).val / 8000 < cfg0.N := by rw [hN]; omega
  obtain ⟨-, -, -, -, -, -, -, -, -, -, -, -, -, -, -, -, e0, e1⟩ := idx_facts ⟨(i 0).val / 8000, ht⟩
  refine ⟨⟨(i 0).val / 8000, ht⟩, flush0_8 _, ?_⟩
  rw [mem_blk8]
  intro a
  match a with
  | ⟨0, _⟩ =>
    show win0_8.index ⟨(i 0).val / 8000, ht⟩ (0 : Fin 2) * 8000 ≤ (i 0).val ∧ (i 0).val < win0_8.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_8.index ⟨(i 0).val / 8000, ht⟩ (1 : Fin 2) * 29 ≤ (i 1).val ∧ (i 1).val < win0_8.index ⟨(i 0).val / 8000, ht⟩ (1 : Fin 2) * 29 + 29
    rw [e1]; omega

/-- The first result array after the run. -/
theorem final7 (c : Dev nD) : (dats m 0 c).arrAt 7 cfg0.N = posArr (A0 m c) (A1 m c) (A2 m c) (A3 m c) (A4 m c) (A5 m c) (A6 m c) :=
  (dats m 0 c).arrAt_eq_of_cover 7 _ (fun t _ => flushed7_eq m c t) cover7
/-- The second. -/
theorem final8 (c : Dev nD) : (dats m 0 c).arrAt 8 cfg0.N = featArr (A0 m c) (A1 m c) (A2 m c) (A3 m c) (A4 m c) (A5 m c) (A6 m c) :=
  (dats m 0 c).arrAt_eq_of_cover 8 _ (fun t _ => flushed8_eq m c t) cover8

end Finals

end Cert.KernelIdeal.Val

end
-- ==== Proof.LibNary.lean ====
/-
  A host operation over a literal family of three, or of six, references (a concatenation of three or six operands)
  leaves at its result reference its function of the operands' contents, each read at its own reference; so a reading
  of a line of host operations goes on into the operands.
-/
import Idealize.ShloMosaic.Lib.StableHlo.Run

noncomputable section

namespace Cert.LibNary

open Idealize.ShloMosaic Idealize.ShloMosaic.StableHlo Idealize.SL.Sem

variable {τ : Topo} {sig : RefSig} {Val : EltTy → Type}
variable {x a b c d e y : Ref sig .tc}

/-- Three operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Six operands. -/
theorem nary6_result
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b)) (Fin.cons (F (Proc.devRef .tc c))
          (Fin.cons (F (Proc.devRef .tc d)) (Fin.cons (F (Proc.devRef .tc e)) (fun i => i.elim0))))))) := by
  rw [nary_result]; congr 1; funext k; fin_cases k <;> rfl

end Cert.LibNary

end
-- ==== Proof.KI.Host.lean ====
/-
  The host lines of the idealized kernel program read back as values, for any float family: what the region finds
  in its seven operand arrays (the six edge differences of each face's three gathered corner positions, side by side;
  the features; the two row ranges of the first weight matrix; the biases as rows; the second weight matrix), and what
  the lines after the region compute from the region's first result: the per-node sums of the corners' position
  columns divided by the per-node corner counts (at least one), and the positions moved by that.
-/
import proofs.«137711_j6528350290204_1_alg».proof.Proof.KI.Data
import proofs.«137711_j6528350290204_1_alg».proof.Proof.LibNary
import Idealize.ShloMosaic.Lib.StableHlo.Run

set_option maxRecDepth 16384

noncomputable section

namespace Cert.KernelIdeal.Frm

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]

/-! ## The host lines as functions of the arguments -/

/-- Column `k` of the face table. -/
def faceCol0 (x6 : (⟨S200000x3, .i32⟩ : BufTy).Contents (Elt F)) : (⟨S200000, .i32⟩ : BufTy).Contents (Elt F) :=
  shapeCast _ (extractStridedSlice S200000x1 ![0, 0] x6 slices_S200000x3_S200000x1_0_0) shapeCasts_S200000x1_S200000
def faceCol1 (x6 : (⟨S200000x3, .i32⟩ : BufTy).Contents (Elt F)) : (⟨S200000, .i32⟩ : BufTy).Contents (Elt F) :=
  shapeCast _ (extractStridedSlice S200000x1 ![0, 1] x6 slices_S200000x3_S200000x1_0_1) shapeCasts_S200000x1_S200000
def faceCol2 (x6 : (⟨S200000x3, .i32⟩ : BufTy).Contents (Elt F)) : (⟨S200000, .i32⟩ : BufTy).Contents (Elt F) :=
  shapeCast _ (extractStridedSlice S200000x1 ![0, 2] x6 slices_S200000x3_S200000x1_0_2) shapeCasts_S200000x1_S200000

/-- A column of node numbers as gather indices: a negative entry wrapped by the node count. -/
def wrapIdx (col : (⟨S200000, .i32⟩ : BufTy).Contents (Elt F)) : (⟨S200000x1, .i32⟩ : BufTy).Contents (Elt F) :=
  broadcastInDim S200000x1 ![0] bcast_S200000_S200000x1_0
    (select (cmpi .slt col (broadcastInDim S200000 ![] bcast_S_S200000 (constantI S_ 32 0#32)))
      (addi col (broadcastInDim S200000 ![] bcast_S_S200000 (constantI S_ 32 100000#32))) col)

/-- The positions of one corner of every face. -/
def corner (x0 : (⟨S100000x3, .f32⟩ : BufTy).Contents (Elt F)) (col : (⟨S200000, .i32⟩ : BufTy).Contents (Elt F)) : (⟨S200000x3, .f32⟩ : BufTy).Contents (Elt F) :=
  Host.gather gather_S100000x3_S200000x1_S200000x3_1_0_n_n_0_1_13 x0 (wrapIdx col)

/-- The six edge differences of the three corners, side by side: for corner c the two edges leaving it. -/
def diffs18 (p0 p1 p2 : (⟨S200000x3, .f32⟩ : BufTy).Contents (Elt F)) : (⟨S200000x18, .f32⟩ : BufTy).Contents (Elt F) :=
  concatenate S200000x18 1 [⟨S200000x3, subf p1 p0⟩, ⟨S200000x3, subf p2 p0⟩, ⟨S200000x3, subf p2 p1⟩, ⟨S200000x3, subf p0 p1⟩,
    ⟨S200000x3, subf p0 p2⟩, ⟨S200000x3, subf p1 p2⟩] concatenates_S200000x3_S200000x3_S200000x3_S200000x3_S200000x3_S200000x3_S200000x18_d1

/-- The three face columns one after the other, as scatter indices. -/
def scatterIdx (x6 : (⟨S200000x3, .i32⟩ : BufTy).Contents (Elt F)) : (⟨S600000x1, .i32⟩ : BufTy).Contents (Elt F) :=
  broadcastInDim S600000x1 ![0] bcast_S600000_S600000x1_0
    (concatenate S600000 0 [⟨S200000, faceCol0 x6⟩, ⟨S200000, faceCol1 x6⟩, ⟨S200000, faceCol2 x6⟩] concatenates_S200000_S200000_S200000_S600000_d0)

/-- How many face corners name each node. -/
def counts (x6 : (⟨S200000x3, .i32⟩ : BufTy).Contents (Elt F)) : (⟨S100000, .f32⟩ : BufTy).Contents (Elt F) :=
  Host.scatterAdd scatter_S100000_S600000x1_S600000_n_0_0_1 (broadcastInDim S100000 ![] bcast_S_S100000 (constant S_ .f32 0x00000000#32))
    (scatterIdx x6) (broadcastInDim S600000 ![] bcast_S_S600000 (constant S_ .f32 0x3F800000#32))

/-- The counts, at least one, along each node's three coordinates. -/
def denom (x6 : (⟨S200000x3, .i32⟩ : BufTy).Contents (Elt F)) : (⟨S100000x3, .f32⟩ : BufTy).Contents (Elt F) :=
  broadcastInDim S100000x3 ![0, 1] bcast_S100000x1_S100000x3_0_1 (broadcastInDim S100000x1 ![0] bcast_S100000_S100000x1_0
    (maximumf (broadcastInDim S100000 ![] bcast_S_S100000 (id (constant S_ .f32 0x3F800000#32))) (counts x6)))

/-- The mean, per node, of the position columns of the face corners that name it. -/
def deltaPos (x6 : (⟨S200000x3, .i32⟩ : BufTy).Contents (Elt F)) (o0 o1 o2 : (⟨S200000x3, .f32⟩ : BufTy).Contents (Elt F)) : (⟨S100000x3, .f32⟩ : BufTy).Contents (Elt F) :=
  Host.divf (Host.scatterAdd scatter_S100000x3_S600000x1_S600000x3_1_0_0_1 (broadcastInDim S100000x3 ![] bcast_S_S100000x3 (constant S_ .f32 0x00000000#32))
    (scatterIdx x6) (concatenate S600000x3 0 [⟨S200000x3, o0⟩, ⟨S200000x3, o1⟩, ⟨S200000x3, o2⟩] concatenates_S200000x3_S200000x3_S200000x3_S600000x3_d0))
    (denom x6)

/-! ## A concatenation's result at its own reference -/

section NarySimp
variable {τ' : Topo} {sig' : RefSig} {Val : EltTy → Type}
variable {x a b c d e y : Ref sig' .tc}

/-- A host line over a literal family of six references leaves, at its result reference, its function of the six
    operands' contents, each read at its own reference. -/
theorem nary6_result'
    (f : ((k : Fin 6) → ((![x, a, b, c, d, e] : Fin 6 → Ref sig' .tc) k).ty.Contents Val) → y.ty.Contents Val) (hxs hy)
    (G : Valuation τ' sig' Val) :
    (nary (τ := τ') ![x, a, b, c, d, e] y f hxs hy).result G (no_index (Proc.devRef .tc y))
      = f (Fin.cons (G (Proc.devRef .tc x)) (Fin.cons (G (Proc.devRef .tc a)) (Fin.cons (G (Proc.devRef .tc b)) (Fin.cons (G (Proc.devRef .tc c))
          (Fin.cons (G (Proc.devRef .tc d)) (Fin.cons (G (Proc.devRef .tc e)) (fun i => i.elim0))))))) :=
  Cert.LibNary.nary6_result f hxs hy G

/-- The same over a literal family of three references. -/
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  Cert.LibNary.nary3_result f hxs hy G

end NarySimp

variable (m : (ℓ : Loc nD τ sig) → Buf (Elt F) ℓ)

/-! ## What the region finds -/

theorem V_v8 (c : Dev nD) : V m c main_v8 = corner (m ((c : Thread nD τ).loc main_arg0)) (faceCol0 (m ((c : Thread nD τ).loc main_arg6))) := by
  dsimp only [V, V0]
  simp only [List.flatten_cons, List.flatten_nil, List.append_nil]
  after_results_simp
  rfl
theorem V_v17 (c : Dev nD) : V m c main_v17 = corner (m ((c : Thread nD τ).loc main_arg0)) (faceCol1 (m ((c : Thread nD τ).loc main_arg6))) := by
  dsimp only [V, V0]
  simp only [List.flatten_cons, List.flatten_nil, List.append_nil]
  after_results_simp
  rfl
theorem V_v26 (c : Dev nD) : V m c main_v26 = corner (m ((c : Thread nD τ).loc main_arg0)) (faceCol2 (m ((c : Thread nD τ).loc main_arg6))) := by
  dsimp only [V, V0]
  simp only [List.flatten_cons, List.flatten_nil, List.append_nil]
  after_results_simp
  rfl
/-- Window 0's array: the differences, their format changed. -/
theorem V_v34 (c : Dev nD) : V m c main_v34 = truncf .bf16 (diffs18 (V m c main_v8) (V m c main_v17) (V m c main_v26)) bitsLt_bf16_f32 := by
  dsimp only [V, V0]
  simp only [List.flatten_cons, List.flatten_nil, List.append_nil]
  -- the lines up to the third gather, as one valuation G; the sixteen lines after them read the gathers at G
  rw [← List.take_append_drop 33 (hostOps0 : List (HloOp τ sig (Elt F))), StableHlo.after_append]
  generalize StableHlo.after (List.take 33 (hostOps0 : List (HloOp τ sig (Elt F)))) (fun b => m (c, b)) = G
  simp only [hostOps0, List.drop_succ_cons, List.drop_zero]
  simp (disch := decide) only [after_cons, after_nil, nary6_result', unary_result', binary_result',
    unary_result_ne', binary_result_ne', reshape_result_ne', nary_result_ne']
  -- the six subtractions under the concatenation, each at its own reference
  rfl
/-- Window 1's: the features. -/
theorem V_v35 (c : Dev nD) : V m c main_v35 = truncf .bf16 (m ((c : Thread nD τ).loc main_arg1)) bitsLt_bf16_f32 := by
  dsimp only [V, V0]
  simp only [List.flatten_cons, List.flatten_nil, List.append_nil]
  after_results_simp
/-- Window 2's: the first six rows of the first weight matrix. -/
theorem V_v37 (c : Dev nD) : V m c main_v37
    = truncf .bf16 (extractStridedSlice S6x128 ![0, 0] (m ((c : Thread nD τ).loc main_arg2)) slices_S134x128_S6x128_0_0) bitsLt_bf16_f32 := by
  dsimp only [V, V0]
  simp only [List.flatten_cons, List.flatten_nil, List.append_nil]
  after_results_simp
/-- Window 3's: its other 128 rows. -/
theorem V_v39 (c : Dev nD) : V m c main_v39
    = truncf .bf16 (extractStridedSlice S128x128 ![6, 0] (m ((c : Thread nD τ).loc main_arg2)) slices_S134x128_S128x128_6_0) bitsLt_bf16_f32 := by
  dsimp only [V, V0]
  simp only [List.flatten_cons, List.flatten_nil, List.append_nil]
  after_results_simp
/-- Window 5's: the second weight matrix. -/
theorem V_v40 (c : Dev nD) : V m c main_v40 = truncf .bf16 (m ((c : Thread nD τ).loc main_arg4)) bitsLt_bf16_f32 := by
  dsimp only [V, V0]
  simp only [List.flatten_cons, List.flatten_nil, List.append_nil]
  after_results_simp
/-- Window 4's: the first bias as one row. -/
theorem V_v41 (c : Dev nD) : V m c main_v41 = shapeCast S1x128 (m ((c : Thread nD τ).loc main_arg3)) shapeCasts_S128_S1x128 := by
  dsimp only [V, V0]
  simp only [List.flatten_cons, List.flatten_nil, List.append_nil]
  after_results_simp
  rfl
/-- Window 6's: the second bias as one row. -/
theorem V_v42 (c : Dev nD) : V m c main_v42 = shapeCast S1x32 (m ((c : Thread nD τ).loc main_arg5)) shapeCasts_S32_S1x32 := by
  dsimp only [V, V0]
  simp only [List.flatten_cons, List.flatten_nil, List.append_nil]
  after_results_simp
  rfl

/-! ## What the lines after the region compute -/

/-- No line before the region writes argument 0 or argument 6: the region's entry valuation has them as launched. -/
theorem V0_at_arg0 (c : Dev nD) : V0 m c (Proc.devRef .tc main_arg0) = m ((c : Thread nD τ).loc main_arg0) := by
  dsimp only [V0]
  simp only [List.flatten_cons, List.flatten_nil, List.append_nil]
  after_results_simp
theorem V0_at_arg6 (c : Dev nD) : V0 m c (Proc.devRef .tc main_arg6) = m ((c : Thread nD τ).loc main_arg6) := by
  dsimp only [V0]
  simp only [List.flatten_cons, List.flatten_nil, List.append_nil]
  after_results_simp

/-- The first result: the node means of the three column triples of the region's first result array `A7`. -/
theorem T_v65 (dats : (p : Fin 1) → (c : Dev nD) → Dat τ (Elt F) Unit ℕ (UR sig nD τ) ℕ (cfgs p) c) (c : Dev nD)
    (A7 : (⟨S200000x9, .f32⟩ : BufTy).Contents (Elt F)) (hA7 : (dats 0 c).arrAt 7 cfg0.N = A7) :
    Pipeline.afterTail₀ cfgs dats 0 (V0 m) tailOps c main_v65
      = deltaPos (m ((c : Thread nD τ).loc main_arg6)) (extractStridedSlice S200000x3 ![0, 0] A7 slices_S200000x9_S200000x3_0_0)
          (extractStridedSlice S200000x3 ![0, 3] A7 slices_S200000x9_S200000x3_0_3) (extractStridedSlice S200000x3 ![0, 6] A7 slices_S200000x9_S200000x3_0_6) := by
  unfold Pipeline.afterTail₀
  -- what the region leaves: its first result array at A7, the arguments as launched
  have h43 : Pipeline.withArrays (cfgs 0).spec c (V0 m c) (fun w => (dats 0 c).arrAt w (cfgs 0).N) (Proc.devRef .tc main_v43_0) = A7 :=
    (Pipeline.withArrays_arr spec0 winFacts0.arr_inj c (V0 m c) (fun w => (dats 0 c).arrAt w cfg0.N) 7).trans hA7
  have h6 : Pipeline.withArrays (cfgs 0).spec c (V0 m c) (fun w => (dats 0 c).arrAt w (cfgs 0).N) (Proc.devRef .tc main_arg6)
      = m ((c : Thread nD τ).loc main_arg6) :=
    (Pipeline.withArrays_of_ne spec0 c (V0 m c) (fun w => (dats 0 c).arrAt w cfg0.N) main_arg6 (by decide)).trans (V0_at_arg6 m c)
  -- the lines read those three references only: name the valuation W and state the claim over its reads
  generalize Pipeline.withArrays (cfgs 0).spec c (V0 m c) (fun w => (dats 0 c).arrAt w (cfgs 0).N) = W at h43 h6 ⊢
  clear hA7
  subst h43
  rw [← h6]
  simp only [tailOps, List.flatten_cons, List.flatten_nil, List.append_nil, List.cons_append, List.nil_append, hostOps1, hostOps1_1, hostOps1_2]
  simp (disch := decide) only [after_cons, after_nil, nary3_result', nullary_result', unary_result', binary_result', ternary_result',
    reshape_result', nullary_result_ne', unary_result_ne', binary_result_ne', ternary_result_ne', reshape_result_ne', nary_result_ne']
  -- under each concatenation its three operands, each at its own reference
  rfl
/-- The second: the positions moved by it. -/
theorem T_v66 (dats : (p : Fin 1) → (c : Dev nD) → Dat τ (Elt F) Unit ℕ (UR sig nD τ) ℕ (cfgs p) c) (c : Dev nD)
    (A7 : (⟨S200000x9, .f32⟩ : BufTy).Contents (Elt F)) (hA7 : (dats 0 c).arrAt 7 cfg0.N = A7) :
    Pipeline.afterTail₀ cfgs dats 0 (V0 m) tailOps c main_v66
      = addf (m ((c : Thread nD τ).loc main_arg0)) (deltaPos (m ((c : Thread nD τ).loc main_arg6)) (extractStridedSlice S200000x3 ![0, 0] A7 slices_S200000x9_S200000x3_0_0)
          (extractStridedSlice S200000x3 ![0, 3] A7 slices_S200000x9_S200000x3_0_3) (extractStridedSlice S200000x3 ![0, 6] A7 slices_S200000x9_S200000x3_0_6)) := by
  unfold Pipeline.afterTail₀
  -- what the region leaves: its first result array at A7, the arguments as launched
  have h43 : Pipeline.withArrays (cfgs 0).spec c (V0 m c) (fun w => (dats 0 c).arrAt w (cfgs 0).N) (Proc.devRef .tc main_v43_0) = A7 :=
    (Pipeline.withArrays_arr spec0 winFacts0.arr_inj c (V0 m c) (fun w => (dats 0 c).arrAt w cfg0.N) 7).trans hA7
  have h6 : Pipeline.withArrays (cfgs 0).spec c (V0 m c) (fun w => (dats 0 c).arrAt w (cfgs 0).N) (Proc.devRef .tc main_arg6)
      = m ((c : Thread nD τ).loc main_arg6) :=
    (Pipeline.withArrays_of_ne spec0 c (V0 m c) (fun w => (dats 0 c).arrAt w cfg0.N) main_arg6 (by decide)).trans (V0_at_arg6 m c)
  have h0 : Pipeline.withArrays (cfgs 0).spec c (V0 m c) (fun w => (dats 0 c).arrAt w (cfgs 0).N) (Proc.devRef .tc main_arg0)
      = m ((c : Thread nD τ).loc main_arg0) :=
    (Pipeline.withArrays_of_ne spec0 c (V0 m c) (fun w => (dats 0 c).arrAt w cfg0.N) main_arg0 (by decide)).trans (V0_at_arg0 m c)
  -- the lines read those three references only: name the valuation W and state the claim over its reads
  generalize Pipeline.withArrays (cfgs 0).spec c (V0 m c) (fun w => (dats 0 c).arrAt w (cfgs 0).N) = W at h43 h6 h0 ⊢
  clear hA7
  subst h43
  rw [← h6, ← h0]
  simp only [tailOps, List.flatten_cons, List.flatten_nil, List.append_nil, List.cons_append, List.nil_append, hostOps1, hostOps1_1, hostOps1_2]
  simp (disch := decide) only [after_cons, after_nil, nary3_result', nullary_result', unary_result', binary_result', ternary_result',
    reshape_result', nullary_result_ne', unary_result_ne', binary_result_ne', ternary_result_ne', reshape_result_ne', nary_result_ne']
  -- under each concatenation its three operands, each at its own reference
  rfl

end Cert.KernelIdeal.Frm

end
-- ==== Proof.Cat.lean ====
/-
  A concatenation along the columns read at an entry: the difference table's six three-column pieces, and the
  perceptron input's three pieces (two triples of differences, then the 128 features).
-/
import proofs.«137711_j6528350290204_1_alg».proof.Proof.KI.Host
import proofs.«137711_j6528350290204_1_alg».proof.ReferenceIdeal
import Idealize.ShloMosaic.Lib.ValueIdx
import Idealize.ShloMosaic.Lib.Pipeline.Value

noncomputable section

namespace Cert.Cat

open Idealize.ShloMosaic Idealize.ShloMosaic.ValueIdx Idealize.SL.Sem

variable {F : FTy → Type} [FloatOps F]

section Kernel
open Cert.KernelIdeal Cert.KernelIdeal.Gen Cert.KernelIdeal.Frm

/-- Columns 3k..3k+2 of the difference table are its k-th piece. -/
theorem diffs18_apply (p0 p1 p2 : (⟨S200000x3, .f32⟩ : BufTy).Contents (Elt F)) (R : Fin 200000) (q : Fin 3) :
    diffs18 p0 p1 p2 (ix2 R (⟨q.val, by omega⟩ : Fin 18)) = subf p1 p0 (ix2 R q)
    ∧ diffs18 p0 p1 p2 (ix2 R (⟨3 + q.val, by omega⟩ : Fin 18)) = subf p2 p0 (ix2 R q)
    ∧ diffs18 p0 p1 p2 (ix2 R (⟨6 + q.val, by omega⟩ : Fin 18)) = subf p2 p1 (ix2 R q)
    ∧ diffs18 p0 p1 p2 (ix2 R (⟨9 + q.val, by omega⟩ : Fin 18)) = subf p0 p1 (ix2 R q)
    ∧ diffs18 p0 p1 p2 (ix2 R (⟨12 + q.val, by omega⟩ : Fin 18)) = subf p0 p2 (ix2 R q)
    ∧ diffs18 p0 p1 p2 (ix2 R (⟨15 + q.val, by omega⟩ : Fin 18)) = subf p1 p2 (ix2 R q) := by
  unfold diffs18
  refine ⟨?_, ?_, ?_, ?_, ?_, ?_⟩
  · refine concatenate_apply_piece (t := S200000x18) (1 : Fin 2) _ _ _ 0 ?_ S200000x3 (subf p1 p0) ?_ ?_ 0 ?_ (ix2 R q) ?_ ?_
    · exact (by decide : (0 : ℕ) < 6)
    · rfl
    · rfl
    · rfl
    · intro b hb
      match b with
      | ⟨0, _⟩ => rfl
      | ⟨1, _⟩ => exact absurd rfl hb
    · exact Nat.zero_add _
  · refine concatenate_apply_piece (t := S200000x18) (1 : Fin 2) _ _ _ 1 ?_ S200000x3 (subf p2 p0) ?_ ?_ 3 ?_ (ix2 R q) ?_ ?_
    · exact (by decide : (1 : ℕ) < 6)
    · rfl
    · rfl
    · rfl
    · intro b hb
      match b with
      | ⟨0, _⟩ => rfl
      | ⟨1, _⟩ => exact absurd rfl hb
    · exact rfl
  · refine concatenate_apply_piece (t := S200000x18) (1 : Fin 2) _ _ _ 2 ?_ S200000x3 (subf p2 p1) ?_ ?_ 6 ?_ (ix2 R q) ?_ ?_
    · exact (by decide : (2 : ℕ) < 6)
    · rfl
    · rfl
    · rfl
    · intro b hb
      match b with
      | ⟨0, _⟩ => rfl
      | ⟨1, _⟩ => exact absurd rfl hb
    · exact rfl
  · refine concatenate_apply_piece (t := S200000x18) (1 : Fin 2) _ _ _ 3 ?_ S200000x3 (subf p0 p1) ?_ ?_ 9 ?_ (ix2 R q) ?_ ?_
    · exact (by decide : (3 : ℕ) < 6)
    · rfl
    · rfl
    · rfl
    · intro b hb
      match b with
      | ⟨0, _⟩ => rfl
      | ⟨1, _⟩ => exact absurd rfl hb
    · exact rfl
  · refine concatenate_apply_piece (t := S200000x18) (1 : Fin 2) _ _ _ 4 ?_ S200000x3 (subf p0 p2) ?_ ?_ 12 ?_ (ix2 R q) ?_ ?_
    · exact (by decide : (4 : ℕ) < 6)
    · rfl
    · rfl
    · rfl
    · intro b hb
      match b with
      | ⟨0, _⟩ => rfl
      | ⟨1, _⟩ => exact absurd rfl hb
    · exact rfl
  · refine concatenate_apply_piece (t := S200000x18) (1 : Fin 2) _ _ _ 5 ?_ S200000x3 (subf p1 p2) ?_ ?_ 15 ?_ (ix2 R q) ?_ ?_
    · exact (by decide : (5 : ℕ) < 6)
    · rfl
    · rfl
    · rfl
    · intro b hb
      match b with
      | ⟨0, _⟩ => rfl
      | ⟨1, _⟩ => exact absurd rfl hb
    · exact rfl
end Kernel

section Reference
open Cert.ReferenceIdeal
variable [Cert.ReferenceIdeal.Facts]
open Cert.ReferenceIdeal.Facts₀ Cert.ReferenceIdeal.Facts

/-- The perceptron's input row: three columns of one difference, three of the other, then the 128 features. -/
theorem input134_apply (da db : (⟨S200000x3, .f32⟩ : BufTy).Contents (Elt F)) (x1 : (⟨S200000x128, .f32⟩ : BufTy).Contents (Elt F)) (R : Fin 200000) :
    (∀ q : Fin 3, concatenate S200000x134 1 [⟨S200000x3, da⟩, ⟨S200000x3, db⟩, ⟨S200000x128, x1⟩] concatenates_S200000x3_S200000x3_S200000x128_S200000x134_d1
        (ix2 R (⟨q.val, by omega⟩ : Fin 134)) = da (ix2 R q))
    ∧ (∀ q : Fin 3, concatenate S200000x134 1 [⟨S200000x3, da⟩, ⟨S200000x3, db⟩, ⟨S200000x128, x1⟩] concatenates_S200000x3_S200000x3_S200000x128_S200000x134_d1
        (ix2 R (⟨3 + q.val, by omega⟩ : Fin 134)) = db (ix2 R q))
    ∧ (∀ q : Fin 128, concatenate S200000x134 1 [⟨S200000x3, da⟩, ⟨S200000x3, db⟩, ⟨S200000x128, x1⟩] concatenates_S200000x3_S200000x3_S200000x128_S200000x134_d1
        (ix2 R (⟨6 + q.val, by omega⟩ : Fin 134)) = x1 (ix2 R q)) := by
  refine ⟨fun q => ?_, fun q => ?_, fun q => ?_⟩
  · refine concatenate_apply_piece (t := S200000x134) (1 : Fin 2) _ _ _ 0 ?_ S200000x3 da ?_ ?_ 0 ?_ (ix2 R q) ?_ ?_
    · exact (by decide : (0 : ℕ) < 3)
    · rfl
    · rfl
    · rfl
    · intro b hb
      match b with
      | ⟨0, _⟩ => rfl
      | ⟨1, _⟩ => exact absurd rfl hb
    · exact Nat.zero_add _
  · refine concatenate_apply_piece (t := S200000x134) (1 : Fin 2) _ _ _ 1 ?_ S200000x3 db ?_ ?_ 3 ?_ (ix2 R q) ?_ ?_
    · exact (by decide : (1 : ℕ) < 3)
    · rfl
    · rfl
    · rfl
    · intro b hb
      match b with
      | ⟨0, _⟩ => rfl
      | ⟨1, _⟩ => exact absurd rfl hb
    · exact rfl
  · refine concatenate_apply_piece (t := S200000x134) (1 : Fin 2) _ _ _ 2 ?_ S200000x128 x1 ?_ ?_ 6 ?_ (ix2 R q) ?_ ?_
    · exact (by decide : (2 : ℕ) < 3)
    · rfl
    · rfl
    · rfl
    · intro b hb
      match b with
      | ⟨0, _⟩ => rfl
      | ⟨1, _⟩ => exact absurd rfl hb
    · exact rfl
end Reference

end Cert.Cat

end
-- ==== Proof.RefMlp.lean ====
/-
  The reference's perceptron as one function of its input table and the weights, and its value at an entry over
  the extended reals: for face R and output column j,
    (sum over k < 128 of max((sum over q < 134 of in[R,q] * W1[q,k]) + b1[k], 0) * W2[k,j]) + b2[j].
-/
import proofs.«137711_j6528350290204_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.RefVal

open Idealize.ShloMosaic Idealize.ShloMosaic.ValueIdx Idealize.SL.Sem
open Cert.ReferenceIdeal Cert.ReferenceIdeal.Gen

variable {F : FTy → Type} [FloatOps F]

/-- Two layers on the whole face table: the input rows against the first weight matrix, plus the first bias along the
    rows, clamped at zero, against the second weight matrix, plus the second bias along the rows. -/
def refMlp (inp : (⟨S200000x134, .f32⟩ : BufTy).Contents (Elt F)) (x2 : (⟨S134x128, .f32⟩ : BufTy).Contents (Elt F))
    (x3 : (⟨S128, .f32⟩ : BufTy).Contents (Elt F)) (x4 : (⟨S128x32, .f32⟩ : BufTy).Contents (Elt F)) (x5 : (⟨S32, .f32⟩ : BufTy).Contents (Elt F)) :
    (⟨S200000x32, .f32⟩ : BufTy).Contents (Elt F) :=
  addf (Host.dotGeneral dot_S200000x128_S128x32_S200000x32_1_0_0_1_n_n none
      (maximumf (addf (Host.dotGeneral dot_S200000x134_S134x128_S200000x128_1_0_0_1_n_n none inp x2)
          (broadcastInDim S200000x128 ![0, 1] bcast_S1x128_S200000x128_0_1 (broadcastInDim S1x128 ![1] bcast_S128_S1x128_1 x3)))
        (broadcastInDim S200000x128 ![] bcast_S_S200000x128 (constant S_ .f32 0x00000000#32))) x4)
    (broadcastInDim S200000x32 ![0, 1] bcast_S1x32_S200000x32_0_1 (broadcastInDim S1x32 ![1] bcast_S32_S1x32_1 x5))

/-- The perceptron's input rows: two triples of edge differences, then the 128 features. -/
def input134 (da db : (⟨S200000x3, .f32⟩ : BufTy).Contents (Elt F)) (x1 : (⟨S200000x128, .f32⟩ : BufTy).Contents (Elt F)) :
    (⟨S200000x134, .f32⟩ : BufTy).Contents (Elt F) :=
  concatenate S200000x134 1 [⟨S200000x3, da⟩, ⟨S200000x3, db⟩, ⟨S200000x128, x1⟩] concatenates_S200000x3_S200000x3_S200000x128_S200000x134_d1

/-- A perceptron output's first three columns (the corner's position change). -/
def out3 (G : (⟨S200000x32, .f32⟩ : BufTy).Contents (Elt F)) : (⟨S200000x3, .f32⟩ : BufTy).Contents (Elt F) :=
  extractStridedSlice S200000x3 ![0, 0] G slices_S200000x32_S200000x3_0_0
/-- Its other 29 columns. -/
def out29 (G : (⟨S200000x32, .f32⟩ : BufTy).Contents (Elt F)) : (⟨S200000x29, .f32⟩ : BufTy).Contents (Elt F) :=
  extractStridedSlice S200000x29 ![0, 3] G slices_S200000x32_S200000x29_0_3
/-- The three corners' mean of those 29 columns. -/
def mean29 (G0 G1 G2 : (⟨S200000x32, .f32⟩ : BufTy).Contents (Elt F)) : (⟨S200000x29, .f32⟩ : BufTy).Contents (Elt F) :=
  Host.divf (addf (addf (out29 G0) (out29 G1)) (out29 G2)) (broadcastInDim S200000x29 ![] bcast_S_S200000x29 (constant S_ .f32 0x40400000#32))

/-! ## The two host matrix products at an entry -/

theorem dA_l0 (i : S200000x128.Idx) (q : dot_S200000x134_S134x128_S200000x128_1_0_0_1_n_n.contr.Idx) : (dot_S200000x134_S134x128_S200000x128_1_0_0_1_n_n.lhsIdx i q 0).val = (i 0).val := by
  unfold DotDims.lhsIdx
  rw [dif_neg (show ¬(0 : Fin S200000x134.rank) ∈ dot_S200000x134_S134x128_S200000x128_1_0_0_1_n_n.lhsBatch by decide), dif_pos (show (0 : Fin S200000x134.rank) ∈ dot_S200000x134_S134x128_S200000x128_1_0_0_1_n_n.lhsNonContracting by decide)]
  rfl
theorem dA_l1 (i : S200000x128.Idx) (q : dot_S200000x134_S134x128_S200000x128_1_0_0_1_n_n.contr.Idx) : (dot_S200000x134_S134x128_S200000x128_1_0_0_1_n_n.lhsIdx i q 1).val = (q ⟨0, by decide⟩).val :=
  dot_S200000x134_S134x128_S200000x128_1_0_0_1_n_n.lhsIdx_val_of_single rfl i q
theorem dA_r0 (i : S200000x128.Idx) (q : dot_S200000x134_S134x128_S200000x128_1_0_0_1_n_n.contr.Idx) : (dot_S200000x134_S134x128_S200000x128_1_0_0_1_n_n.rhsIdx i q 0).val = (q ⟨0, by decide⟩).val :=
  dot_S200000x134_S134x128_S200000x128_1_0_0_1_n_n.rhsIdx_val_of_single rfl i q
theorem dA_r1 (i : S200000x128.Idx) (q : dot_S200000x134_S134x128_S200000x128_1_0_0_1_n_n.contr.Idx) : (dot_S200000x134_S134x128_S200000x128_1_0_0_1_n_n.rhsIdx i q 1).val = (i 1).val := by
  unfold DotDims.rhsIdx
  rw [dif_neg (show ¬(1 : Fin S134x128.rank) ∈ dot_S200000x134_S134x128_S200000x128_1_0_0_1_n_n.rhsBatch by decide), dif_pos (show (1 : Fin S134x128.rank) ∈ dot_S200000x134_S134x128_S200000x128_1_0_0_1_n_n.rhsNonContracting by decide)]
  rfl

theorem dB_l0 (i : S200000x32.Idx) (q : dot_S200000x128_S128x32_S200000x32_1_0_0_1_n_n.contr.Idx) : (dot_S200000x128_S128x32_S200000x32_1_0_0_1_n_n.lhsIdx i q 0).val = (i 0).val := by
  unfold DotDims.lhsIdx
  rw [dif_neg (show ¬(0 : Fin S200000x128.rank) ∈ dot_S200000x128_S128x32_S200000x32_1_0_0_1_n_n.lhsBatch by decide), dif_pos (show (0 : Fin S200000x128.rank) ∈ dot_S200000x128_S128x32_S200000x32_1_0_0_1_n_n.lhsNonContracting by decide)]
  rfl
theorem dB_l1 (i : S200000x32.Idx) (q : dot_S200000x128_S128x32_S200000x32_1_0_0_1_n_n.contr.Idx) : (dot_S200000x128_S128x32_S200000x32_1_0_0_1_n_n.lhsIdx i q 1).val = (q ⟨0, by decide⟩).val :=
  dot_S200000x128_S128x32_S200000x32_1_0_0_1_n_n.lhsIdx_val_of_single rfl i q
theorem dB_r0 (i : S200000x32.Idx) (q : dot_S200000x128_S128x32_S200000x32_1_0_0_1_n_n.contr.Idx) : (dot_S200000x128_S128x32_S200000x32_1_0_0_1_n_n.rhsIdx i q 0).val = (q ⟨0, by decide⟩).val :=
  dot_S200000x128_S128x32_S200000x32_1_0_0_1_n_n.rhsIdx_val_of_single rfl i q
theorem dB_r1 (i : S200000x32.Idx) (q : dot_S200000x128_S128x32_S200000x32_1_0_0_1_n_n.contr.Idx) : (dot_S200000x128_S128x32_S200000x32_1_0_0_1_n_n.rhsIdx i q 1).val = (i 1).val := by
  unfold DotDims.rhsIdx
  rw [dif_neg (show ¬(1 : Fin S128x32.rank) ∈ dot_S200000x128_S128x32_S200000x32_1_0_0_1_n_n.rhsBatch by decide), dif_pos (show (1 : Fin S128x32.rank) ∈ dot_S200000x128_S128x32_S200000x32_1_0_0_1_n_n.rhsNonContracting by decide)]
  rfl

/-- The host's matrix product read at an entry: the row of the left factor against the column of the right. -/
theorem dA_apply (lhs : FVec Ideal S200000x134 .f32) (rhs : FVec Ideal S134x128 .f32) (r : Fin 200000) (j : Fin 128) :
    Host.dotGeneral dot_S200000x134_S134x128_S200000x128_1_0_0_1_n_n none lhs rhs (ix2 r j) = ∑ k : Fin 134, lhs (ix2 r k) * rhs (ix2 k j) := by
  simp only [Host.dotGeneral]
  rw [Ideal.dotGeneral_apply, ← Equiv.sum_comp (ValueIdx.contrEquiv1 dot_S200000x134_S134x128_S200000x128_1_0_0_1_n_n 134 rfl rfl).symm]
  refine Finset.sum_congr rfl fun k _ => ?_
  have hk := ValueIdx.contrEquiv1_symm_val dot_S200000x134_S134x128_S200000x128_1_0_0_1_n_n 134 rfl rfl k
  have el : dot_S200000x134_S134x128_S200000x128_1_0_0_1_n_n.lhsIdx (ix2 r j) ((ValueIdx.contrEquiv1 dot_S200000x134_S134x128_S200000x128_1_0_0_1_n_n 134 rfl rfl).symm k) = ix2 r k := funext fun a => Fin.ext (by
    match a with
    | ⟨0, _⟩ => exact dA_l0 _ _
    | ⟨1, _⟩ => exact (dA_l1 _ _).trans hk)
  have er : dot_S200000x134_S134x128_S200000x128_1_0_0_1_n_n.rhsIdx (ix2 r j) ((ValueIdx.contrEquiv1 dot_S200000x134_S134x128_S200000x128_1_0_0_1_n_n 134 rfl rfl).symm k) = ix2 k j := funext fun a => Fin.ext (by
    match a with
    | ⟨0, _⟩ => exact (dA_r0 _ _).trans hk
    | ⟨1, _⟩ => exact dA_r1 _ _)
  rw [el, er]

/-- The host's matrix product read at an entry: the row of the left factor against the column of the right. -/
theorem dB_apply (lhs : FVec Ideal S200000x128 .f32) (rhs : FVec Ideal S128x32 .f32) (r : Fin 200000) (j : Fin 32) :
    Host.dotGeneral dot_S200000x128_S128x32_S200000x32_1_0_0_1_n_n none lhs rhs (ix2 r j) = ∑ k : Fin 128, lhs (ix2 r k) * rhs (ix2 k j) := by
  simp only [Host.dotGeneral]
  rw [Ideal.dotGeneral_apply, ← Equiv.sum_comp (ValueIdx.contrEquiv1 dot_S200000x128_S128x32_S200000x32_1_0_0_1_n_n 128 rfl rfl).symm]
  refine Finset.sum_congr rfl fun k _ => ?_
  have hk := ValueIdx.contrEquiv1_symm_val dot_S200000x128_S128x32_S200000x32_1_0_0_1_n_n 128 rfl rfl k
  have el : dot_S200000x128_S128x32_S200000x32_1_0_0_1_n_n.lhsIdx (ix2 r j) ((ValueIdx.contrEquiv1 dot_S200000x128_S128x32_S200000x32_1_0_0_1_n_n 128 rfl rfl).symm k) = ix2 r k := funext fun a => Fin.ext (by
    match a with
    | ⟨0, _⟩ => exact dB_l0 _ _
    | ⟨1, _⟩ => exact (dB_l1 _ _).trans hk)
  have er : dot_S200000x128_S128x32_S200000x32_1_0_0_1_n_n.rhsIdx (ix2 r j) ((ValueIdx.contrEquiv1 dot_S200000x128_S128x32_S200000x32_1_0_0_1_n_n 128 rfl rfl).symm k) = ix2 k j := funext fun a => Fin.ext (by
    match a with
    | ⟨0, _⟩ => exact (dB_r0 _ _).trans hk
    | ⟨1, _⟩ => exact dB_r1 _ _)
  rw [el, er]

/-- A bias vector laid along the rows of a table reads, at any row, its own entry. -/
theorem bias128_apply (x3 : FVec Ideal S128 .f32) (R : Fin 200000) (k : Fin 128) :
    broadcastInDim S200000x128 ![0, 1] bcast_S1x128_S200000x128_0_1 (broadcastInDim S1x128 ![1] bcast_S128_S1x128_1 x3) (ix2 R k) = x3 (ix1 k) := by
  rw [broadcastInDim_apply _ bcast_S1x128_S200000x128_0_1 _ (ix2 R k) (ix2 (0 : Fin 1) k) (fun a => match a with
    | ⟨0, _⟩ => by show 0 = if (1 : Nat) = 1 then 0 else R.val; rw [if_pos rfl]
    | ⟨1, _⟩ => by show k.val = if (128 : Nat) = 1 then 0 else k.val; rw [if_neg (by decide)])]
  exact broadcastInDim_apply _ bcast_S128_S1x128_1 x3 (ix2 (0 : Fin 1) k) (ix1 k) (fun a => match a with
    | ⟨0, _⟩ => by show k.val = if (128 : Nat) = 1 then 0 else k.val; rw [if_neg (by decide)])
theorem bias32_apply (x5 : FVec Ideal S32 .f32) (R : Fin 200000) (j : Fin 32) :
    broadcastInDim S200000x32 ![0, 1] bcast_S1x32_S200000x32_0_1 (broadcastInDim S1x32 ![1] bcast_S32_S1x32_1 x5) (ix2 R j) = x5 (ix1 j) := by
  rw [broadcastInDim_apply _ bcast_S1x32_S200000x32_0_1 _ (ix2 R j) (ix2 (0 : Fin 1) j) (fun a => match a with
    | ⟨0, _⟩ => by show 0 = if (1 : Nat) = 1 then 0 else R.val; rw [if_pos rfl]
    | ⟨1, _⟩ => by show j.val = if (32 : Nat) = 1 then 0 else j.val; rw [if_neg (by decide)])]
  exact broadcastInDim_apply _ bcast_S32_S1x32_1 x5 (ix2 (0 : Fin 1) j) (ix1 j) (fun a => match a with
    | ⟨0, _⟩ => by show j.val = if (32 : Nat) = 1 then 0 else j.val; rw [if_neg (by decide)])

/-- The reference's perceptron at an entry. -/
theorem refMlp_apply (inp : FVec Ideal S200000x134 .f32) (x2 : FVec Ideal S134x128 .f32) (x3 : FVec Ideal S128 .f32)
    (x4 : FVec Ideal S128x32 .f32) (x5 : FVec Ideal S32 .f32) (R : Fin 200000) (j : Fin 32) :
    refMlp (F := Ideal) inp x2 x3 x4 x5 (ix2 R j)
      = (∑ k : Fin 128, max ((∑ q : Fin 134, inp (ix2 R q) * x2 (ix2 q k)) + x3 (ix1 k)) 0 * x4 (ix2 k j)) + x5 (ix1 j) := by
  unfold refMlp
  rw [addf_apply, dB_apply, bias32_apply]
  refine congrArg (· + x5 (ix1 j)) (Finset.sum_congr rfl fun k _ => ?_)
  rw [maximumf_apply, addf_apply, dA_apply, bias128_apply]
  show max _ (Ideal.ofBits .f32 0x00000000#32) * _ = _
  rw [Ideal.ofBits_zero_f32]

end Cert.RefVal

end
-- ==== Proof.KI.Around.lean ====
/-
  The host lines around the one kernel region of the idealized kernel program: @main is the 49 lines before the
  region, the region, and three stretches of lines after it; none of those lines writes an argument array, so each
  argument is found by the region as launched and ends as launched.
-/
import proofs.«137711_j6528350290204_1_alg».proof.Proof.KI.Data
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 1000000 in
/-- No line of the first stretch after the region writes an array of the pipeline: each writes its own result buffer only. -/
theorem hostOps1_keeps : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- Nor does a line of the second, -/
theorem hostOps1_1_keeps : ∀ op ∈ (hostOps1_1 : List (HloOp τ sig (Elt F))),
    ∀ w, Proc.devRef .tc (Pipeline.arrRef spec0 w) ∉ op.writes := by
  intro op hop
  simp only [hostOps1_1, StableHlo.TRef.unary, StableHlo.TRef.binary, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- nor of the third. -/
theorem hostOps1_2_keeps : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact hostOps1_keeps op hop
  · exact hostOps1_1_keeps op hop
  · exact hostOps1_2_keeps op hop

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, StableHlo.TRef.unary, StableHlo.TRef.binary, List.flatten_cons, List.flatten_nil,
        List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: every argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

end Cert.KernelIdeal.Frm

end
-- ==== Proof.KI.Body.lean ====
/-
  The kernel body of the idealized kernel program at a grid point, and the run of @main: on whole staging buffers,
  the seven inputs' at their blocks and the two results' at anything, the body runs to the end leaving the inputs'
  as they were and each result's at what its stores cover it with; with that, every weakly fair execution of @main
  terminates with each array of the pipeline at what the proof data says and every other buffer as the host lines
  after the region leave it.
-/
import proofs.«137711_j6528350290204_1_alg».proof.Proof.KI.Around

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three column stores tile the first result block. -/
theorem cover7 (p0 p1 p2 : Vec F S8000x3 .f32) (y : S8000x9.Idx) :
    ∃ pc ∈ ([⟨rP6, p2⟩, ⟨rP3, p1⟩, ⟨rP0, p0⟩] : List (View.Piece (Elt F) S8000x9 .f32)), y ∈ pc.1.set :=
  View.cover_of_tiled [⟨rP6, p2⟩, ⟨rP3, p1⟩, ⟨rP0, p0⟩] S8000x3.size (by rfl) y
/-- The one store covers the second. -/
theorem cover8 (p0 : Vec F S8000x29 .f32) (y : S8000x29.Idx) :
    ∃ pc ∈ ([⟨rQ, p0⟩] : List (View.Piece (Elt F) S8000x29 .f32)), y ∈ pc.1.set :=
  View.cover_of_tiled [⟨rQ, p0⟩] S8000x29.size (by rfl) y

set_option maxHeartbeats 1000000 in
/-- The kernel body on whole staging buffers, the seven inputs' at read contents `x0 … x6` and the two results' at anything,
    runs to the continuation holding the inputs' as they were and each result's at what its stores cover it with: the
    seven loads read the inputs whole, the loads of the result rectangles are never used, and the three column stores
    into the first result and the one whole store into the second read back as the canonical contents of their pieces. -/
theorem sound_kernel (c : Dev nD) (E : Set ℕ) (i : grid0.Coords)
    (arg1 : Memref sig .tc .vmem S8000x18 .bf16) (harg1 : arg1.IsWhole)
    (arg2 : Memref sig .tc .vmem S8000x128 .bf16) (harg2 : arg2.IsWhole)
    (arg3 : Memref sig .tc .vmem S6x128 .bf16) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S128x32 .bf16) (harg6 : arg6.IsWhole)
    (arg7 : Memref sig .tc .vmem S1x32 .f32) (harg7 : arg7.IsWhole)
    (arg8 : Memref sig .tc .vmem S8000x9 .f32) (harg8 : arg8.IsWhole)
    (arg9 : Memref sig .tc .vmem S8000x29 .f32) (harg9 : arg9.IsWhole)
    (x0 : Vec F S8000x18 .bf16) (x1 : Vec F S8000x128 .bf16) (x2 : Vec F S6x128 .bf16) (x3 : Vec F S128x128 .bf16) (x4 : Vec F S1x128 .f32) (x5 : Vec F S128x32 .bf16) (x6 : Vec F S1x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out7 x0 x1 x2 x3 x4 x5 x6)
            ∗ owns (c : Thread nD τ) arg9 fullShare (out8 x0 x1 x2 x3 x4 x5 x6)) -∗ K ⟨⟩))
      ⊢ wp frame (wpE (defs₀ (F := F)) Variants.none c none) E (cc0__face2node_kernel i arg1 harg1 arg2 harg2 arg3 harg3 arg4 harg4 arg5 harg5 arg6 harg6 arg7 harg7 arg8 harg8 arg9 harg9) K := by
  simp only [cc0__face2node_kernel_eq_skeleton]; unfold cc0__face2node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold out7 pos0 pos1 pos2
    try dsimp only
    exact View.read_writes_eq_canon _ _ _ (cover7 _ _ _)
  iexists _; isplitr
  swap; · iexact H8
  ipureintro
  unfold out8 feat
  try dsimp only
  exact View.read_writes_eq_canon _ _ _ (cover8 _)
/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-- What the body is called with at point `t`: the invariant, what the core owes, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the kernel's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, with every array of the pipeline at what the library computes from
    the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.KI.Join.lean ====
/-
  The kernel's two result arrays against the reference's perceptron, over the extended reals. For corner c the
  kernel multiplies the corner's six difference columns by the first six rows of the first weight matrix and adds the
  features' product with its other 128 rows; the reference multiplies the 134-column row (the same six differences,
  then the features) by the whole matrix: one sum over 134 columns, cut after the sixth. Nothing else differs: the
  format changes are the identity, the clamp, the second layer and the biases are spelt alike. So columns 3c..3c+2 of
  the kernel's first result array are the first three columns of corner c's reference perceptron, and the second
  result array is the mean of the corners' other 29 columns as the reference forms it.
-/
import proofs.«137711_j6528350290204_1_alg».proof.Proof.KI.Blocks
import proofs.«137711_j6528350290204_1_alg».proof.Proof.KI.Host
import proofs.«137711_j6528350290204_1_alg».proof.Proof.Cat
import proofs.«137711_j6528350290204_1_alg».proof.Proof.RefMlp
import proofs.«137711_j6528350290204_1_alg».proof.Proof.KI.Body

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frm

/-- A sum over 134 columns is the sum over the first six plus the sum over the other 128. -/
theorem sum_134 (f : Fin 134 → EReal) :
    ∑ q : Fin 134, f q = (∑ q : Fin 6, f ⟨q.val, by have := q.isLt; omega⟩) + ∑ q : Fin 128, f ⟨6 + q.val, by have := q.isLt; omega⟩ := by
  have h := Fin.sum_univ_add (a := 6) (b := 128) (f := f)
  rw [h]
  rfl

variable (m : (ℓ : Loc nD τ sig) → Buf (Elt Ideal) ℓ)

/-! ## The arguments, and the arrays the region is given, entry by entry -/

abbrev x0 (c : Dev nD) : (⟨S100000x3, .f32⟩ : BufTy).Contents (Elt Ideal) := m ((c : Thread nD τ).loc main_arg0)
abbrev x1 (c : Dev nD) : (⟨S200000x128, .f32⟩ : BufTy).Contents (Elt Ideal) := m ((c : Thread nD τ).loc main_arg1)
abbrev x2 (c : Dev nD) : (⟨S134x128, .f32⟩ : BufTy).Contents (Elt Ideal) := m ((c : Thread nD τ).loc main_arg2)
abbrev x3 (c : Dev nD) : (⟨S128, .f32⟩ : BufTy).Contents (Elt Ideal) := m ((c : Thread nD τ).loc main_arg3)
abbrev x4 (c : Dev nD) : (⟨S128x32, .f32⟩ : BufTy).Contents (Elt Ideal) := m ((c : Thread nD τ).loc main_arg4)
abbrev x5 (c : Dev nD) : (⟨S32, .f32⟩ : BufTy).Contents (Elt Ideal) := m ((c : Thread nD τ).loc main_arg5)
abbrev x6 (c : Dev nD) : (⟨S200000x3, .i32⟩ : BufTy).Contents (Elt Ideal) := m ((c : Thread nD τ).loc main_arg6)

/-- The three corners' gathered positions. -/
abbrev P0 (c : Dev nD) : (⟨S200000x3, .f32⟩ : BufTy).Contents (Elt Ideal) := corner (x0 m c) (faceCol0 (x6 m c))
abbrev P1 (c : Dev nD) : (⟨S200000x3, .f32⟩ : BufTy).Contents (Elt Ideal) := corner (x0 m c) (faceCol1 (x6 m c))
abbrev P2 (c : Dev nD) : (⟨S200000x3, .f32⟩ : BufTy).Contents (Elt Ideal) := corner (x0 m c) (faceCol2 (x6 m c))

theorem A1_apply (c : Dev nD) (R : Fin 200000) (q : Fin 128) : A1 m c (ix2 R q) = x1 m c (ix2 R q) := by
  show V m c main_v35 (ix2 R q) = _
  rw [V_v35]; rfl
theorem A2_apply (c : Dev nD) (q : Fin 6) (k : Fin 128) : A2 m c (ix2 q k) = x2 m c (ix2 (⟨q.val, by have := q.isLt; omega⟩ : Fin 134) k) := by
  show V m c main_v37 (ix2 q k) = _
  rw [V_v37, truncf_apply]
  exact slice2_axis0_apply 0 _ slices_S134x128_S6x128_0_0 q k ⟨q.val, by have := q.isLt; omega⟩ (Nat.zero_add _).symm
theorem A3_apply (c : Dev nD) (q : Fin 128) (k : Fin 128) : A3 m c (ix2 q k) = x2 m c (ix2 (⟨6 + q.val, by have := q.isLt; omega⟩ : Fin 134) k) := by
  show V m c main_v39 (ix2 q k) = _
  rw [V_v39, truncf_apply]
  exact slice2_axis0_apply 6 _ slices_S134x128_S128x128_6_0 q k ⟨6 + q.val, by have := q.isLt; omega⟩ rfl
theorem A4_apply (c : Dev nD) (k : Fin 128) : A4 m c (ix2 (0 : Fin 1) k) = x3 m c (ix1 k) := by
  show V m c main_v41 (ix2 (0 : Fin 1) k) = _
  rw [V_v41]
  exact shapeCast_a_1a_apply _ shapeCasts_S128_S1x128 (0 : Fin 1) k
theorem A5_apply (c : Dev nD) (k : Fin 128) (j : Fin 32) : A5 m c (ix2 k j) = x4 m c (ix2 k j) := by
  show V m c main_v40 (ix2 k j) = _
  rw [V_v40]; rfl
theorem A6_apply (c : Dev nD) (j : Fin 32) : A6 m c (ix2 (0 : Fin 1) j) = x5 m c (ix1 j) := by
  show V m c main_v42 (ix2 (0 : Fin 1) j) = _
  rw [V_v42]
  exact shapeCast_a_1a_apply _ shapeCasts_S32_S1x32 (0 : Fin 1) j

/-- The difference table the region is given, by its six pieces. -/
theorem A0_eq (c : Dev nD) : A0 m c = diffs18 (P0 m c) (P1 m c) (P2 m c) := by
  show V m c main_v34 = _
  rw [V_v34, V_v8, V_v17, V_v26]; rfl

/-! ## One corner -/

/-- Corner by corner: when columns `o .. o+2` and `o+3 .. o+5` of the difference table are the two edge differences
    `da`, `db`, the kernel's perceptron over the arrays it is given is the reference's over the 134-column rows. -/
theorem corner_join (c : Dev nD) (o : Nat) (ho : o + 6 ≤ 18) (da db : (⟨S200000x3, .f32⟩ : BufTy).Contents (Elt Ideal))
    (hda : ∀ (R : Fin 200000) (q : Fin 3), A0 m c (ix2 R (⟨o + q.val, by omega⟩ : Fin 18)) = da (ix2 R q))
    (hdb : ∀ (R : Fin 200000) (q : Fin 3), A0 m c (ix2 R (⟨o + 3 + q.val, by omega⟩ : Fin 18)) = db (ix2 R q))
    (R : Fin 200000) (j : Fin 32) :
    faceMlp (A0 m c) (A1 m c) (A2 m c) (A3 m c) (A4 m c) (A5 m c) (A6 m c) o ho R j
      = Cert.RefVal.refMlp (F := Ideal) (Cert.RefVal.input134 da db (x1 m c)) (x2 m c) (x3 m c) (x4 m c) (x5 m c) (ix2 R j) := by
  rw [Cert.RefVal.refMlp_apply]
  unfold faceMlp
  rw [A6_apply]
  refine congrArg (· + x5 m c (ix1 j)) (Finset.sum_congr rfl fun k _ => ?_)
  rw [A5_apply, A4_apply]
  refine congrArg (fun z => max (z + x3 m c (ix1 k)) 0 * x4 m c (ix2 k j)) ?_
  rw [sum_134]
  obtain ⟨i1, i2, i3⟩ := Cert.Cat.input134_apply da db (x1 m c) R
  refine congrArg₂ (· + ·) (Finset.sum_congr rfl fun q _ => ?_) (Finset.sum_congr rfl fun q _ => ?_)
  · rw [A2_apply]
    refine congrArg (· * x2 m c (ix2 (⟨q.val, by have := q.isLt; omega⟩ : Fin 134) k)) ?_
    have hq : q.val < 6 := q.isLt
    by_cases h3 : q.val < 3
    · exact (hda R ⟨q.val, h3⟩).trans (i1 ⟨q.val, h3⟩).symm
    · have e18 : (⟨o + q.val, by omega⟩ : Fin 18) = ⟨o + 3 + (q.val - 3), by omega⟩ := Fin.ext (by show o + q.val = o + 3 + (q.val - 3); omega)
      have e134 : (⟨q.val, by omega⟩ : Fin 134) = ⟨3 + (q.val - 3), by omega⟩ := Fin.ext (by show q.val = 3 + (q.val - 3); omega)
      rw [e18, e134]
      exact (hdb R ⟨q.val - 3, by omega⟩).trans (i2 ⟨q.val - 3, by omega⟩).symm
  · rw [A1_apply, A3_apply]
    exact congrArg (· * x2 m c (ix2 (⟨6 + q.val, by have := q.isLt; omega⟩ : Fin 134) k)) (i3 q).symm

/-! ## The three corners and the two result arrays -/

/-- The two edges leaving each corner. -/
abbrev dA0 (c : Dev nD) : (⟨S200000x3, .f32⟩ : BufTy).Contents (Elt Ideal) :=
  subf (F := Ideal) (s := S200000x3) (φ := .f32) (P1 m c) (P0 m c)
abbrev dB0 (c : Dev nD) : (⟨S200000x3, .f32⟩ : BufTy).Contents (Elt Ideal) :=
  subf (F := Ideal) (s := S200000x3) (φ := .f32) (P2 m c) (P0 m c)
abbrev dA1 (c : Dev nD) : (⟨S200000x3, .f32⟩ : BufTy).Contents (Elt Ideal) :=
  subf (F := Ideal) (s := S200000x3) (φ := .f32) (P2 m c) (P1 m c)
abbrev dB1 (c : Dev nD) : (⟨S200000x3, .f32⟩ : BufTy).Contents (Elt Ideal) :=
  subf (F := Ideal) (s := S200000x3) (φ := .f32) (P0 m c) (P1 m c)
abbrev dA2 (c : Dev nD) : (⟨S200000x3, .f32⟩ : BufTy).Contents (Elt Ideal) :=
  subf (F := Ideal) (s := S200000x3) (φ := .f32) (P0 m c) (P2 m c)
abbrev dB2 (c : Dev nD) : (⟨S200000x3, .f32⟩ : BufTy).Contents (Elt Ideal) :=
  subf (F := Ideal) (s := S200000x3) (φ := .f32) (P1 m c) (P2 m c)

/-- The reference's perceptron outputs for the three corners, over the kernel program's arguments. -/
abbrev G0 (c : Dev nD) : (⟨Cert.ReferenceIdeal.S200000x32, .f32⟩ : BufTy).Contents (Elt Ideal) :=
  Cert.RefVal.refMlp (Cert.RefVal.input134 (dA0 m c) (dB0 m c) (x1 m c)) (x2 m c) (x3 m c) (x4 m c) (x5 m c)
abbrev G1 (c : Dev nD) : (⟨Cert.ReferenceIdeal.S200000x32, .f32⟩ : BufTy).Contents (Elt Ideal) :=
  Cert.RefVal.refMlp (Cert.RefVal.input134 (dA1 m c) (dB1 m c) (x1 m c)) (x2 m c) (x3 m c) (x4 m c) (x5 m c)
abbrev G2 (c : Dev nD) : (⟨Cert.ReferenceIdeal.S200000x32, .f32⟩ : BufTy).Contents (Elt Ideal) :=
  Cert.RefVal.refMlp (Cert.RefVal.input134 (dA2 m c) (dB2 m c) (x1 m c)) (x2 m c) (x3 m c) (x4 m c) (x5 m c)

theorem join0 (c : Dev nD) (R : Fin 200000) (j : Fin 32) :
    faceMlp (A0 m c) (A1 m c) (A2 m c) (A3 m c) (A4 m c) (A5 m c) (A6 m c) 0 (by omega) R j = G0 m c (ix2 R j) :=
  corner_join m c 0 (by omega) (dA0 m c) (dB0 m c)
    (fun R q => by
      rw [A0_eq, show (⟨0 + q.val, by omega⟩ : Fin 18) = ⟨q.val, by omega⟩ from Fin.ext (Nat.zero_add _)]
      exact (Cert.Cat.diffs18_apply _ _ _ R q).1)
    (fun R q => by
      rw [A0_eq, show (⟨0 + 3 + q.val, by omega⟩ : Fin 18) = ⟨3 + q.val, by omega⟩ from Fin.ext (by show 0 + 3 + q.val = 3 + q.val; omega)]
      exact (Cert.Cat.diffs18_apply _ _ _ R q).2.1) R j
theorem join1 (c : Dev nD) (R : Fin 200000) (j : Fin 32) :
    faceMlp (A0 m c) (A1 m c) (A2 m c) (A3 m c) (A4 m c) (A5 m c) (A6 m c) 6 (by omega) R j = G1 m c (ix2 R j) :=
  corner_join m c 6 (by omega) (dA1 m c) (dB1 m c)
    (fun R q => by rw [A0_eq]; exact (Cert.Cat.diffs18_apply _ _ _ R q).2.2.1)
    (fun R q => by rw [A0_eq]; exact (Cert.Cat.diffs18_apply _ _ _ R q).2.2.2.1) R j
theorem join2 (c : Dev nD) (R : Fin 200000) (j : Fin 32) :
    faceMlp (A0 m c) (A1 m c) (A2 m c) (A3 m c) (A4 m c) (A5 m c) (A6 m c) 12 (by omega) R j = G2 m c (ix2 R j) :=
  corner_join m c 12 (by omega) (dA2 m c) (dB2 m c)
    (fun R q => by rw [A0_eq]; exact (Cert.Cat.diffs18_apply _ _ _ R q).2.2.2.2.1)
    (fun R q => by rw [A0_eq]; exact (Cert.Cat.diffs18_apply _ _ _ R q).2.2.2.2.2) R j

/-! ## The result arrays, slice by slice -/

section Arrays
variable (E0 : Vec Ideal S200000x18 .bf16) (E1 : Vec Ideal S200000x128 .bf16) (E2 : Vec Ideal S6x128 .bf16) (E3 : Vec Ideal S128x128 .bf16)
  (E4 : Vec Ideal S1x128 .f32) (E5 : Vec Ideal S128x32 .bf16) (E6 : Vec Ideal S1x32 .f32)

theorem posArr_c0 (R : Fin 200000) (q : Fin 3) :
    posArr E0 E1 E2 E3 E4 E5 E6 (ix2 R (⟨q.val, by omega⟩ : Fin 9)) = faceMlp E0 E1 E2 E3 E4 E5 E6 0 (by omega) R ⟨q.val, by omega⟩ := by
  simp only [posArr]
  rw [dif_pos (show q.val < 3 from q.isLt)]
theorem posArr_c1 (R : Fin 200000) (q : Fin 3) :
    posArr E0 E1 E2 E3 E4 E5 E6 (ix2 R (⟨3 + q.val, by omega⟩ : Fin 9)) = faceMlp E0 E1 E2 E3 E4 E5 E6 6 (by omega) R ⟨q.val, by omega⟩ := by
  simp only [posArr]
  rw [dif_neg (show ¬(3 + q.val < 3) by omega), dif_pos (show 3 + q.val < 6 by omega)]
  congr 1
  exact Fin.ext (by show 3 + q.val - 3 = q.val; omega)
theorem posArr_c2 (R : Fin 200000) (q : Fin 3) :
    posArr E0 E1 E2 E3 E4 E5 E6 (ix2 R (⟨6 + q.val, by omega⟩ : Fin 9)) = faceMlp E0 E1 E2 E3 E4 E5 E6 12 (by omega) R ⟨q.val, by omega⟩ := by
  simp only [posArr]
  rw [dif_neg (show ¬(6 + q.val < 3) by omega), dif_neg (show ¬(6 + q.val < 6) by omega)]
  congr 1
  exact Fin.ext (by show 6 + q.val - 6 = q.val; omega)
end Arrays

/-- Columns 0..2 of the first result array are the first three columns of corner 0's perceptron. -/
theorem slice0 (c : Dev nD) :
    extractStridedSlice S200000x3 ![0, 0] (posArr (A0 m c) (A1 m c) (A2 m c) (A3 m c) (A4 m c) (A5 m c) (A6 m c)) slices_S200000x9_S200000x3_0_0 = Cert.RefVal.out3 (G0 m c) := by
  funext y
  obtain ⟨R, q, rfl⟩ : ∃ (R : Fin 200000) (q : Fin 3), y = ix2 R q := ⟨y 0, y 1, eq_ix2 y⟩
  rw [slice2_axis1_apply 0 _ slices_S200000x9_S200000x3_0_0 R q ⟨q.val, by omega⟩ (Nat.zero_add _).symm, posArr_c0, join0]
  unfold Cert.RefVal.out3
  exact (slice2_axis1_apply (n0 := 200000) (n1 := 32) (m := 3) 0 (G0 m c) Cert.ReferenceIdeal.Gen.slices_S200000x32_S200000x3_0_0 R q ⟨q.val, by omega⟩ (Nat.zero_add _).symm).symm
/-- Columns 3..5: corner 1's. -/
theorem slice3 (c : Dev nD) :
    extractStridedSlice S200000x3 ![0, 3] (posArr (A0 m c) (A1 m c) (A2 m c) (A3 m c) (A4 m c) (A5 m c) (A6 m c)) slices_S200000x9_S200000x3_0_3 = Cert.RefVal.out3 (G1 m c) := by
  funext y
  obtain ⟨R, q, rfl⟩ : ∃ (R : Fin 200000) (q : Fin 3), y = ix2 R q := ⟨y 0, y 1, eq_ix2 y⟩
  rw [slice2_axis1_apply 3 _ slices_S200000x9_S200000x3_0_3 R q ⟨3 + q.val, by omega⟩ rfl, posArr_c1, join1]
  unfold Cert.RefVal.out3
  exact (slice2_axis1_apply (n0 := 200000) (n1 := 32) (m := 3) 0 (G1 m c) Cert.ReferenceIdeal.Gen.slices_S200000x32_S200000x3_0_0 R q ⟨q.val, by omega⟩ (Nat.zero_add _).symm).symm
/-- Columns 6..8: corner 2's. -/
theorem slice6 (c : Dev nD) :
    extractStridedSlice S200000x3 ![0, 6] (posArr (A0 m c) (A1 m c) (A2 m c) (A3 m c) (A4 m c) (A5 m c) (A6 m c)) slices_S200000x9_S200000x3_0_6 = Cert.RefVal.out3 (G2 m c) := by
  funext y
  obtain ⟨R, q, rfl⟩ : ∃ (R : Fin 200000) (q : Fin 3), y = ix2 R q := ⟨y 0, y 1, eq_ix2 y⟩
  rw [slice2_axis1_apply 6 _ slices_S200000x9_S200000x3_0_6 R q ⟨6 + q.val, by omega⟩ rfl, posArr_c2, join2]
  unfold Cert.RefVal.out3
  exact (slice2_axis1_apply (n0 := 200000) (n1 := 32) (m := 3) 0 (G2 m c) Cert.ReferenceIdeal.Gen.slices_S200000x32_S200000x3_0_0 R q ⟨q.val, by omega⟩ (Nat.zero_add _).symm).symm

/-- The second result array is the corners' mean of the other 29 columns: the kernel starts its sum from zero. -/
theorem featArr_eq (c : Dev nD) : featArr (A0 m c) (A1 m c) (A2 m c) (A3 m c) (A4 m c) (A5 m c) (A6 m c) = Cert.RefVal.mean29 (G0 m c) (G1 m c) (G2 m c) := by
  funext y
  obtain ⟨R, q, rfl⟩ : ∃ (R : Fin 200000) (q : Fin 29), y = ix2 R q := ⟨y 0, y 1, eq_ix2 y⟩
  have hs : ∀ G : (⟨Cert.ReferenceIdeal.S200000x32, .f32⟩ : BufTy).Contents (Elt Ideal),
      Cert.RefVal.out29 G (ix2 R q) = G (ix2 R (⟨3 + q.val, by omega⟩ : Fin 32)) := fun G => by
    unfold Cert.RefVal.out29
    exact slice2_axis1_apply (n0 := 200000) (n1 := 32) (m := 29) 3 G Cert.ReferenceIdeal.Gen.slices_S200000x32_S200000x29_0_3 R q ⟨3 + q.val, by omega⟩ rfl
  unfold Cert.RefVal.mean29
  show Ideal.div (((Ideal.ofBits .f32 0x00000000#32 + faceMlp (A0 m c) (A1 m c) (A2 m c) (A3 m c) (A4 m c) (A5 m c) (A6 m c) 0 _ R ⟨3 + q.val, _⟩) + faceMlp (A0 m c) (A1 m c) (A2 m c) (A3 m c) (A4 m c) (A5 m c) (A6 m c) 6 _ R ⟨3 + q.val, _⟩)
      + faceMlp (A0 m c) (A1 m c) (A2 m c) (A3 m c) (A4 m c) (A5 m c) (A6 m c) 12 _ R ⟨3 + q.val, _⟩) (Ideal.ofBits .f32 0x40400000#32)
    = Ideal.div ((Cert.RefVal.out29 (G0 m c) (ix2 R q) + Cert.RefVal.out29 (G1 m c) (ix2 R q)) + Cert.RefVal.out29 (G2 m c) (ix2 R q)) _
  rw [hs, hs, hs, join0, join1, join2, Ideal.ofBits_zero_f32, zero_add]
  rfl

/-! ## The run, with its results named -/

/-- Every weakly fair execution of the idealized kernel program terminates with the node means, the moved positions
    and the corners' mean of the other 29 columns in its three result buffers, and its arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v65) = deltaPos (x6 m c) (Cert.RefVal.out3 (G0 m c)) (Cert.RefVal.out3 (G1 m c)) (Cert.RefVal.out3 (G2 m c))
      ∧ r.2.mem ((c.tc : Thread nD τ).loc main_v66) = addf (x0 m c) (deltaPos (x6 m c) (Cert.RefVal.out3 (G0 m c)) (Cert.RefVal.out3 (G1 m c)) (Cert.RefVal.out3 (G2 m c)))
      ∧ r.2.mem ((c.tc : Thread nD τ).loc main_v43_1) = Cert.RefVal.mean29 (G0 m c) (G1 m c) (G2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v65 (Pipeline.mem_restRefs_of main_v65 (by decide) (by decide))).trans
        ((T_v65 m (dats m) c _ (final7 m c)).trans (by rw [slice0, slice3, slice6])),
      ((h c).2 main_v66 (Pipeline.mem_restRefs_of main_v66 (by decide) (by decide))).trans
        ((T_v66 m (dats m) c _ (final7 m c)).trans (by rw [slice0, slice3, slice6])),
      ((h c).1 8).trans ((final8 m c).trans (featArr_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Val

end
-- ==== Proof.RefRun.lean ====
/-
  The reference program's run read back by hand, for any float family: @main is a line of 112 host operations, cut
  here into seven stretches. The first gathers the three corners' positions of every face; the next three build each
  corner's perceptron input (its two edge differences beside the features) and apply the two layers; then the corners'
  mean of the last 29 output columns; then the per-node sums of the corners' first three output columns over the
  per-node corner counts (at least one), and the positions moved by that. Each stretch's results are named by the
  functions of the perceptron module and by the gather and scatter functions below, read at the stretch's entry
  contents.
-/
import proofs.«137711_j6528350290204_1_alg».proof.Proof.Gen.ReferenceIdeal
import proofs.«137711_j6528350290204_1_alg».proof.Proof.RefMlp
import proofs.«137711_j6528350290204_1_alg».proof.Proof.LibNary
import Idealize.ShloMosaic.Lib.StableHlo.Run

set_option maxRecDepth 16384

noncomputable section

namespace Cert.RefVal

open Idealize.ShloMosaic Idealize.ShloMosaic.TcCoe Idealize.SL.Sem Idealize.ShloMosaic.StableHlo
open Cert.ReferenceIdeal Cert.ReferenceIdeal.Gen

variable {F : FTy → Type} [FloatOps F]

/-! ## The host lines as functions of the arguments -/

/-- Column `k` of the face table. -/
def rfaceCol0 (x6 : (⟨S200000x3, .i32⟩ : BufTy).Contents (Elt F)) : (⟨S200000, .i32⟩ : BufTy).Contents (Elt F) :=
  shapeCast _ (extractStridedSlice S200000x1 ![0, 0] x6 slices_S200000x3_S200000x1_0_0) shapeCasts_S200000x1_S200000
def rfaceCol1 (x6 : (⟨S200000x3, .i32⟩ : BufTy).Contents (Elt F)) : (⟨S200000, .i32⟩ : BufTy).Contents (Elt F) :=
  shapeCast _ (extractStridedSlice S200000x1 ![0, 1] x6 slices_S200000x3_S200000x1_0_1) shapeCasts_S200000x1_S200000
def rfaceCol2 (x6 : (⟨S200000x3, .i32⟩ : BufTy).Contents (Elt F)) : (⟨S200000, .i32⟩ : BufTy).Contents (Elt F) :=
  shapeCast _ (extractStridedSlice S200000x1 ![0, 2] x6 slices_S200000x3_S200000x1_0_2) shapeCasts_S200000x1_S200000

/-- A column of node numbers as gather indices: a negative entry wrapped by the node count. -/
def rwrapIdx (col : (⟨S200000, .i32⟩ : BufTy).Contents (Elt F)) : (⟨S200000x1, .i32⟩ : BufTy).Contents (Elt F) :=
  broadcastInDim S200000x1 ![0] bcast_S200000_S200000x1_0
    (select (cmpi .slt col (broadcastInDim S200000 ![] bcast_S_S200000 (constantI S_ 32 0#32)))
      (addi col (broadcastInDim S200000 ![] bcast_S_S200000 (constantI S_ 32 100000#32))) col)

/-- The positions of one corner of every face. -/
def rcorner (x0 : (⟨S100000x3, .f32⟩ : BufTy).Contents (Elt F)) (col : (⟨S200000, .i32⟩ : BufTy).Contents (Elt F)) : (⟨S200000x3, .f32⟩ : BufTy).Contents (Elt F) :=
  Host.gather gather_S100000x3_S200000x1_S200000x3_1_0_n_n_0_1_13 x0 (rwrapIdx col)

/-- The three face columns one after the other, as scatter indices. -/
def rscatterIdx (x6 : (⟨S200000x3, .i32⟩ : BufTy).Contents (Elt F)) : (⟨S600000x1, .i32⟩ : BufTy).Contents (Elt F) :=
  broadcastInDim S600000x1 ![0] bcast_S600000_S600000x1_0
    (concatenate S600000 0 [⟨S200000, rfaceCol0 x6⟩, ⟨S200000, rfaceCol1 x6⟩, ⟨S200000, rfaceCol2 x6⟩] concatenates_S200000_S200000_S200000_S600000_d0)

/-- How many face corners name each node. -/
def rcounts (x6 : (⟨S200000x3, .i32⟩ : BufTy).Contents (Elt F)) : (⟨S100000, .f32⟩ : BufTy).Contents (Elt F) :=
  Host.scatterAdd scatter_S100000_S600000x1_S600000_n_0_0_1 (broadcastInDim S100000 ![] bcast_S_S100000 (constant S_ .f32 0x00000000#32))
    (rscatterIdx x6) (broadcastInDim S600000 ![] bcast_S_S600000 (constant S_ .f32 0x3F800000#32))

/-- The counts, at least one, along each node's three coordinates. -/
def rdenom (x6 : (⟨S200000x3, .i32⟩ : BufTy).Contents (Elt F)) : (⟨S100000x3, .f32⟩ : BufTy).Contents (Elt F) :=
  broadcastInDim S100000x3 ![0, 1] bcast_S100000x1_S100000x3_0_1 (broadcastInDim S100000x1 ![0] bcast_S100000_S100000x1_0
    (maximumf (broadcastInDim S100000 ![] bcast_S_S100000 (id (constant S_ .f32 0x3F800000#32))) (rcounts x6)))

/-- The mean, per node, of the position columns of the face corners that name it. -/
def rdeltaPos (x6 : (⟨S200000x3, .i32⟩ : BufTy).Contents (Elt F)) (o0 o1 o2 : (⟨S200000x3, .f32⟩ : BufTy).Contents (Elt F)) : (⟨S100000x3, .f32⟩ : BufTy).Contents (Elt F) :=
  Host.divf (Host.scatterAdd scatter_S100000x3_S600000x1_S600000x3_1_0_0_1 (broadcastInDim S100000x3 ![] bcast_S_S100000x3 (constant S_ .f32 0x00000000#32))
    (rscatterIdx x6) (concatenate S600000x3 0 [⟨S200000x3, o0⟩, ⟨S200000x3, o1⟩, ⟨S200000x3, o2⟩] concatenates_S200000x3_S200000x3_S200000x3_S600000x3_d0))
    (rdenom x6)

/-! ## A three-operand concatenation's result at its own reference -/

section Nary
variable {τ' : Topo} {sig' : RefSig} {Val : EltTy → Type}
variable {x a b y : Ref sig' .tc}

/-- A host line over a literal family of three references leaves, at its result reference, its function of the three
    operands' contents, each read at its own reference. -/
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  Cert.LibNary.nary3_result f hxs hy G

end Nary

/-! ## @main's operations, stretch by stretch -/

/-- The three corner gathers: for each face column, the node numbers wrapped into range and the positions read at them. -/
abbrev ops1 : List (HloOp τ sig (Elt F)) :=
  [ unary main_arg6 main_v0 ((extractStridedSlice S200000x1 ![0, 0] · slices_S200000x3_S200000x1_0_0) : (⟨S200000x3, .i32⟩ : BufTy).Contents (Elt F) → (⟨S200000x1, .i32⟩ : BufTy).Contents (Elt F)),
    reshape main_v0 main_v1 rfl shapeCasts_S200000x1_S200000,
    nullary main_c (constantI S_ 32 0#32),
    unary main_c main_v2 (broadcastInDim S200000 ![] bcast_S_S200000 : (⟨S_, .i32⟩ : BufTy).Contents (Elt F) → (⟨S200000, .i32⟩ : BufTy).Contents (Elt F)),
    binary main_v1 main_v2 main_v3 (cmpi .slt : (⟨S200000, .i32⟩ : BufTy).Contents (Elt F) → (⟨S200000, .i32⟩ : BufTy).Contents (Elt F) → (⟨S200000, .i1⟩ : BufTy).Contents (Elt F)),
    nullary main_c_0 (constantI S_ 32 100000#32),
    unary main_c_0 main_v4 (broadcastInDim S200000 ![] bcast_S_S200000 : (⟨S_, .i32⟩ : BufTy).Contents (Elt F) → (⟨S200000, .i32⟩ : BufTy).Contents (Elt F)),
    binary main_v1 main_v4 main_v5 (addi : (⟨S200000, .i32⟩ : BufTy).Contents (Elt F) → (⟨S200000, .i32⟩ : BufTy).Contents (Elt F) → (⟨S200000, .i32⟩ : BufTy).Contents (Elt F)),
    ternary main_v3 main_v5 main_v1 main_v6 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v6 main_v7 (broadcastInDim S200000x1 ![0] bcast_S200000_S200000x1_0 : (⟨S200000, .i32⟩ : BufTy).Contents (Elt F) → (⟨S200000x1, .i32⟩ : BufTy).Contents (Elt F)),
    binary main_arg0 main_v7 main_v8 ((fun x i => Host.gather gather_S100000x3_S200000x1_S200000x3_1_0_n_n_0_1_13 x i) : (⟨S100000x3, .f32⟩ : BufTy).Contents (Elt F) → (⟨S200000x1, .i32⟩ : BufTy).Contents (Elt F) → (⟨S200000x3, .f32⟩ : BufTy).Contents (Elt F)),
    unary main_arg6 main_v9 ((extractStridedSlice S200000x1 ![0, 1] · slices_S200000x3_S200000x1_0_1) : (⟨S200000x3, .i32⟩ : BufTy).Contents (Elt F) → (⟨S200000x1, .i32⟩ : BufTy).Contents (Elt F)),
    reshape main_v9 main_v10 rfl shapeCasts_S200000x1_S200000,
    nullary main_c_1 (constantI S_ 32 0#32),
    unary main_c_1 main_v11 (broadcastInDim S200000 ![] bcast_S_S200000 : (⟨S_, .i32⟩ : BufTy).Contents (Elt F) → (⟨S200000, .i32⟩ : BufTy).Contents (Elt F)),
    binary main_v10 main_v11 main_v12 (cmpi .slt : (⟨S200000, .i32⟩ : BufTy).Contents (Elt F) → (⟨S200000, .i32⟩ : BufTy).Contents (Elt F) → (⟨S200000, .i1⟩ : BufTy).Contents (Elt F)),
    nullary main_c_2 (constantI S_ 32 100000#32),
    unary main_c_2 main_v13 (broadcastInDim S200000 ![] bcast_S_S200000 : (⟨S_, .i32⟩ : BufTy).Contents (Elt F) → (⟨S200000, .i32⟩ : BufTy).Contents (Elt F)),
    binary main_v10 main_v13 main_v14 (addi : (⟨S200000, .i32⟩ : BufTy).Contents (Elt F) → (⟨S200000, .i32⟩ : BufTy).Contents (Elt F) → (⟨S200000, .i32⟩ : BufTy).Contents (Elt F)),
    ternary main_v12 main_v14 main_v10 main_v15 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v15 main_v16 (broadcastInDim S200000x1 ![0] bcast_S200000_S200000x1_0 : (⟨S200000, .i32⟩ : BufTy).Contents (Elt F) → (⟨S200000x1, .i32⟩ : BufTy).Contents (Elt F)),
    binary main_arg0 main_v16 main_v17 ((fun x i => Host.gather gather_S100000x3_S200000x1_S200000x3_1_0_n_n_0_1_13 x i) : (⟨S100000x3, .f32⟩ : BufTy).Contents (Elt F) → (⟨S200000x1, .i32⟩ : BufTy).Contents (Elt F) → (⟨S200000x3, .f32⟩ : BufTy).Contents (Elt F)),
    unary main_arg6 main_v18 ((extractStridedSlice S200000x1 ![0, 2] · slices_S200000x3_S200000x1_0_2) : (⟨S200000x3, .i32⟩ : BufTy).Contents (Elt F) → (⟨S200000x1, .i32⟩ : BufTy).Contents (Elt F)),
    reshape main_v18 main_v19 rfl shapeCasts_S200000x1_S200000,
    nullary main_c_3 (constantI S_ 32 0#32),
    unary main_c_3 main_v20 (broadcastInDim S200000 ![] bcast_S_S200000 : (⟨S_, .i32⟩ : BufTy).Contents (Elt F) → (⟨S200000, .i32⟩ : BufTy).Contents (Elt F)),
    binary main_v19 main_v20 main_v21 (cmpi .slt : (⟨S200000, .i32⟩ : BufTy).Contents (Elt F) → (⟨S200000, .i32⟩ : BufTy).Contents (Elt F) → (⟨S200000, .i1⟩ : BufTy).Contents (Elt F)),
    nullary main_c_4 (constantI S_ 32 100000#32),
    unary main_c_4 main_v22 (broadcastInDim S200000 ![] bcast_S_S200000 : (⟨S_, .i32⟩ : BufTy).Contents (Elt F) → (⟨S200000, .i32⟩ : BufTy).Contents (Elt F)),
    binary main_v19 main_v22 main_v23 (addi : (⟨S200000, .i32⟩ : BufTy).Contents (Elt F) → (⟨S200000, .i32⟩ : BufTy).Contents (Elt F) → (⟨S200000, .i32⟩ : BufTy).Contents (Elt F)),
    ternary main_v21 main_v23 main_v19 main_v24 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v24 main_v25 (broadcastInDim S200000x1 ![0] bcast_S200000_S200000x1_0 : (⟨S200000, .i32⟩ : BufTy).Contents (Elt F) → (⟨S200000x1, .i32⟩ : BufTy).Contents (Elt F)),
    binary main_arg0 main_v25 main_v26 ((fun x i => Host.gather gather_S100000x3_S200000x1_S200000x3_1_0_n_n_0_1_13 x i) : (⟨S100000x3, .f32⟩ : BufTy).Contents (Elt F) → (⟨S200000x1, .i32⟩ : BufTy).Contents (Elt F) → (⟨S200000x3, .f32⟩ : BufTy).Contents (Elt F)) ]

/-- Corner 0: its two edge differences beside the features, then the two layers. -/
abbrev ops2 : List (HloOp τ sig (Elt F)) :=
  [ binary main_v17 main_v8 main_v27 (subf : (⟨S200000x3, .f32⟩ : BufTy).Contents (Elt F) → (⟨S200000x3, .f32⟩ : BufTy).Contents (Elt F) → (⟨S200000x3, .f32⟩ : BufTy).Contents (Elt F)),
    binary main_v26 main_v8 main_v28 (subf : (⟨S200000x3, .f32⟩ : BufTy).Contents (Elt F) → (⟨S200000x3, .f32⟩ : BufTy).Contents (Elt F) → (⟨S200000x3, .f32⟩ : BufTy).Contents (Elt F)),
    nary ![main_v27, main_v28, main_arg1] main_v29 (fun u => concatenate S200000x134 1 [⟨S200000x3, u 0⟩, ⟨S200000x3, u 1⟩, ⟨S200000x128, u 2⟩] concatenates_S200000x3_S200000x3_S200000x128_S200000x134_d1),
    binary main_v29 main_arg2 main_v30 ((fun l r => Host.dotGeneral dot_S200000x134_S134x128_S200000x128_1_0_0_1_n_n none l r) : (⟨S200000x134, .f32⟩ : BufTy).Contents (Elt F) → (⟨S134x128, .f32⟩ : BufTy).Contents (Elt F) → (⟨S200000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S200000x128 ![0, 1] bcast_S1x128_S200000x128_0_1 : (⟨S1x128, .f32⟩ : BufTy).Contents (Elt F) → (⟨S200000x128, .f32⟩ : BufTy).Contents (Elt F)),
    binary main_v30 main_v32 main_v33 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x128, .f32⟩) main_call0_v0) (broadcastInDim S200000x128 ![] bcast_S_S200000x128),
    TRef.binary (TRef.of (T := ⟨S200000x128, .f32⟩) main_v33) (TRef.of (T := ⟨S200000x128, .f32⟩) main_call0_v0) (TRef.of (T := ⟨S200000x128, .f32⟩) main_v34) maximumf,
    binary main_v34 main_arg4 main_v35 ((fun l r => Host.dotGeneral dot_S200000x128_S128x32_S200000x32_1_0_0_1_n_n none l r) : (⟨S200000x128, .f32⟩ : BufTy).Contents (Elt F) → (⟨S128x32, .f32⟩ : BufTy).Contents (Elt F) → (⟨S200000x32, .f32⟩ : BufTy).Contents (Elt F)),
    unary main_arg5 main_v36 (broadcastInDim S1x32 ![1] bcast_S32_S1x32_1 : (⟨S32, .f32⟩ : BufTy).Contents (Elt F) → (⟨S1x32, .f32⟩ : BufTy).Contents (Elt F)),
    unary main_v36 main_v37 (broadcastInDim S200000x32 ![0, 1] bcast_S1x32_S200000x32_0_1 : (⟨S1x32, .f32⟩ : BufTy).Contents (Elt F) → (⟨S200000x32, .f32⟩ : BufTy).Contents (Elt F)),
    binary main_v35 main_v37 main_v38 (addf : (⟨S200000x32, .f32⟩ : BufTy).Contents (Elt F) → (⟨S200000x32, .f32⟩ : BufTy).Contents (Elt F) → (⟨S200000x32, .f32⟩ : BufTy).Contents (Elt F)) ]

/-- Corner 1, likewise. -/
abbrev ops3 : List (HloOp τ sig (Elt F)) :=
  [ binary main_v26 main_v17 main_v39 (subf : (⟨S200000x3, .f32⟩ : BufTy).Contents (Elt F) → (⟨S200000x3, .f32⟩ : BufTy).Contents (Elt F) → (⟨S200000x3, .f32⟩ : BufTy).Contents (Elt F)),
    binary main_v8 main_v17 main_v40 (subf : (⟨S200000x3, .f32⟩ : BufTy).Contents (Elt F) → (⟨S200000x3, .f32⟩ : BufTy).Contents (Elt F) → (⟨S200000x3, .f32⟩ : BufTy).Contents (Elt F)),
    nary ![main_v39, main_v40, main_arg1] main_v41 (fun u => concatenate S200000x134 1 [⟨S200000x3, u 0⟩, ⟨S200000x3, u 1⟩, ⟨S200000x128, u 2⟩] concatenates_S200000x3_S200000x3_S200000x128_S200000x134_d1),
    binary main_v41 main_arg2 main_v42 ((fun l r => Host.dotGeneral dot_S200000x134_S134x128_S200000x128_1_0_0_1_n_n none l r) : (⟨S200000x134, .f32⟩ : BufTy).Contents (Elt F) → (⟨S134x128, .f32⟩ : BufTy).Contents (Elt F) → (⟨S200000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S200000x128 ![0, 1] bcast_S1x128_S200000x128_0_1 : (⟨S1x128, .f32⟩ : BufTy).Contents (Elt F) → (⟨S200000x128, .f32⟩ : BufTy).Contents (Elt F)),
    binary main_v42 main_v44 main_v45 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x128, .f32⟩) main_call1_v0) (broadcastInDim S200000x128 ![] bcast_S_S200000x128),
    TRef.binary (TRef.of (T := ⟨S200000x128, .f32⟩) main_v45) (TRef.of (T := ⟨S200000x128, .f32⟩) main_call1_v0) (TRef.of (T := ⟨S200000x128, .f32⟩) main_v46) maximumf,
    binary main_v46 main_arg4 main_v47 ((fun l r => Host.dotGeneral dot_S200000x128_S128x32_S200000x32_1_0_0_1_n_n none l r) : (⟨S200000x128, .f32⟩ : BufTy).Contents (Elt F) → (⟨S128x32, .f32⟩ : BufTy).Contents (Elt F) → (⟨S200000x32, .f32⟩ : BufTy).Contents (Elt F)),
    unary main_arg5 main_v48 (broadcastInDim S1x32 ![1] bcast_S32_S1x32_1 : (⟨S32, .f32⟩ : BufTy).Contents (Elt F) → (⟨S1x32, .f32⟩ : BufTy).Contents (Elt F)),
    unary main_v48 main_v49 (broadcastInDim S200000x32 ![0, 1] bcast_S1x32_S200000x32_0_1 : (⟨S1x32, .f32⟩ : BufTy).Contents (Elt F) → (⟨S200000x32, .f32⟩ : BufTy).Contents (Elt F)),
    binary main_v47 main_v49 main_v50 (addf : (⟨S200000x32, .f32⟩ : BufTy).Contents (Elt F) → (⟨S200000x32, .f32⟩ : BufTy).Contents (Elt F) → (⟨S200000x32, .f32⟩ : BufTy).Contents (Elt F)) ]

/-- Corner 2's input rows (the last lines of @main's first printed stretch). -/
abbrev ops4a : List (HloOp τ sig (Elt F)) :=
  [ binary main_v8 main_v26 main_v51 (subf : (⟨S200000x3, .f32⟩ : BufTy).Contents (Elt F) → (⟨S200000x3, .f32⟩ : BufTy).Contents (Elt F) → (⟨S200000x3, .f32⟩ : BufTy).Contents (Elt F)),
    binary main_v17 main_v26 main_v52 (subf : (⟨S200000x3, .f32⟩ : BufTy).Contents (Elt F) → (⟨S200000x3, .f32⟩ : BufTy).Contents (Elt F) → (⟨S200000x3, .f32⟩ : BufTy).Contents (Elt F)),
    nary ![main_v51, main_v52, main_arg1] main_v53 (fun u => concatenate S200000x134 1 [⟨S200000x3, u 0⟩, ⟨S200000x3, u 1⟩, ⟨S200000x128, u 2⟩] concatenates_S200000x3_S200000x3_S200000x128_S200000x134_d1) ]

/-- Corner 2's two layers. -/
abbrev ops4b : List (HloOp τ sig (Elt F)) :=
  [ binary main_v53 main_arg2 main_v54 ((fun l r => Host.dotGeneral dot_S200000x134_S134x128_S200000x128_1_0_0_1_n_n none l r) : (⟨S200000x134, .f32⟩ : BufTy).Contents (Elt F) → (⟨S134x128, .f32⟩ : BufTy).Contents (Elt F) → (⟨S200000x128, .f32⟩ : BufTy).Contents (Elt F)),
    unary main_arg3 main_v55 (broadcastInDim S1x128 ![1] bcast_S128_S1x128_1 : (⟨S128, .f32⟩ : BufTy).Contents (Elt F) → (⟨S1x128, .f32⟩ : BufTy).Contents (Elt F)),
    unary main_v55 main_v56 (broadcastInDim S200000x128 ![0, 1] bcast_S1x128_S200000x128_0_1 : (⟨S1x128, .f32⟩ : BufTy).Contents (Elt F) → (⟨S200000x128, .f32⟩ : BufTy).Contents (Elt F)),
    binary main_v54 main_v56 main_v57 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x128, .f32⟩) main_call2_v0) (broadcastInDim S200000x128 ![] bcast_S_S200000x128),
    TRef.binary (TRef.of (T := ⟨S200000x128, .f32⟩) main_v57) (TRef.of (T := ⟨S200000x128, .f32⟩) main_call2_v0) (TRef.of (T := ⟨S200000x128, .f32⟩) main_v58) maximumf,
    binary main_v58 main_arg4 main_v59 ((fun l r => Host.dotGeneral dot_S200000x128_S128x32_S200000x32_1_0_0_1_n_n none l r) : (⟨S200000x128, .f32⟩ : BufTy).Contents (Elt F) → (⟨S128x32, .f32⟩ : BufTy).Contents (Elt F) → (⟨S200000x32, .f32⟩ : BufTy).Contents (Elt F)),
    unary main_arg5 main_v60 (broadcastInDim S1x32 ![1] bcast_S32_S1x32_1 : (⟨S32, .f32⟩ : BufTy).Contents (Elt F) → (⟨S1x32, .f32⟩ : BufTy).Contents (Elt F)),
    unary main_v60 main_v61 (broadcastInDim S200000x32 ![0, 1] bcast_S1x32_S200000x32_0_1 : (⟨S1x32, .f32⟩ : BufTy).Contents (Elt F) → (⟨S200000x32, .f32⟩ : BufTy).Contents (Elt F)),
    binary main_v59 main_v61 main_v62 (addf : (⟨S200000x32, .f32⟩ : BufTy).Contents (Elt F) → (⟨S200000x32, .f32⟩ : BufTy).Contents (Elt F) → (⟨S200000x32, .f32⟩ : BufTy).Contents (Elt F)) ]

/-- The corners' mean of the last 29 output columns. -/
abbrev ops5 : List (HloOp τ sig (Elt F)) :=
  [ unary main_v38 main_v63 ((extractStridedSlice S200000x29 ![0, 3] · slices_S200000x32_S200000x29_0_3) : (⟨S200000x32, .f32⟩ : BufTy).Contents (Elt F) → (⟨S200000x29, .f32⟩ : BufTy).Contents (Elt F)),
    unary main_v50 main_v64 ((extractStridedSlice S200000x29 ![0, 3] · slices_S200000x32_S200000x29_0_3) : (⟨S200000x32, .f32⟩ : BufTy).Contents (Elt F) → (⟨S200000x29, .f32⟩ : BufTy).Contents (Elt F)),
    binary main_v63 main_v64 main_v65 (addf : (⟨S200000x29, .f32⟩ : BufTy).Contents (Elt F) → (⟨S200000x29, .f32⟩ : BufTy).Contents (Elt F) → (⟨S200000x29, .f32⟩ : BufTy).Contents (Elt F)),
    unary main_v62 main_v66 ((extractStridedSlice S200000x29 ![0, 3] · slices_S200000x32_S200000x29_0_3) : (⟨S200000x32, .f32⟩ : BufTy).Contents (Elt F) → (⟨S200000x29, .f32⟩ : BufTy).Contents (Elt F)),
    binary main_v65 main_v66 main_v67 (addf : (⟨S200000x29, .f32⟩ : BufTy).Contents (Elt F) → (⟨S200000x29, .f32⟩ : BufTy).Contents (Elt F) → (⟨S200000x29, .f32⟩ : BufTy).Contents (Elt F)),
    nullary main_cst (constant S_ .f32 0x40400000#32),
    unary main_cst main_v68 (broadcastInDim S200000x29 ![] bcast_S_S200000x29 : (⟨S_, .f32⟩ : BufTy).Contents (Elt F) → (⟨S200000x29, .f32⟩ : BufTy).Contents (Elt F)),
    binary main_v67 main_v68 main_v69 (Host.divf : (⟨S200000x29, .f32⟩ : BufTy).Contents (Elt F) → (⟨S200000x29, .f32⟩ : BufTy).Contents (Elt F) → (⟨S200000x29, .f32⟩ : BufTy).Contents (Elt F)) ]

/-- The node means of the corners' first three output columns, and the positions moved by them. -/
abbrev ops6 : List (HloOp τ sig (Elt F)) :=
  [ unary main_v38 main_v70 ((extractStridedSlice S200000x3 ![0, 0] · slices_S200000x32_S200000x3_0_0) : (⟨S200000x32, .f32⟩ : BufTy).Contents (Elt F) → (⟨S200000x3, .f32⟩ : BufTy).Contents (Elt F)),
    unary main_v50 main_v71 ((extractStridedSlice S200000x3 ![0, 0] · slices_S200000x32_S200000x3_0_0) : (⟨S200000x32, .f32⟩ : BufTy).Contents (Elt F) → (⟨S200000x3, .f32⟩ : BufTy).Contents (Elt F)),
    unary main_v62 main_v72 ((extractStridedSlice S200000x3 ![0, 0] · slices_S200000x32_S200000x3_0_0) : (⟨S200000x32, .f32⟩ : BufTy).Contents (Elt F) → (⟨S200000x3, .f32⟩ : BufTy).Contents (Elt F)),
    nary ![main_v70, main_v71, main_v72] main_v73 (fun u => concatenate S600000x3 0 [⟨S200000x3, u 0⟩, ⟨S200000x3, u 1⟩, ⟨S200000x3, u 2⟩] concatenates_S200000x3_S200000x3_S200000x3_S600000x3_d0),
    unary main_arg6 main_v74 ((extractStridedSlice S200000x1 ![0, 0] · slices_S200000x3_S200000x1_0_0) : (⟨S200000x3, .i32⟩ : BufTy).Contents (Elt F) → (⟨S200000x1, .i32⟩ : BufTy).Contents (Elt F)),
    reshape main_v74 main_v75 rfl shapeCasts_S200000x1_S200000,
    unary main_arg6 main_v76 ((extractStridedSlice S200000x1 ![0, 1] · slices_S200000x3_S200000x1_0_1) : (⟨S200000x3, .i32⟩ : BufTy).Contents (Elt F) → (⟨S200000x1, .i32⟩ : BufTy).Contents (Elt F)),
    reshape main_v76 main_v77 rfl shapeCasts_S200000x1_S200000,
    unary main_arg6 main_v78 ((extractStridedSlice S200000x1 ![0, 2] · slices_S200000x3_S200000x1_0_2) : (⟨S200000x3, .i32⟩ : BufTy).Contents (Elt F) → (⟨S200000x1, .i32⟩ : BufTy).Contents (Elt F)),
    reshape main_v78 main_v79 rfl shapeCasts_S200000x1_S200000,
    nary ![main_v75, main_v77, main_v79] main_v80 (fun u => concatenate S600000 0 [⟨S200000, u 0⟩, ⟨S200000, u 1⟩, ⟨S200000, u 2⟩] concatenates_S200000_S200000_S200000_S600000_d0),
    nullary main_cst_5 (constant S_ .f32 0x00000000#32),
    unary main_cst_5 main_v81 (broadcastInDim S100000x3 ![] bcast_S_S100000x3 : (⟨S_, .f32⟩ : BufTy).Contents (Elt F) → (⟨S100000x3, .f32⟩ : BufTy).Contents (Elt F)),
    unary main_v80 main_v82 (broadcastInDim S600000x1 ![0] bcast_S600000_S600000x1_0 : (⟨S600000, .i32⟩ : BufTy).Contents (Elt F) → (⟨S600000x1, .i32⟩ : BufTy).Contents (Elt F)),
    ternary main_v81 main_v82 main_v73 main_v83 ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F)),
    nullary main_cst_6 (constant S_ .f32 0x3F800000#32),
    unary main_cst_6 main_v84 (broadcastInDim S600000 ![] bcast_S_S600000 : (⟨S_, .f32⟩ : BufTy).Contents (Elt F) → (⟨S600000, .f32⟩ : BufTy).Contents (Elt F)),
    nullary main_cst_7 (constant S_ .f32 0x00000000#32),
    unary main_cst_7 main_v85 (broadcastInDim S100000 ![] bcast_S_S100000 : (⟨S_, .f32⟩ : BufTy).Contents (Elt F) → (⟨S100000, .f32⟩ : BufTy).Contents (Elt F)),
    unary main_v80 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_8 (constant S_ .f32 0x3F800000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_v87) (TRef.of (T := ⟨S100000, .f32⟩) main_v88) maximumf,
    unary main_v88 main_v89 (broadcastInDim S100000x1 ![0] bcast_S100000_S100000x1_0 : (⟨S100000, .f32⟩ : BufTy).Contents (Elt F) → (⟨S100000x1, .f32⟩ : BufTy).Contents (Elt F)),
    unary main_v89 main_v90 (broadcastInDim S100000x3 ![0, 1] bcast_S100000x1_S100000x3_0_1 : (⟨S100000x1, .f32⟩ : BufTy).Contents (Elt F) → (⟨S100000x3, .f32⟩ : BufTy).Contents (Elt F)),
    binary main_v83 main_v90 main_v91 (Host.divf : (⟨S100000x3, .f32⟩ : BufTy).Contents (Elt F) → (⟨S100000x3, .f32⟩ : BufTy).Contents (Elt F) → (⟨S100000x3, .f32⟩ : BufTy).Contents (Elt F)),
    binary main_arg0 main_v91 main_v92 (addf : (⟨S100000x3, .f32⟩ : BufTy).Contents (Elt F) → (⟨S100000x3, .f32⟩ : BufTy).Contents (Elt F) → (⟨S100000x3, .f32⟩ : BufTy).Contents (Elt F)) ]

/-! ## @main is their line -/

/-- @main's first printed stretch, 64 operations. -/
abbrev opsA : List (HloOp τ sig (Elt F)) := ops1 ++ (ops2 ++ (ops3 ++ ops4a))
/-- Its second, 48 operations. -/
abbrev opsB : List (HloOp τ sig (Elt F)) := ops4b ++ (ops5 ++ ops6)
/-- All 112, in order. -/
abbrev ops : List (HloOp τ sig (Elt F)) := opsA ++ opsB

set_option maxHeartbeats 4000000 in
theorem main_part0_eq (c : Dev nD) : main_part0 (F := F) c = seq opsA := rfl
set_option maxHeartbeats 4000000 in
theorem main_part1_eq (c : Dev nD) : main_part1 (F := F) c = seq opsB := rfl
theorem main_eq (c : Dev nD) : main (F := F) c = seq ops := by
  show (main_part0 c >>= fun _ => main_part1 c) = _
  rw [main_part0_eq, main_part1_eq, ← seq_append]

theorem scopedRefs_eq : (Finset.univ.filter fun b : Ref sig .tc => b.isScoped) = ∅ := by decide
theorem scopedSems_eq : (Finset.univ.filter fun sm : SemLoc sig => sm.isScoped .tc) = ∅ := by decide

/-! ## Each operation touches TensorCore references only and allocates nothing -/

theorem ops1_sub : (ops1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem ops1_fresh : ∀ op ∈ (ops1 : List (HloOp τ sig (Elt F))), op.fresh = ∅ := by
  intro _ h; (repeat (cases h with | head => rfl | tail _ h => ?_)); exact nomatch h

theorem ops2_sub : (ops2 : List (HloOp τ sig (Elt F))).Forall fun op => op.bufs ⊆ tcRefs τ sig :=
  ⟨binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops2_fresh : ∀ op ∈ (ops2 : List (HloOp τ sig (Elt F))), op.fresh = ∅ := by
  intro _ h; (repeat (cases h with | head => rfl | tail _ h => ?_)); exact nomatch h

theorem ops3_sub : (ops3 : List (HloOp τ sig (Elt F))).Forall fun op => op.bufs ⊆ tcRefs τ sig :=
  ⟨binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops3_fresh : ∀ op ∈ (ops3 : List (HloOp τ sig (Elt F))), op.fresh = ∅ := by
  intro _ h; (repeat (cases h with | head => rfl | tail _ h => ?_)); exact nomatch h

theorem ops4a_sub : (ops4a : List (HloOp τ sig (Elt F))).Forall fun op => op.bufs ⊆ tcRefs τ sig :=
  ⟨binary_bufs_sub .., binary_bufs_sub .., nary_bufs_sub ..⟩
theorem ops4a_fresh : ∀ op ∈ (ops4a : List (HloOp τ sig (Elt F))), op.fresh = ∅ := by
  intro _ h; (repeat (cases h with | head => rfl | tail _ h => ?_)); exact nomatch h

theorem ops4b_sub : (ops4b : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops4b_fresh : ∀ op ∈ (ops4b : List (HloOp τ sig (Elt F))), op.fresh = ∅ := by
  intro _ h; (repeat (cases h with | head => rfl | tail _ h => ?_)); exact nomatch h

theorem ops5_sub : (ops5 : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub ..⟩
theorem ops5_fresh : ∀ op ∈ (ops5 : List (HloOp τ sig (Elt F))), op.fresh = ∅ := by
  intro _ h; (repeat (cases h with | head => rfl | tail _ h => ?_)); exact nomatch h

theorem ops6_sub : (ops6 : List (HloOp τ sig (Elt F))).Forall fun op => op.bufs ⊆ tcRefs τ sig :=
  ⟨unary_bufs_sub .., unary_bufs_sub .., unary_bufs_sub .., nary_bufs_sub .., unary_bufs_sub .., reshape_bufs_sub .., unary_bufs_sub .., reshape_bufs_sub .., unary_bufs_sub .., reshape_bufs_sub .., nary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub ..⟩
theorem ops6_fresh : ∀ op ∈ (ops6 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  rw [List.forall_iff_forall_mem]
  intro op h
  simp only [ops, opsA, opsB, List.mem_append] at h
  rcases h with (h | h | h | h) | h | h | h
  · exact List.forall_iff_forall_mem.1 ops1_sub op h
  · exact List.forall_iff_forall_mem.1 ops2_sub op h
  · exact List.forall_iff_forall_mem.1 ops3_sub op h
  · exact List.forall_iff_forall_mem.1 ops4a_sub op h
  · exact List.forall_iff_forall_mem.1 ops4b_sub op h
  · exact List.forall_iff_forall_mem.1 ops5_sub op h
  · exact List.forall_iff_forall_mem.1 ops6_sub op h

theorem ops_fresh : ∀ op ∈ (ops : List (HloOp τ sig (Elt F))), op.fresh = ∅ := by
  intro op h
  simp only [ops, opsA, opsB, List.mem_append] at h
  rcases h with (h | h | h | h) | h | h | h
  · exact ops1_fresh op h
  · exact ops2_fresh op h
  · exact ops3_fresh op h
  · exact ops4a_fresh op h
  · exact ops4b_fresh op h
  · exact ops5_fresh op h
  · exact ops6_fresh op h

/-! ## The values along the run -/

variable (m : (ℓ : Loc nD τ sig) → Buf (Elt F) ℓ)

/-- The positions of corner 0, 1, 2 of every face, from the launch contents. -/
def P0 (c : Dev nD) : (⟨S200000x3, .f32⟩ : BufTy).Contents (Elt F) := rcorner (m ((c : Thread nD τ).loc main_arg0)) (rfaceCol0 (m ((c : Thread nD τ).loc main_arg6)))
def P1 (c : Dev nD) : (⟨S200000x3, .f32⟩ : BufTy).Contents (Elt F) := rcorner (m ((c : Thread nD τ).loc main_arg0)) (rfaceCol1 (m ((c : Thread nD τ).loc main_arg6)))
def P2 (c : Dev nD) : (⟨S200000x3, .f32⟩ : BufTy).Contents (Elt F) := rcorner (m ((c : Thread nD τ).loc main_arg0)) (rfaceCol2 (m ((c : Thread nD τ).loc main_arg6)))

/-- Corner 0's perceptron output: its input rows are the two edges leaving corner 0, then the features. -/
def G0 (c : Dev nD) : (⟨S200000x32, .f32⟩ : BufTy).Contents (Elt F) :=
  refMlp (input134 (subf (P1 m c) (P0 m c)) (subf (P2 m c) (P0 m c)) (m ((c : Thread nD τ).loc main_arg1)))
    (m ((c : Thread nD τ).loc main_arg2)) (m ((c : Thread nD τ).loc main_arg3)) (m ((c : Thread nD τ).loc main_arg4)) (m ((c : Thread nD τ).loc main_arg5))
/-- Corner 1's. -/
def G1 (c : Dev nD) : (⟨S200000x32, .f32⟩ : BufTy).Contents (Elt F) :=
  refMlp (input134 (subf (P2 m c) (P1 m c)) (subf (P0 m c) (P1 m c)) (m ((c : Thread nD τ).loc main_arg1)))
    (m ((c : Thread nD τ).loc main_arg2)) (m ((c : Thread nD τ).loc main_arg3)) (m ((c : Thread nD τ).loc main_arg4)) (m ((c : Thread nD τ).loc main_arg5))
/-- Corner 2's. -/
def G2 (c : Dev nD) : (⟨S200000x32, .f32⟩ : BufTy).Contents (Elt F) :=
  refMlp (input134 (subf (P0 m c) (P2 m c)) (subf (P1 m c) (P2 m c)) (m ((c : Thread nD τ).loc main_arg1)))
    (m ((c : Thread nD τ).loc main_arg2)) (m ((c : Thread nD τ).loc main_arg3)) (m ((c : Thread nD τ).loc main_arg4)) (m ((c : Thread nD τ).loc main_arg5))

/-! ## The buffer contents after each stretch -/

/-- Core `c`'s buffer contents after the first stretch, the second, … -/
def W1 (c : Dev nD) : Valuation τ sig (Elt F) := after ops1 (launchContents m c)
def W2 (c : Dev nD) : Valuation τ sig (Elt F) := after ops2 (W1 m c)
def W3 (c : Dev nD) : Valuation τ sig (Elt F) := after ops3 (W2 m c)
def W4 (c : Dev nD) : Valuation τ sig (Elt F) := after ops4b (after ops4a (W3 m c))
def W5 (c : Dev nD) : Valuation τ sig (Elt F) := after ops5 (W4 m c)
def W6 (c : Dev nD) : Valuation τ sig (Elt F) := after ops6 (W5 m c)

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line's fold is the last stretch's. -/
theorem after_ops (c : Dev nD) : after ops (launchContents m c) = W6 m c := by
  unfold W6 W5 W4 W3 W2 W1
  simp only [ops, opsA, opsB, after_app]

/-- One pass over a stretch: each operation's result at its own reference, and what was there at any other. -/
local macro "stretch_results" : tactic =>
  `(tactic| simp (disch := decide) only [after_cons, after_nil, nary3_result', nullary_result', unary_result', binary_result',
      ternary_result', reshape_result', nullary_result_ne', unary_result_ne', binary_result_ne', ternary_result_ne',
      reshape_result_ne', nary_result_ne'])

/-! ### After the gathers: the three corners' positions; the arguments as launched -/

theorem W1_v8 (c : Dev nD) : W1 m c (Proc.devRef .tc main_v8) = P0 m c := by
  unfold W1; stretch_results <;> rfl
theorem W1_v17 (c : Dev nD) : W1 m c (Proc.devRef .tc main_v17) = P1 m c := by
  unfold W1; stretch_results <;> rfl
theorem W1_v26 (c : Dev nD) : W1 m c (Proc.devRef .tc main_v26) = P2 m c := by
  unfold W1; stretch_results <;> rfl
theorem W1_arg0 (c : Dev nD) : W1 m c (Proc.devRef .tc main_arg0) = m ((c : Thread nD τ).loc main_arg0) := by
  unfold W1; stretch_results <;> rfl
theorem W1_arg1 (c : Dev nD) : W1 m c (Proc.devRef .tc main_arg1) = m ((c : Thread nD τ).loc main_arg1) := by
  unfold W1; stretch_results <;> rfl
theorem W1_arg2 (c : Dev nD) : W1 m c (Proc.devRef .tc main_arg2) = m ((c : Thread nD τ).loc main_arg2) := by
  unfold W1; stretch_results <;> rfl
theorem W1_arg3 (c : Dev nD) : W1 m c (Proc.devRef .tc main_arg3) = m ((c : Thread nD τ).loc main_arg3) := by
  unfold W1; stretch_results <;> rfl
theorem W1_arg4 (c : Dev nD) : W1 m c (Proc.devRef .tc main_arg4) = m ((c : Thread nD τ).loc main_arg4) := by
  unfold W1; stretch_results <;> rfl
theorem W1_arg5 (c : Dev nD) : W1 m c (Proc.devRef .tc main_arg5) = m ((c : Thread nD τ).loc main_arg5) := by
  unfold W1; stretch_results <;> rfl
theorem W1_arg6 (c : Dev nD) : W1 m c (Proc.devRef .tc main_arg6) = m ((c : Thread nD τ).loc main_arg6) := by
  unfold W1; stretch_results <;> rfl

/-! ### After corner 0's stretch -/

theorem W2_v38 (c : Dev nD) : W2 m c (Proc.devRef .tc main_v38) = G0 m c := by
  unfold W2 G0
  -- the claim over the stretch's entry contents: the corners and the arguments as that valuation has them
  rw [← W1_v8 m c, ← W1_v17 m c, ← W1_v26 m c, ← W1_arg1 m c, ← W1_arg2 m c, ← W1_arg3 m c, ← W1_arg4 m c, ← W1_arg5 m c]
  generalize W1 m c = W
  stretch_results
  rfl
theorem W2_v8 (c : Dev nD) : W2 m c (Proc.devRef .tc main_v8) = P0 m c := by
  unfold W2; stretch_results; exact W1_v8 m c
theorem W2_v17 (c : Dev nD) : W2 m c (Proc.devRef .tc main_v17) = P1 m c := by
  unfold W2; stretch_results; exact W1_v17 m c
theorem W2_v26 (c : Dev nD) : W2 m c (Proc.devRef .tc main_v26) = P2 m c := by
  unfold W2; stretch_results; exact W1_v26 m c
theorem W2_arg0 (c : Dev nD) : W2 m c (Proc.devRef .tc main_arg0) = m ((c : Thread nD τ).loc main_arg0) := by
  unfold W2; stretch_results; exact W1_arg0 m c
theorem W2_arg1 (c : Dev nD) : W2 m c (Proc.devRef .tc main_arg1) = m ((c : Thread nD τ).loc main_arg1) := by
  unfold W2; stretch_results; exact W1_arg1 m c
theorem W2_arg2 (c : Dev nD) : W2 m c (Proc.devRef .tc main_arg2) = m ((c : Thread nD τ).loc main_arg2) := by
  unfold W2; stretch_results; exact W1_arg2 m c
theorem W2_arg3 (c : Dev nD) : W2 m c (Proc.devRef .tc main_arg3) = m ((c : Thread nD τ).loc main_arg3) := by
  unfold W2; stretch_results; exact W1_arg3 m c
theorem W2_arg4 (c : Dev nD) : W2 m c (Proc.devRef .tc main_arg4) = m ((c : Thread nD τ).loc main_arg4) := by
  unfold W2; stretch_results; exact W1_arg4 m c
theorem W2_arg5 (c : Dev nD) : W2 m c (Proc.devRef .tc main_arg5) = m ((c : Thread nD τ).loc main_arg5) := by
  unfold W2; stretch_results; exact W1_arg5 m c
theorem W2_arg6 (c : Dev nD) : W2 m c (Proc.devRef .tc main_arg6) = m ((c : Thread nD τ).loc main_arg6) := by
  unfold W2; stretch_results; exact W1_arg6 m c

/-! ### After corner 1's -/

theorem W3_v50 (c : Dev nD) : W3 m c (Proc.devRef .tc main_v50) = G1 m c := by
  unfold W3 G1
  rw [← W2_v8 m c, ← W2_v17 m c, ← W2_v26 m c, ← W2_arg1 m c, ← W2_arg2 m c, ← W2_arg3 m c, ← W2_arg4 m c, ← W2_arg5 m c]
  generalize W2 m c = W
  stretch_results
  rfl
theorem W3_v38 (c : Dev nD) : W3 m c (Proc.devRef .tc main_v38) = G0 m c := by
  unfold W3; stretch_results; exact W2_v38 m c
theorem W3_v8 (c : Dev nD) : W3 m c (Proc.devRef .tc main_v8) = P0 m c := by
  unfold W3; stretch_results; exact W2_v8 m c
theorem W3_v17 (c : Dev nD) : W3 m c (Proc.devRef .tc main_v17) = P1 m c := by
  unfold W3; stretch_results; exact W2_v17 m c
theorem W3_v26 (c : Dev nD) : W3 m c (Proc.devRef .tc main_v26) = P2 m c := by
  unfold W3; stretch_results; exact W2_v26 m c
theorem W3_arg0 (c : Dev nD) : W3 m c (Proc.devRef .tc main_arg0) = m ((c : Thread nD τ).loc main_arg0) := by
  unfold W3; stretch_results; exact W2_arg0 m c
theorem W3_arg1 (c : Dev nD) : W3 m c (Proc.devRef .tc main_arg1) = m ((c : Thread nD τ).loc main_arg1) := by
  unfold W3; stretch_results; exact W2_arg1 m c
theorem W3_arg2 (c : Dev nD) : W3 m c (Proc.devRef .tc main_arg2) = m ((c : Thread nD τ).loc main_arg2) := by
  unfold W3; stretch_results; exact W2_arg2 m c
theorem W3_arg3 (c : Dev nD) : W3 m c (Proc.devRef .tc main_arg3) = m ((c : Thread nD τ).loc main_arg3) := by
  unfold W3; stretch_results; exact W2_arg3 m c
theorem W3_arg4 (c : Dev nD) : W3 m c (Proc.devRef .tc main_arg4) = m ((c : Thread nD τ).loc main_arg4) := by
  unfold W3; stretch_results; exact W2_arg4 m c
theorem W3_arg5 (c : Dev nD) : W3 m c (Proc.devRef .tc main_arg5) = m ((c : Thread nD τ).loc main_arg5) := by
  unfold W3; stretch_results; exact W2_arg5 m c
theorem W3_arg6 (c : Dev nD) : W3 m c (Proc.devRef .tc main_arg6) = m ((c : Thread nD τ).loc main_arg6) := by
  unfold W3; stretch_results; exact W2_arg6 m c

/-! ### After corner 2's -/

theorem W4_v62 (c : Dev nD) : W4 m c (Proc.devRef .tc main_v62) = G2 m c := by
  unfold W4 G2
  rw [← W3_v8 m c, ← W3_v17 m c, ← W3_v26 m c, ← W3_arg1 m c, ← W3_arg2 m c, ← W3_arg3 m c, ← W3_arg4 m c, ← W3_arg5 m c]
  generalize W3 m c = W
  stretch_results
  rfl
theorem W4_v50 (c : Dev nD) : W4 m c (Proc.devRef .tc main_v50) = G1 m c := by
  unfold W4; stretch_results; exact W3_v50 m c
theorem W4_v38 (c : Dev nD) : W4 m c (Proc.devRef .tc main_v38) = G0 m c := by
  unfold W4; stretch_results; exact W3_v38 m c
theorem W4_arg0 (c : Dev nD) : W4 m c (Proc.devRef .tc main_arg0) = m ((c : Thread nD τ).loc main_arg0) := by
  unfold W4; stretch_results; exact W3_arg0 m c
theorem W4_arg6 (c : Dev nD) : W4 m c (Proc.devRef .tc main_arg6) = m ((c : Thread nD τ).loc main_arg6) := by
  unfold W4; stretch_results; exact W3_arg6 m c

/-! ### After the mean of the last 29 columns -/

theorem W5_v69 (c : Dev nD) : W5 m c (Proc.devRef .tc main_v69) = mean29 (G0 m c) (G1 m c) (G2 m c) := by
  unfold W5
  rw [← W4_v38 m c, ← W4_v50 m c, ← W4_v62 m c]
  generalize W4 m c = W
  stretch_results
  rfl
theorem W5_v62 (c : Dev nD) : W5 m c (Proc.devRef .tc main_v62) = G2 m c := by
  unfold W5; stretch_results; exact W4_v62 m c
theorem W5_v50 (c : Dev nD) : W5 m c (Proc.devRef .tc main_v50) = G1 m c := by
  unfold W5; stretch_results; exact W4_v50 m c
theorem W5_v38 (c : Dev nD) : W5 m c (Proc.devRef .tc main_v38) = G0 m c := by
  unfold W5; stretch_results; exact W4_v38 m c
theorem W5_arg0 (c : Dev nD) : W5 m c (Proc.devRef .tc main_arg0) = m ((c : Thread nD τ).loc main_arg0) := by
  unfold W5; stretch_results; exact W4_arg0 m c
theorem W5_arg6 (c : Dev nD) : W5 m c (Proc.devRef .tc main_arg6) = m ((c : Thread nD τ).loc main_arg6) := by
  unfold W5; stretch_results; exact W4_arg6 m c

/-! ### After the last stretch: the two position results -/

theorem W6_v91 (c : Dev nD) : W6 m c (Proc.devRef .tc main_v91)
    = rdeltaPos (m ((c : Thread nD τ).loc main_arg6)) (out3 (G0 m c)) (out3 (G1 m c)) (out3 (G2 m c)) := by
  unfold W6
  rw [← W5_v38 m c, ← W5_v50 m c, ← W5_v62 m c, ← W5_arg6 m c]
  generalize W5 m c = W
  stretch_results
  rfl
theorem W6_v92 (c : Dev nD) : W6 m c (Proc.devRef .tc main_v92)
    = addf (m ((c : Thread nD τ).loc main_arg0)) (rdeltaPos (m ((c : Thread nD τ).loc main_arg6)) (out3 (G0 m c)) (out3 (G1 m c)) (out3 (G2 m c))) := by
  unfold W6
  rw [← W5_v38 m c, ← W5_v50 m c, ← W5_v62 m c, ← W5_arg6 m c, ← W5_arg0 m c]
  generalize W5 m c = W
  stretch_results
  rfl
theorem W6_v69 (c : Dev nD) : W6 m c (Proc.devRef .tc main_v69) = mean29 (G0 m c) (G1 m c) (G2 m c) := by
  unfold W6; stretch_results; exact W5_v69 m c
/-- No operation writes an argument. -/
theorem W6_arg0 (c : Dev nD) : W6 m c (Proc.devRef .tc main_arg0) = m ((c : Thread nD τ).loc main_arg0) := by
  unfold W6 W5 W4 W3 W2 W1; stretch_results <;> rfl
theorem W6_arg1 (c : Dev nD) : W6 m c (Proc.devRef .tc main_arg1) = m ((c : Thread nD τ).loc main_arg1) := by
  unfold W6 W5 W4 W3 W2 W1; stretch_results <;> rfl
theorem W6_arg2 (c : Dev nD) : W6 m c (Proc.devRef .tc main_arg2) = m ((c : Thread nD τ).loc main_arg2) := by
  unfold W6 W5 W4 W3 W2 W1; stretch_results <;> rfl
theorem W6_arg3 (c : Dev nD) : W6 m c (Proc.devRef .tc main_arg3) = m ((c : Thread nD τ).loc main_arg3) := by
  unfold W6 W5 W4 W3 W2 W1; stretch_results <;> rfl
theorem W6_arg4 (c : Dev nD) : W6 m c (Proc.devRef .tc main_arg4) = m ((c : Thread nD τ).loc main_arg4) := by
  unfold W6 W5 W4 W3 W2 W1; stretch_results <;> rfl
theorem W6_arg5 (c : Dev nD) : W6 m c (Proc.devRef .tc main_arg5) = m ((c : Thread nD τ).loc main_arg5) := by
  unfold W6 W5 W4 W3 W2 W1; stretch_results <;> rfl
theorem W6_arg6 (c : Dev nD) : W6 m c (Proc.devRef .tc main_arg6) = m ((c : Thread nD τ).loc main_arg6) := by
  unfold W6 W5 W4 W3 W2 W1; stretch_results <;> rfl

/-! ## The run -/

/-- On every device, for any float values, from any memory with zero counters: every weakly fair execution of @main
    terminates with the two position results and the feature result at the functions above of the launch contents,
    and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v91) = rdeltaPos (m ((c : Thread nD τ).loc main_arg6)) (out3 (G0 m c)) (out3 (G1 m c)) (out3 (G2 m c))
      ∧ r.2.mem ((c.tc : Thread nD τ).loc main_v92)
          = addf (m ((c : Thread nD τ).loc main_arg0)) (rdeltaPos (m ((c : Thread nD τ).loc main_arg6)) (out3 (G0 m c)) (out3 (G1 m c)) (out3 (G2 m c)))
      ∧ r.2.mem ((c.tc : Thread nD τ).loc main_v69) = mean29 (G0 m c) (G1 m c) (G2 m c)
      ∧ r.2.mem ((c.tc : Thread nD τ).loc main_arg0) = m ((c : Thread nD τ).loc main_arg0)
      ∧ r.2.mem ((c.tc : Thread nD τ).loc main_arg1) = m ((c : Thread nD τ).loc main_arg1)
      ∧ r.2.mem ((c.tc : Thread nD τ).loc main_arg2) = m ((c : Thread nD τ).loc main_arg2)
      ∧ r.2.mem ((c.tc : Thread nD τ).loc main_arg3) = m ((c : Thread nD τ).loc main_arg3)
      ∧ r.2.mem ((c.tc : Thread nD τ).loc main_arg4) = m ((c : Thread nD τ).loc main_arg4)
      ∧ r.2.mem ((c.tc : Thread nD τ).loc main_arg5) = m ((c : Thread nD τ).loc main_arg5)
      ∧ r.2.mem ((c.tc : Thread nD τ).loc main_arg6) = m ((c : Thread nD τ).loc main_arg6) :=
  (θ_run defs _ _).mono (fun _ h c =>
      ⟨(h c main_v91).trans ((congrFun (after_ops m c) _).trans (W6_v91 m c)),
       (h c main_v92).trans ((congrFun (after_ops m c) _).trans (W6_v92 m c)),
       (h c main_v69).trans ((congrFun (after_ops m c) _).trans (W6_v69 m c)),
       (h c main_arg0).trans ((congrFun (after_ops m c) _).trans (W6_arg0 m c)),
       (h c main_arg1).trans ((congrFun (after_ops m c) _).trans (W6_arg1 m c)),
       (h c main_arg2).trans ((congrFun (after_ops m c) _).trans (W6_arg2 m c)),
       (h c main_arg3).trans ((congrFun (after_ops m c) _).trans (W6_arg3 m c)),
       (h c main_arg4).trans ((congrFun (after_ops m c) _).trans (W6_arg4 m c)),
       (h c main_arg5).trans ((congrFun (after_ops m c) _).trans (W6_arg5 m c)),
       (h c main_arg6).trans ((congrFun (after_ops m c) _).trans (W6_arg6 m c))⟩)
    (run_seq scopedRefs_eq scopedSems_eq defs main (fun _ => ops) main_eq (fun _ => ops_sub) m ρ (fun _ => ops_fresh))

end Cert.RefVal

end
-- ==== Proof.lean ====
/-
  The kernel computes, for every face of a triangle mesh and each of its three corners, a two-layer perceptron of the
  two edges leaving the corner and the face's features; the first three output columns are scattered as a mean onto the
  corner's node (and added to the node positions), the other 29 are averaged over the corners. The reference feeds the
  perceptron one 134-column row (six edge coordinates, then 128 features) against the whole first weight matrix; the
  kernel multiplies the six edge coordinates by the matrix's first six rows and adds the features' product with its
  other 128 rows, shared by the three corners. Over the extended reals a sum over 134 columns is the sum over the first
  six plus the sum over the rest, whatever the summands, so the two agree entry by entry; the format changes are the
  identity, the kernel's sum of the corners starts from zero, and every other line (the gathers, the clamp at zero, the
  second layer, the biases, the scatter-sums, the clamped counts, the quotient) is spelt alike in both programs.
  The three frames: each program runs to the end, faults nowhere and leaves its seven arguments unchanged — the two
  kernel programs by the launch of their one region between the host lines, the reference by its run read line by line.
  No operation of the kernel was rewritten by the ideal reading, so nothing is owed for it.
-/
import proofs.«137711_j6528350290204_1_alg».proof.Defs
import proofs.«137711_j6528350290204_1_alg».proof.Proof.Gen.Kernel
import proofs.«137711_j6528350290204_1_alg».proof.Proof.Gen.Kernel.Skeleton
import proofs.«137711_j6528350290204_1_alg».proof.Proof.Gen.Kernel.Launch
import proofs.«137711_j6528350290204_1_alg».proof.Proof.Gen.Kernel.Points
import proofs.«137711_j6528350290204_1_alg».proof.Proof.Gen.KernelIdeal
import proofs.«137711_j6528350290204_1_alg».proof.Proof.Gen.KernelIdeal.Skeleton
import proofs.«137711_j6528350290204_1_alg».proof.Proof.Gen.KernelIdeal.Launch
import proofs.«137711_j6528350290204_1_alg».proof.Proof.Gen.KernelIdeal.Points
import proofs.«137711_j6528350290204_1_alg».proof.Proof.Gen.ReferenceIdeal
import proofs.«137711_j6528350290204_1_alg».proof.Proof.Gen.Pre_finite_inputs
import proofs.«137711_j6528350290204_1_alg».proof.Proof.KB.Body
import proofs.«137711_j6528350290204_1_alg».proof.Proof.KI.Join
import proofs.«137711_j6528350290204_1_alg».proof.Proof.RefRun
import Idealize.ShloMosaic.Adequacy
import Idealize.ShloMosaic.Init

noncomputable section

namespace Cert.Proof

open Idealize.ShloMosaic Idealize.SL.Sem

/-- The word-level kernel program runs to the end and keeps its arguments. -/
theorem frame_k : Cert.frame_Kernel := fun m ρ _ => Cert.Kernel.Frm.frame m ρ
/-- So does its reading over the extended reals. -/
theorem frame_ki : Cert.frame_KernelIdeal := fun m ρ _ => Cert.KernelIdeal.Frm.frame m ρ
/-- And the reference: its run, the results dropped. -/
theorem frame_ri : Cert.frame_ReferenceIdeal := fun m ρ _ =>
  (θ_run Cert.ReferenceIdeal.defs _ _).mono (fun _ h c => (h c).2.2.2) (Cert.RefVal.run (F := Ideal) m ρ)

/-- From memories that agree on the arguments both programs end with the same three results: the reference's run
    names them over its own arguments, which are the kernel's. -/
theorem algebraic : Cert.algebraic_KernelIdeal_ReferenceIdeal := by
  intro m ρ m' ρ' _ hagree
  refine ⟨_, _, _, Cert.KernelIdeal.Val.kernel_run m ρ, ?_⟩
  refine (θ_run Cert.ReferenceIdeal.defs _ _).mono (fun r h c => ?_) (Cert.RefVal.run (F := Ideal) m' ρ')
  obtain ⟨h0, h1, h2, hargs⟩ := h c
  obtain ⟨e0, e1, e2, e3, e4, e5, e6⟩ := hagree c
  have hG0 : Cert.RefVal.G0 m' c = Cert.KernelIdeal.Val.G0 m c := by
    unfold Cert.RefVal.G0 Cert.RefVal.P0 Cert.RefVal.P1 Cert.RefVal.P2
    rw [e0, e1, e2, e3, e4, e5, e6]
    rfl
  have hG1 : Cert.RefVal.G1 m' c = Cert.KernelIdeal.Val.G1 m c := by
    unfold Cert.RefVal.G1 Cert.RefVal.P0 Cert.RefVal.P1 Cert.RefVal.P2
    rw [e0, e1, e2, e3, e4, e5, e6]
    rfl
  have hG2 : Cert.RefVal.G2 m' c = Cert.KernelIdeal.Val.G2 m c := by
    unfold Cert.RefVal.G2 Cert.RefVal.P0 Cert.RefVal.P1 Cert.RefVal.P2
    rw [e0, e1, e2, e3, e4, e5, e6]
    rfl
  refine ⟨h0.trans ?_, h1.trans ?_, h2.trans ?_, hargs⟩
  · rw [hG0, hG1, hG2, e6]; rfl
  · rw [hG0, hG1, hG2, e6, e0]; rfl
  · rw [hG0, hG1, hG2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
